-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_sq" .f32 0x24E69595#32 ((126765058482001 / 1267650600228229401496703205376 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072 : Shape := ⟨1, ![131072]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072 : S_.BroadcastsInDim S131072 (![] : Fin 0 → Fin S131072.rank)
  reducesTo_S131072_S_d0 : S131072.ReducesTo [0] S_

variable [Facts]

def fn {F : FTy → Type} [FloatOps F] (main_arg0 : FVec F S131072x512 .f32) (main_arg1 : IVec S131072 32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_c_0 : IVec S_ 32 := constantI S_ 32 0#32
  let main_v4 : IVec S131072 32 := broadcastInDim S131072 ![] bcast_S_S131072 main_c_0
  let main_v5 : IVec S131072 1 := cmpi .sge main_arg1 main_v4
  let main_c_1 : IVec S_ 32 := constantI S_ 32 16#32
  let main_v6 : IVec S131072 32 := broadcastInDim S131072 ![] bcast_S_S131072 main_c_1
  let main_v7 : IVec S131072 1 := cmpi .slt main_arg1 main_v6
  let main_v8 : IVec S131072 1 := andi main_v5 main_v7
  let main_c_2 : IVec S_ 1 := constantI S_ 1 1#1
  let main_v9 : IVec S_ 1 := (fun x v => Host.reduce IntOp.andi x v reducesTo_S131072_S_d0 h_S_) main_v8 main_c_2
  let main_v10 : IVec S_ 1 := andi main_v3 main_v9
  main_v10
-- ==== Kernel.lean ====
abbrev S131072x512 : Shape := ⟨2, ![131072, 512]⟩
abbrev S131072 : Shape := ⟨1, ![131072]⟩
abbrev S1x131072 : Shape := ⟨2, ![1, 131072]⟩
abbrev S131072x1 : Shape := ⟨2, ![131072, 1]⟩
abbrev S2x16x512 : Shape := ⟨3, ![2, 16, 512]⟩
abbrev S8192x512 : Shape := ⟨2, ![8192, 512]⟩
abbrev S1x8192 : Shape := ⟨2, ![1, 8192]⟩
abbrev S1x16x512 : Shape := ⟨3, ![1, 16, 512]⟩
abbrev S16x512 : Shape := ⟨2, ![16, 512]⟩
abbrev S16x8192 : Shape := ⟨2, ![16, 8192]⟩
abbrev S_ : Shape := ⟨0, ![]⟩
abbrev S16 : Shape := ⟨1, ![16]⟩
abbrev S16x1 : Shape := ⟨2, ![16, 1]⟩
abbrev S512x16 : Shape := ⟨2, ![512, 16]⟩
abbrev S16x16 : Shape := ⟨2, ![16, 16]⟩
abbrev S1x16 : Shape := ⟨2, ![1, 16]⟩
abbrev S2x1x1 : Shape := ⟨3, ![2, 1, 1]⟩
abbrev S2x16x16 : Shape := ⟨3, ![2, 16, 16]⟩
abbrev S8192x1 : Shape := ⟨2, ![8192, 1]⟩
abbrev S1x1x1 : Shape := ⟨3, ![1, 1, 1]⟩
abbrev S1x16x16 : Shape := ⟨3, ![1, 16, 16]⟩
abbrev S1x1 : Shape := ⟨2, ![1, 1]⟩
abbrev S8192 : Shape := ⟨1, ![8192]⟩
abbrev S8192x16 : Shape := ⟨2, ![8192, 16]⟩
abbrev S1 : Shape := ⟨1, ![1]⟩

abbrev nBuf : Space → Nat
  | .hbm => 92
  | .vmem => 16
  | .smem => 0
  | _ => 0

abbrev bufTy : (tb : Table) → Fin (tcTables nBuf tb) → BufTy
  | .hbm, ⟨0, _⟩ => ⟨S131072x512, .f32⟩
  | .hbm, ⟨1, _⟩ => ⟨S131072, .i32⟩
  | .hbm, ⟨2, _⟩ => ⟨S1x131072, .i32⟩
  | .hbm, ⟨3, _⟩ => ⟨S131072x1, .i32⟩
  | .hbm, ⟨4, _⟩ => ⟨S2x16x512, .f32⟩
  | .hbm, ⟨5, _⟩ => ⟨S_, .f32⟩
  | .hbm, ⟨6, _⟩ => ⟨S16x512, .f32⟩
  | .hbm, ⟨7, _⟩ => ⟨S_, .f32⟩
  | .hbm, ⟨8, _⟩ => ⟨S131072, .f32⟩
  | .hbm, ⟨9, _⟩ => ⟨S_, .f32⟩
  | .hbm, ⟨10, _⟩ => ⟨S16, .f32⟩
  | .hbm, ⟨11, _⟩ => ⟨S131072x1, .i32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16x1, .f32⟩
  | .hbm, ⟨17, _⟩ => ⟨S16x512, .f32⟩
  | .hbm, ⟨18, _⟩ => ⟨S16x512, .f32⟩
  | .hbm, ⟨19, _⟩ => ⟨S_, .f32⟩
  | .hbm, ⟨20, _⟩ => ⟨S16, .f32⟩
  | .hbm, ⟨21, _⟩ => ⟨S16, .i1⟩
  | .hbm, ⟨22, _⟩ => ⟨S16x512, .f32⟩
  | .hbm, ⟨23, _⟩ => ⟨S_, .f32⟩
  | .hbm, ⟨24, _⟩ => ⟨S16, .f32⟩
  | .hbm, ⟨25, _⟩ => ⟨S16x1, .f32⟩
  | .hbm, ⟨26, _⟩ => ⟨S16x1, .f32⟩
  | .hbm, ⟨27, _⟩ => ⟨S_, .f32⟩
  | .hbm, ⟨28, _⟩ => ⟨S16x1, .f32⟩
  | .hbm, ⟨29, _⟩ => ⟨S16x1, .f32⟩
  | .hbm, ⟨30, _⟩ => ⟨S16x512, .f32⟩
  | .hbm, ⟨31, _⟩ => ⟨S16x512, .f32⟩
  | .hbm, ⟨32, _⟩ => ⟨S512x16, .f32⟩
  | .hbm, ⟨33, _⟩ => ⟨S512x16, .f32⟩
  | .hbm, ⟨34, _⟩ => ⟨S16x16, .f32⟩
  | .hbm, ⟨35, _⟩ => ⟨S_, .f32⟩
  | .hbm, ⟨36, _⟩ => ⟨S16x16, .f32⟩
  | .hbm, ⟨37, _⟩ => ⟨S16x16, .f32⟩
  | .hbm, ⟨38, _⟩ => ⟨S_, .i1⟩
  | .hbm, ⟨39, _⟩ => ⟨S16x16, .i1⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i32⟩
  | .hbm, ⟨45, _⟩ => ⟨S16x16, .i1⟩
  | .hbm, ⟨46, _⟩ => ⟨S_, .i1⟩
  | .hbm, ⟨47, _⟩ => ⟨S16x16, .i1⟩
  | .hbm, ⟨48, _⟩ => ⟨S16x16, .i1⟩
  | .hbm, ⟨49, _⟩ => ⟨S_, .f32⟩
  | .hbm, ⟨50, _⟩ => ⟨S16x16, .f32⟩
  | .hbm, ⟨51, _⟩ => ⟨S16x16, .i1⟩
  | .hbm, ⟨52, _⟩ => ⟨S16x16, .i1⟩
  | .hbm, ⟨53, _⟩ => ⟨S16x1, .i1⟩
  | .hbm, ⟨54, _⟩ => ⟨S16x16, .i1⟩
  | .hbm, ⟨55, _⟩ => ⟨S16x16, .i1⟩
  | .hbm, ⟨56, _⟩ => ⟨S1x16, .i1⟩
  | .hbm, ⟨57, _⟩ => ⟨S16x16, .i1⟩
  | .hbm, ⟨58, _⟩ => ⟨S16x16, .i1⟩
  | .hbm, ⟨59, _⟩ => ⟨S16x16, .f32⟩
  | .hbm, ⟨60, _⟩ => ⟨S_, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S1x16, .f32⟩
  | .hbm, ⟨66, _⟩ => ⟨S2x1x1, .f32⟩
  | .hbm, ⟨67, _⟩ => ⟨S2x16x16, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S16x16, .f32⟩
  | .hbm, ⟨72, _⟩ => ⟨S16x16, .f32⟩
  | .hbm, ⟨73, _⟩ => ⟨S16x16, .f32⟩
  | .hbm, ⟨74, _⟩ => ⟨S16x16, .f32⟩
  | .hbm, ⟨75, _⟩ => ⟨S_, .f32⟩
  | .hbm, ⟨76, _⟩ => ⟨S_, .f32⟩
  | .hbm, ⟨77, _⟩ => ⟨S16, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S8192x512, .f32⟩
  | .local _ .vmem, ⟨1, _⟩ => ⟨S8192x512, .f32⟩
  | .local _ .vmem, ⟨2, _⟩ => ⟨S1x8192, .i32⟩
  | .local _ .vmem, ⟨3, _⟩ => ⟨S1x8192, .i32⟩
  | .local _ .vmem, ⟨4, _⟩ => ⟨S1x16x512, .f32⟩
  | .local _ .vmem, ⟨5, _⟩ => ⟨S1x16x512, .f32⟩
  | .local _ .vmem, ⟨6, _⟩ => ⟨S8192x512, .f32⟩
  | .local _ .vmem, ⟨7, _⟩ => ⟨S8192x512, .f32⟩
  | .local _ .vmem, ⟨8, _⟩ => ⟨S8192x1, .i32⟩
  | .local _ .vmem, ⟨9, _⟩ => ⟨S8192x1, .i32⟩
  | .local _ .vmem, ⟨10, _⟩ => ⟨S512x16, .f32⟩
  | .local _ .vmem, ⟨11, _⟩ => ⟨S1x16, .f32⟩
  | .local _ .vmem, ⟨12, _⟩ => ⟨S1x1x1, .f32⟩
  | .local _ .vmem, ⟨13, _⟩ => ⟨S1x1x1, .f32⟩
  | .local _ .vmem, ⟨14, _⟩ => ⟨S1x16x16, .f32⟩
  | .local _ .vmem, ⟨15, _⟩ => ⟨S1x16x16, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_0 : Ref sig .tc := ⟨.hbm, 46, rfl⟩
abbrev main_call1_v5 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_cst_9 : Ref sig .tc := ⟨.hbm, 68, rfl⟩
abbrev main_v42 : Ref sig .tc := ⟨.hbm, 69, rfl⟩
abbrev main_cst_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_cst_13 : Ref sig .tc := ⟨.hbm, 80, rfl⟩
abbrev main_v50 : Ref sig .tc := ⟨.hbm, 81, rfl⟩
abbrev main_cst_14 : Ref sig .tc := ⟨.hbm, 82, rfl⟩
abbrev main_v51 : Ref sig .tc := ⟨.hbm, 83, rfl⟩
abbrev main_cst_15 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_16 : Ref sig .tc := ⟨.hbm, 89, rfl⟩
abbrev main_call2_v0 : Ref sig .tc := ⟨.hbm, 90, rfl⟩
abbrev main_v56 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8192x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S512x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x16x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S131072_S1x131072 : S131072.ShapeCasts S1x131072
  shapeCasts_S131072_S131072x1 : S131072.ShapeCasts S131072x1
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S1x16x512 : S16x512.ShapeCasts S1x16x512
  iota_S16x8192_d0_w32 : S16x8192.Iotas .tc 32 [0]
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S16x8192 : S1x8192.Broadcasts S16x8192
  natLt_1_32 : 1 < 32
  inb_S8192x512_S8192x512_0_0 : ∀ a, (![0, 0] : Fin 2 → Nat) a + S8192x512.size a ≤ S8192x512.size a
  h_S8192x512 : 0 < S8192x512.numel
  reducesTo_S2x16x512_S16x512_d0 : S2x16x512.ReducesTo [0] S16x512
  h_S_ : 0 < S_.numel
  bcast_S_S131072 : S_.BroadcastsInDim S131072 (![] : Fin 0 → Fin S131072.rank)
  bcast_S_S16 : S_.BroadcastsInDim S16 (![] : Fin 0 → Fin S16.rank)
  bcast_S131072_S131072x1_0 : S131072.BroadcastsInDim S131072x1 (![0] : Fin 1 → Fin S131072x1.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  reducesTo_S16x512_S16_d1 : S16x512.ReducesTo [1] S16
  bcast_S_S16x1 : S_.BroadcastsInDim S16x1 (![] : Fin 0 → Fin S16x1.rank)
  transposes_S16x512_S512x16_1_0 : S16x512.Transposes [1, 0] S512x16
  bcast_S_S16x16 : S_.BroadcastsInDim S16x16 (![] : Fin 0 → Fin S16x16.rank)
  bcast_S16x1_S16x16_0_1 : S16x1.BroadcastsInDim S16x16 (![0, 1] : Fin 2 → Fin S16x16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  reducesTo_S16x16_S16_d1 : S16x16.ReducesTo [1] S16
  reducesTo_S16x16_S16_d0 : S16x16.ReducesTo [0] S16
  shapeCasts_S16_S1x16 : S16.ShapeCasts S1x16
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S1x16x16_S1x16x16_0_0_0 : ∀ a, (![0, 0, 0] : Fin 3 → Nat) a + S1x16x16.size a ≤ S1x16x16.size a
  h_S1x16x16 : 0 < S1x16x16.numel
  shapeCasts_S1x16x16_S16x16 : S1x16x16.ShapeCasts S16x16
  shapeCasts_S16x16_S1x16x16 : S16x16.ShapeCasts S1x16x16
  reduces_S8192x512_S8192 : S8192x512.Reduces [1] S8192
  shapeCasts_S8192_S8192x1 : S8192.ShapeCasts S8192x1
  broadcasts_S8192x1_S8192x512 : S8192x1.Broadcasts S8192x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  shapeCasts_S512x16_S512x16 : S512x16.ShapeCasts S512x16
  iota_S8192x16_d1_w32 : S8192x16.Iotas .tc 32 [1]
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  reduces_S8192x16_S8192 : S8192x16.Reduces [1] S8192
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  reducesTo_S2x1x1_S_d0_1_2 : S2x1x1.ReducesTo [0, 1, 2] S_
  reducesTo_S2x16x16_S16x16_d0 : S2x16x16.ReducesTo [0] S16x16
  transposes_S16x16_S16x16_1_0 : S16x16.Transposes [1, 0] S16x16
  reducesTo_S16x16_S_d0_1 : S16x16.ReducesTo [0, 1] S_
  reducesTo_S16_S_d0 : S16.ReducesTo [0] S_
  dot_S16x8192_S8192x512_S16x512_1_0_0_1_n_n_wf : DotDims.WF S16x8192 S8192x512 S16x512 [1] [0] [0] [1] [] []
  scatter_S16_S131072x1_S131072_n_0_0_1_wf : ScatterDims.WF S16 S131072x1 S131072 [] [0] [0] 1
  dot_S16x512_S512x16_S16x16_1_0_0_1_n_n_wf : DotDims.WF S16x512 S512x16 S16x16 [1] [0] [0] [1] [] []
  dot_S8192x512_S512x16_S8192x16_1_0_0_1_n_n_wf : DotDims.WF S8192x512 S512x16 S8192x16 [1] [0] [0] [1] [] []
  dot_S8192x16_S8192x16_S16x16_0_0_1_1_n_n_wf : DotDims.WF S8192x16 S8192x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S131072x512.size a
  hwx0_0 : ∀ i : grid0.Coords, EltTy.bits .f32 = 32 ∨ (Rect.block (s := S131072x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x131072.size a
  hwx0_1 : ∀ i : grid0.Coords, EltTy.bits .i32 = 32 ∨ (Rect.block (s := S1x131072) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x512.size a ≤ S2x16x512.size a
  hwx0_2 : ∀ i : grid0.Coords, EltTy.bits .f32 = 32 ∨ (Rect.block (s := S2x16x512) S1x16x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x512.size a ≤ S131072x512.size a
  hwx1_0 : ∀ i : grid1.Coords, EltTy.bits .f32 = 32 ∨ (Rect.block (s := S131072x512) S8192x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S131072x1.size a
  hwx1_1 : ∀ i : grid1.Coords, EltTy.bits .i32 = 32 ∨ (Rect.block (s := S131072x1) S8192x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x16.size a ≤ S512x16.size a
  hwx1_2 : ∀ i : grid1.Coords, EltTy.bits .f32 = 32 ∨ (Rect.block (s := S512x16) S512x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x16x16.size a ≤ S2x16x16.size a
  hwx1_5 : ∀ i : grid1.Coords, EltTy.bits .f32 = 32 ∨ (Rect.block (s := S2x16x16) S1x16x16.size (cc1_transform_5 i) (hinb1_5 i)).WholeWords (EltTy.packing .f32)

variable [Facts₀]

def dot_S16x8192_S8192x512_S16x512_1_0_0_1_n_n : DotDims S16x8192 S8192x512 S16x512 where
  lhsContracting := [1]
  rhsContracting := [0]
  lhsNonContracting := [0]
  rhsNonContracting := [1]
  lhsBatch := []
  rhsBatch := []
  wf := dot_S16x8192_S8192x512_S16x512_1_0_0_1_n_n_wf
def scatter_S16_S131072x1_S131072_n_0_0_1 : ScatterDims S16 S131072x1 S131072 where
  updateWindowDims := []
  insertedWindowDims := [0]
  scatterDimsToOperandDims := [0]
  indexVectorDim := 1
  wf := scatter_S16_S131072x1_S131072_n_0_0_1_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf
def dot_S8192x16_S8192x16_S16x16_0_0_1_1_n_n : DotDims S8192x16 S8192x16 S16x16 where
  lhsContracting := [0]
  rhsContracting := [0]
  lhsNonContracting := [1]
  rhsNonContracting := [1]
  lhsBatch := []
  rhsBatch := []
  wf := dot_S8192x16_S8192x16_S16x16_0_0_1_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S8192x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41_0) S1x1x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v41_1) S1x16x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S131072x512 : Shape := ⟨2, ![131072, 512]⟩
abbrev S131072 : Shape := ⟨1, ![131072]⟩
abbrev S_ : Shape := ⟨0, ![]⟩
abbrev S16 : Shape := ⟨1, ![16]⟩
abbrev S131072x1 : Shape := ⟨2, ![131072, 1]⟩
abbrev S16x512 : Shape := ⟨2, ![16, 512]⟩
abbrev S16x1 : Shape := ⟨2, ![16, 1]⟩
abbrev S512x16 : Shape := ⟨2, ![512, 16]⟩
abbrev S16x16 : Shape := ⟨2, ![16, 16]⟩
abbrev S1x16 : Shape := ⟨2, ![1, 16]⟩
abbrev S512x131072 : Shape := ⟨2, ![512, 131072]⟩
abbrev S16x131072 : Shape := ⟨2, ![16, 131072]⟩
abbrev S131072x2 : Shape := ⟨2, ![131072, 2]⟩
abbrev S131072x16 : Shape := ⟨2, ![131072, 16]⟩

abbrev nBuf : Space → Nat
  | .hbm => 167
  | .vmem => 0
  | .smem => 0
  | _ => 0

abbrev hbmTy0_0 (i : Nat) : BufTy := match i % 128 with
  | 0 => ⟨S131072x512, .f32⟩
  | 1 => ⟨S131072, .i32⟩
  | 2 => ⟨S_, .f32⟩
  | 3 => ⟨S131072, .f32⟩
  | 4 => ⟨S_, .f32⟩
  | 5 => ⟨S16, .f32⟩
  | 6 => ⟨S131072x1, .i32⟩
  | 7 => ⟨S16, .f32⟩
  | 8 => ⟨S_, .f32⟩
  | 9 => ⟨S16x512, .f32⟩
  | 10 => ⟨S131072x1, .i32⟩
  | 11 => ⟨S16x512, .f32⟩
  | 12 => ⟨S_, .f32⟩
  | 13 => ⟨S16, .f32⟩
  | 14 => ⟨S16, .f32⟩
  | 15 => ⟨S16x1, .f32⟩
  | 16 => ⟨S16x512, .f32⟩
  | 17 => ⟨S16x512, .f32⟩
  | 18 => ⟨S_, .f32⟩
  | 19 => ⟨S16, .f32⟩
  | 20 => ⟨S16, .i1⟩
  | 21 => ⟨S16x512, .f32⟩
  | 22 => ⟨S_, .f32⟩
  | 23 => ⟨S16, .f32⟩
  | 24 => ⟨S16x1, .f32⟩
  | 25 => ⟨S16x1, .f32⟩
  | 26 => ⟨S_, .f32⟩
  | 27 => ⟨S16x1, .f32⟩
  | 28 => ⟨S16x1, .f32⟩
  | 29 => ⟨S16x512, .f32⟩
  | 30 => ⟨S16x512, .f32⟩
  | 31 => ⟨S16x512, .f32⟩
  | 32 => ⟨S_, .f32⟩
  | 33 => ⟨S16, .f32⟩
  | 34 => ⟨S16x1, .f32⟩
  | 35 => ⟨S16x1, .f32⟩
  | 36 => ⟨S_, .f32⟩
  | 37 => ⟨S16x1, .f32⟩
  | 38 => ⟨S16x1, .f32⟩
  | 39 => ⟨S16x512, .f32⟩
  | 40 => ⟨S16x512, .f32⟩
  | 41 => ⟨S512x16, .f32⟩
  | 42 => ⟨S16x16, .f32⟩
  | 43 => ⟨S_, .f32⟩
  | 44 => ⟨S16x16, .f32⟩
  | 45 => ⟨S16x16, .f32⟩
  | 46 => ⟨S_, .i1⟩
  | 47 => ⟨S16x16, .i1⟩
  | 48 => ⟨S16x16, .i32⟩
  | 49 => ⟨S_, .i32⟩
  | 50 => ⟨S16x16, .i32⟩
  | 51 => ⟨S16x16, .i32⟩
  | 52 => ⟨S16x16, .i32⟩
  | 53 => ⟨S16x16, .i1⟩
  | 54 => ⟨S_, .i1⟩
  | 55 => ⟨S16x16, .i1⟩
  | 56 => ⟨S16x16, .i1⟩
  | 57 => ⟨S_, .f32⟩
  | 58 => ⟨S16x16, .f32⟩
  | 59 => ⟨S16x16, .i1⟩
  | 60 => ⟨S16x16, .i1⟩
  | 61 => ⟨S16x1, .i1⟩
  | 62 => ⟨S16x16, .i1⟩
  | 63 => ⟨S16x16, .i1⟩
  | 64 => ⟨S1x16, .i1⟩
  | 65 => ⟨S16x16, .i1⟩
  | 66 => ⟨S16x16, .i1⟩
  | 67 => ⟨S16x16, .f32⟩
  | 68 => ⟨S_, .f32⟩
  | 69 => ⟨S16, .f32⟩
  | 70 => ⟨S_, .f32⟩
  | 71 => ⟨S16, .f32⟩
  | 72 => ⟨S16, .f32⟩
  | 73 => ⟨S16x512, .f32⟩
  | 74 => ⟨S_, .f32⟩
  | 75 => ⟨S16, .f32⟩
  | 76 => ⟨S16x1, .f32⟩
  | 77 => ⟨S16x1, .f32⟩
  | 78 => ⟨S_, .f32⟩
  | 79 => ⟨S16x1, .f32⟩
  | 80 => ⟨S16x1, .f32⟩
  | 81 => ⟨S16x512, .f32⟩
  | 82 => ⟨S16x512, .f32⟩
  | 83 => ⟨S131072x512, .f32⟩
  | 84 => ⟨S_, .f32⟩
  | 85 => ⟨S131072, .f32⟩
  | 86 => ⟨S131072x1, .f32⟩
  | 87 => ⟨S131072x1, .f32⟩
  | 88 => ⟨S_, .f32⟩
  | 89 => ⟨S131072x1, .f32⟩
  | 90 => ⟨S131072x1, .f32⟩
  | 91 => ⟨S131072x512, .f32⟩
  | 92 => ⟨S131072x512, .f32⟩
  | 93 => ⟨S512x131072, .f32⟩
  | 94 => ⟨S16x131072, .f32⟩
  | 95 => ⟨S_, .f32⟩
  | 96 => ⟨S16x131072, .f32⟩
  | 97 => ⟨S16x131072, .f32⟩
  | 98 => ⟨S131072, .i32⟩
  | 99 => ⟨S_, .i32⟩
  | 100 => ⟨S131072, .i32⟩
  | 101 => ⟨S131072, .i1⟩
  | 102 => ⟨S_, .i32⟩
  | 103 => ⟨S131072, .i32⟩
  | 104 => ⟨S131072, .i32⟩
  | 105 => ⟨S131072, .i32⟩
  | 106 => ⟨S_, .i32⟩
  | 107 => ⟨S131072, .i32⟩
  | 108 => ⟨S131072, .i1⟩
  | 109 => ⟨S_, .i32⟩
  | 110 => ⟨S131072, .i32⟩
  | 111 => ⟨S131072, .i32⟩
  | 112 => ⟨S131072, .i32⟩
  | 113 => ⟨S131072x1, .i32⟩
  | 114 => ⟨S131072x1, .i32⟩
  | 115 => ⟨S131072x2, .i32⟩
  | 116 => ⟨S131072, .f32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S131072x1, .i32⟩
  | 125 => ⟨S131072, .f32⟩
  | 126 => ⟨S_, .f32⟩
  | 127 => ⟨S131072, .f32⟩
  | _ => ⟨S131072x512, .f32⟩

abbrev hbmTy0_1 (i : Nat) : BufTy := match i % 128 with
  | 0 => ⟨S131072, .f32⟩
  | 1 => ⟨S_, .f32⟩
  | 2 => ⟨S131072, .f32⟩
  | 3 => ⟨S131072, .f32⟩
  | 4 => ⟨S131072, .f32⟩
  | 5 => ⟨S_, .f32⟩
  | 6 => ⟨S_, .f32⟩
  | 7 => ⟨S_, .f32⟩
  | 8 => ⟨S16x131072, .f32⟩
  | 9 => ⟨S16x131072, .f32⟩
  | 10 => ⟨S_, .f32⟩
  | 11 => ⟨S16x131072, .f32⟩
  | 12 => ⟨S16x131072, .f32⟩
  | 13 => ⟨S131072x16, .f32⟩
  | 14 => ⟨S_, .f32⟩
  | 15 => ⟨S16x16, .f32⟩
  | 16 => ⟨S131072x1, .i32⟩
  | 17 => ⟨S16x16, .f32⟩
  | 18 => ⟨S16x16, .f32⟩
  | 19 => ⟨S16x16, .f32⟩
  | 20 => ⟨S16x16, .f32⟩
  | 21 => ⟨S16x16, .f32⟩
  | 22 => ⟨S_, .f32⟩
  | 23 => ⟨S_, .f32⟩
  | 24 => ⟨S16, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S131072x512, .f32⟩

abbrev hbmTy (i : Nat) : BufTy := match i / 128 with
  | 0 => hbmTy0_0 i
  | 1 => hbmTy0_1 i
  | _ => ⟨S131072x512, .f32⟩

abbrev bufTy : (tb : Table) → Fin (tcTables nBuf tb) → BufTy
  | .hbm, ⟨i, _⟩ => hbmTy i
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_c : Ref sig .tc := ⟨.hbm, 46, rfl⟩
abbrev main_v28 : Ref sig .tc := ⟨.hbm, 47, rfl⟩
abbrev main_call2_v0 : Ref sig .tc := ⟨.hbm, 48, rfl⟩
abbrev main_call2_c : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_0 : Ref sig .tc := ⟨.hbm, 54, rfl⟩
abbrev main_call2_v5 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v43 : Ref sig .tc := ⟨.hbm, 77, rfl⟩
abbrev main_cst_10 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_call4_v0 : Ref sig .tc := ⟨.hbm, 83, rfl⟩
abbrev main_call4_cst : Ref sig .tc := ⟨.hbm, 84, rfl⟩
abbrev main_call4_v1 : Ref sig .tc := ⟨.hbm, 85, rfl⟩
abbrev main_call4_v2 : Ref sig .tc := ⟨.hbm, 86, rfl⟩
abbrev main_v48 : Ref sig .tc := ⟨.hbm, 87, rfl⟩
abbrev main_cst_11 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_12 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_13 : Ref sig .tc := ⟨.hbm, 99, rfl⟩
abbrev main_v58 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_c_15 : Ref sig .tc := ⟨.hbm, 106, rfl⟩
abbrev main_v63 : Ref sig .tc := ⟨.hbm, 107, rfl⟩
abbrev main_v64 : Ref sig .tc := ⟨.hbm, 108, rfl⟩
abbrev main_c_16 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_c_17 : Ref sig .tc := ⟨.hbm, 117, rfl⟩
abbrev main_v72 : Ref sig .tc := ⟨.hbm, 118, rfl⟩
abbrev main_v73 : Ref sig .tc := ⟨.hbm, 119, rfl⟩
abbrev main_c_18 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_19 : Ref sig .tc := ⟨.hbm, 126, rfl⟩
abbrev main_v79 : Ref sig .tc := ⟨.hbm, 127, rfl⟩
abbrev main_v80 : Ref sig .tc := ⟨.hbm, 128, rfl⟩
abbrev main_call5_cst : Ref sig .tc := ⟨.hbm, 129, rfl⟩
abbrev main_call5_v0 : Ref sig .tc := ⟨.hbm, 130, rfl⟩
abbrev main_v81 : Ref sig .tc := ⟨.hbm, 131, rfl⟩
abbrev main_v82 : Ref sig .tc := ⟨.hbm, 132, rfl⟩
abbrev main_cst_20 : Ref sig .tc := ⟨.hbm, 133, rfl⟩
abbrev main_v83 : Ref sig .tc := ⟨.hbm, 134, rfl⟩
abbrev main_cst_21 : Ref sig .tc := ⟨.hbm, 135, rfl⟩
abbrev main_v84 : Ref sig .tc := ⟨.hbm, 136, rfl⟩
abbrev main_v85 : Ref sig .tc := ⟨.hbm, 137, rfl⟩
abbrev main_call6_cst : Ref sig .tc := ⟨.hbm, 138, rfl⟩
abbrev main_call6_v0 : Ref sig .tc := ⟨.hbm, 139, rfl⟩
abbrev main_v86 : Ref sig .tc := ⟨.hbm, 140, rfl⟩
abbrev main_v87 : Ref sig .tc := ⟨.hbm, 141, rfl⟩
abbrev main_cst_22 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_23 : Ref sig .tc := ⟨.hbm, 150, rfl⟩
abbrev main_v95 : Ref sig .tc := ⟨.hbm, 151, rfl⟩
abbrev main_v96 : Ref sig .tc := ⟨.hbm, 152, rfl⟩
abbrev main_cst_24 : Ref sig .tc := ⟨.hbm, 153, rfl⟩
abbrev main_v97 : Ref sig .tc := ⟨.hbm, 154, rfl⟩
abbrev main_cst_25 : Ref sig .tc := ⟨.hbm, 155, rfl⟩
abbrev main_v98 : Ref sig .tc := ⟨.hbm, 156, rfl⟩
abbrev main_cst_26 : Ref sig .tc := ⟨.hbm, 157, rfl⟩
abbrev main_v99 : Ref sig .tc := ⟨.hbm, 158, rfl⟩
abbrev main_cst_27 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_28 : Ref sig .tc := ⟨.hbm, 164, rfl⟩
abbrev main_call7_v0 : Ref sig .tc := ⟨.hbm, 165, rfl⟩
abbrev main_v104 : Ref sig .tc := ⟨.hbm, 166, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S_S16 : S_.BroadcastsInDim S16 (![] : Fin 0 → Fin S16.rank)
  bcast_S131072_S131072x1_0 : S131072.BroadcastsInDim S131072x1 (![0] : Fin 1 → Fin S131072x1.rank)
  bcast_S_S16x512 : S_.BroadcastsInDim S16x512 (![] : Fin 0 → Fin S16x512.rank)
  bcast_S16_S16x1_0 : S16.BroadcastsInDim S16x1 (![0] : Fin 1 → Fin S16x1.rank)
  bcast_S16x1_S16x512_0_1 : S16x1.BroadcastsInDim S16x512 (![0, 1] : Fin 2 → Fin S16x512.rank)
  reducesTo_S16x512_S16_d1 : S16x512.ReducesTo [1] S16
  h_S_ : 0 < S_.numel
  bcast_S_S16x1 : S_.BroadcastsInDim S16x1 (![] : Fin 0 → Fin S16x1.rank)
  transposes_S16x512_S512x16_1_0 : S16x512.Transposes [1, 0] S512x16
  bcast_S_S16x16 : S_.BroadcastsInDim S16x16 (![] : Fin 0 → Fin S16x16.rank)
  bcast_S16x1_S16x16_0_1 : S16x1.BroadcastsInDim S16x16 (![0, 1] : Fin 2 → Fin S16x16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  reducesTo_S16x16_S16_d1 : S16x16.ReducesTo [1] S16
  reducesTo_S16x16_S16_d0 : S16x16.ReducesTo [0] S16
  reducesTo_S131072x512_S131072_d1 : S131072x512.ReducesTo [1] S131072
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  transposes_S131072x512_S512x131072_1_0 : S131072x512.Transposes [1, 0] S512x131072
  bcast_S_S16x131072 : S_.BroadcastsInDim S16x131072 (![] : Fin 0 → Fin S16x131072.rank)
  concatenates_S131072x1_S131072x1_S131072x2_d1 : Shape.Concatenates [S131072x1, S131072x1] S131072x2 1
  reducesTo_S131072_S_d0 : S131072.ReducesTo [0] S_
  transposes_S16x131072_S131072x16_1_0 : S16x131072.Transposes [1, 0] S131072x16
  transposes_S16x16_S16x16_1_0 : S16x16.Transposes [1, 0] S16x16
  reducesTo_S16x16_S_d0_1 : S16x16.ReducesTo [0, 1] S_
  reducesTo_S16_S_d0 : S16.ReducesTo [0] S_
  scatter_S16_S131072x1_S131072_n_0_0_1_wf : ScatterDims.WF S16 S131072x1 S131072 [] [0] [0] 1
  scatter_S16x512_S131072x1_S131072x512_1_0_0_1_wf : ScatterDims.WF S16x512 S131072x1 S131072x512 [1] [0] [0] 1
  dot_S16x512_S512x16_S16x16_1_0_0_1_n_n_wf : DotDims.WF S16x512 S512x16 S16x16 [1] [0] [0] [1] [] []
  dot_S16x512_S512x131072_S16x131072_1_0_0_1_n_n_wf : DotDims.WF S16x512 S512x131072 S16x131072 [1] [0] [0] [1] [] []
  gather_S16x131072_S131072x2_S131072_n_01_n_n_01_1_11_wf : GatherDims.WF S16x131072 S131072x2 S131072 [] [0, 1] [] [0, 1] [] 1 ![1, 1]
  gather_S16_S131072x1_S131072_n_0_n_n_0_1_1_wf : GatherDims.WF S16 S131072x1 S131072 [] [0] [] [0] [] 1 ![1]
  scatter_S16x16_S131072x1_S131072x16_1_0_0_1_wf : ScatterDims.WF S16x16 S131072x1 S131072x16 [1] [0] [0] 1

variable [Facts₀]

def scatter_S16_S131072x1_S131072_n_0_0_1 : ScatterDims S16 S131072x1 S131072 where
  updateWindowDims := []
  insertedWindowDims := [0]
  scatterDimsToOperandDims := [0]
  indexVectorDim := 1
  wf := scatter_S16_S131072x1_S131072_n_0_0_1_wf
def scatter_S16x512_S131072x1_S131072x512_1_0_0_1 : ScatterDims S16x512 S131072x1 S131072x512 where
  updateWindowDims := [1]
  insertedWindowDims := [0]
  scatterDimsToOperandDims := [0]
  indexVectorDim := 1
  wf := scatter_S16x512_S131072x1_S131072x512_1_0_0_1_wf
def dot_S16x512_S512x16_S16x16_1_0_0_1_n_n : DotDims S16x512 S512x16 S16x16 where
  lhsContracting := [1]
  rhsContracting := [0]
  lhsNonContracting := [0]
  rhsNonContracting := [1]
  lhsBatch := []
  rhsBatch := []
  wf := dot_S16x512_S512x16_S16x16_1_0_0_1_n_n_wf
def dot_S16x512_S512x131072_S16x131072_1_0_0_1_n_n : DotDims S16x512 S512x131072 S16x131072 where
  lhsContracting := [1]
  rhsContracting := [0]
  lhsNonContracting := [0]
  rhsNonContracting := [1]
  lhsBatch := []
  rhsBatch := []
  wf := dot_S16x512_S512x131072_S16x131072_1_0_0_1_n_n_wf
def gather_S16x131072_S131072x2_S131072_n_01_n_n_01_1_11 : GatherDims S16x131072 S131072x2 S131072 where
  offsetDims := []
  collapsedSliceDims := [0, 1]
  operandBatchingDims := []
  startIndicesBatchingDims := []
  startIndexMap := [0, 1]
  indexVectorDim := 1
  sliceSizes := ![1, 1]
  wf := gather_S16x131072_S131072x2_S131072_n_01_n_n_01_1_11_wf
def gather_S16_S131072x1_S131072_n_0_n_n_0_1_1 : GatherDims S16 S131072x1 S131072 where
  offsetDims := []
  collapsedSliceDims := [0]
  operandBatchingDims := []
  startIndicesBatchingDims := []
  startIndexMap := [0]
  indexVectorDim := 1
  sliceSizes := ![1]
  wf := gather_S16_S131072x1_S131072_n_0_n_n_0_1_1_wf
def scatter_S16x16_S131072x1_S131072x16_1_0_0_1 : ScatterDims S16x16 S131072x1 S131072x16 where
  updateWindowDims := [1]
  insertedWindowDims := [0]
  scatterDimsToOperandDims := [0]
  indexVectorDim := 1
  wf := scatter_S16x16_S131072x1_S131072x16_1_0_0_1_wf

class Facts : Prop extends Facts₀ where

variable [Facts]
-- ==== Proof.Mid.lean ====
/-
  The part of the computation that both programs spell with the same host operations, as functions of what they
  are applied to: the class counts from the labels; the centroids (class sums over max(count, 1)); which classes
  are present; the centroids over max(their length, ε); the table of close pairs (i < j, both present, one minus the
  inner product of the scaled centroids at most β) as zeros and ones; the number of pairs each class is in; and the
  closing arithmetic: with T the inter-class table, the loss is (intra / D + Σ pairs·(T + Tᵀ) / D) when there is a
  pair, else 0, where D = max(Σ degree·count, 1).
-/
import proofs.«425050_j40157944218131_3_alg».proof.KernelIdeal

noncomputable section

namespace Cert.KernelIdeal.Mid

open Cert.KernelIdeal Idealize.ShloMosaic

variable {F : FTy → Type} [FloatOps F]
variable [Facts]
open Facts₀ Facts

/-- The class counts: a one for every sample, added into its class's entry. -/
def cnt (lab : (⟨S131072, .i32⟩ : BufTy).Contents (Elt F)) : (⟨S16, .f32⟩ : BufTy).Contents (Elt F) :=
  Host.scatterAdd scatter_S16_S131072x1_S131072_n_0_0_1
    (broadcastInDim S16 ![] bcast_S_S16 (constant S_ .f32 0x00000000#32))
    (broadcastInDim S131072x1 ![0] bcast_S131072_S131072x1_0 lab)
    (broadcastInDim S131072 ![] bcast_S_S131072 (constant S_ .f32 0x3F800000#32))

/-- The centroids: each class sum over max(its count, 1). -/
def cen (sums : (⟨S16x512, .f32⟩ : BufTy).Contents (Elt F)) (cnt : (⟨S16, .f32⟩ : BufTy).Contents (Elt F)) :
    (⟨S16x512, .f32⟩ : BufTy).Contents (Elt F) :=
  Host.divf sums (broadcastInDim S16x512 ![0, 1] bcast_S16x1_S16x512_0_1 (broadcastInDim S16x1 ![0] bcast_S16_S16x1_0
    (maximumf cnt (broadcastInDim S16 ![] bcast_S_S16 (constant S_ .f32 0x3F800000#32)))))

/-- A class is present when its count is positive. -/
def present (cnt : (⟨S16, .f32⟩ : BufTy).Contents (Elt F)) : (⟨S16, .i1⟩ : BufTy).Contents (Elt F) :=
  cmpf .ogt cnt (broadcastInDim S16 ![] bcast_S_S16 (constant S_ .f32 0x00000000#32))

/-- The centroids scaled to unit length: each row over max(its length, ε). -/
def cn (cen : (⟨S16x512, .f32⟩ : BufTy).Contents (Elt F)) : (⟨S16x512, .f32⟩ : BufTy).Contents (Elt F) :=
  Host.divf cen (broadcastInDim S16x512 ![0, 1] bcast_S16x1_S16x512_0_1
    (maximumf (Host.sqrt (broadcastInDim S16x1 ![0] bcast_S16_S16x1_0
        (Host.reduceAdd (mulf cen cen) (constant S_ .f32 0x00000000#32) reducesTo_S16x512_S16_d1 h_S_)))
      (broadcastInDim S16x1 ![] bcast_S_S16x1 (constant S_ .f32 0x322BCC77#32))))

/-- The scaled centroids as columns: what the second pass multiplies the samples with. -/
def cnT (cn : (⟨S16x512, .f32⟩ : BufTy).Contents (Elt F)) : (⟨S512x16, .f32⟩ : BufTy).Contents (Elt F) :=
  transpose S512x16 [1, 0] cn transposes_S16x512_S512x16_1_0

/-- The strict upper triangle, as a mask. -/
def triu : (⟨S16x16, .i1⟩ : BufTy).Contents (Elt F) :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 0#1))
    (broadcastInDim S16x16 ![] bcast_S_S16x16 (constantI S_ 1 1#1))

/-- The close pairs, as zeros and ones. -/
def pm (cn : (⟨S16x512, .f32⟩ : BufTy).Contents (Elt F)) (present : (⟨S16, .i1⟩ : BufTy).Contents (Elt F)) :
    (⟨S16x16, .f32⟩ : BufTy).Contents (Elt F) :=
  uitofp .f32 (andi (andi (andi (triu (F := F))
      (cmpf .ole (subf (broadcastInDim S16x16 ![] bcast_S_S16x16 (constant S_ .f32 0x3F800000#32))
          (Host.dotGeneral dot_S16x512_S512x16_S16x16_1_0_0_1_n_n none cn (transpose S512x16 [1, 0] cn transposes_S16x512_S512x16_1_0)))
        (broadcastInDim S16x16 ![] bcast_S_S16x16 (constant S_ .f32 0x3F8CCCCD#32))))
      (broadcastInDim S16x16 ![0, 1] bcast_S16x1_S16x16_0_1 (broadcastInDim S16x1 ![0] bcast_S16_S16x1_0 present)))
    (broadcastInDim S16x16 ![0, 1] bcast_S1x16_S16x16_0_1 (broadcastInDim S1x16 ![1] bcast_S16_S1x16_1 present)))

/-- The number of close pairs each class is in: its row sum plus its column sum. -/
def deg (pm : (⟨S16x16, .f32⟩ : BufTy).Contents (Elt F)) : (⟨S16, .f32⟩ : BufTy).Contents (Elt F) :=
  addf (Host.reduceAdd pm (constant S_ .f32 0x00000000#32) reducesTo_S16x16_S16_d1 h_S_)
    (Host.reduceAdd pm (constant S_ .f32 0x00000000#32) reducesTo_S16x16_S16_d0 h_S_)

/-- The degrees as the one row the second pass reads. -/
def degRow (deg : (⟨S16, .f32⟩ : BufTy).Contents (Elt F)) : (⟨S1x16, .f32⟩ : BufTy).Contents (Elt F) :=
  shapeCast S1x16 deg shapeCasts_S16_S1x16

/-- The closing arithmetic. -/
def tail (pm : (⟨S16x16, .f32⟩ : BufTy).Contents (Elt F)) (deg cnt : (⟨S16, .f32⟩ : BufTy).Contents (Elt F))
    (intra : (⟨S_, .f32⟩ : BufTy).Contents (Elt F)) (T : (⟨S16x16, .f32⟩ : BufTy).Contents (Elt F)) :
    (⟨S_, .f32⟩ : BufTy).Contents (Elt F) :=
  select (cmpf .ogt (Host.reduceAdd pm (constant S_ .f32 0x00000000#32) reducesTo_S16x16_S_d0_1 h_S_) (constant S_ .f32 0x00000000#32))
    (addf
      (Host.divf intra (maximumf (Host.reduceAdd (mulf deg cnt) (constant S_ .f32 0x00000000#32) reducesTo_S16_S_d0 h_S_) (constant S_ .f32 0x3F800000#32)))
      (Host.divf (Host.reduceAdd (mulf pm (addf T (transpose S16x16 [1, 0] T transposes_S16x16_S16x16_1_0))) (constant S_ .f32 0x00000000#32) reducesTo_S16x16_S_d0_1 h_S_)
        (maximumf (Host.reduceAdd (mulf deg cnt) (constant S_ .f32 0x00000000#32) reducesTo_S16_S_d0 h_S_) (constant S_ .f32 0x3F800000#32))))
    (id (constant S_ .f32 0x00000000#32))

/-! The same, composed: everything as a function of the class sums and the labels. -/

/-- The scaled centroids, from the class sums and the labels. -/
def cnOf (sums : (⟨S16x512, .f32⟩ : BufTy).Contents (Elt F)) (lab : (⟨S131072, .i32⟩ : BufTy).Contents (Elt F)) :
    (⟨S16x512, .f32⟩ : BufTy).Contents (Elt F) :=
  cn (cen sums (cnt (F := F) lab))

/-- The close pairs, from the class sums and the labels. -/
def pmOf (sums : (⟨S16x512, .f32⟩ : BufTy).Contents (Elt F)) (lab : (⟨S131072, .i32⟩ : BufTy).Contents (Elt F)) :
    (⟨S16x16, .f32⟩ : BufTy).Contents (Elt F) :=
  pm (cnOf sums lab) (present (cnt (F := F) lab))

/-- The degrees, from the class sums and the labels. -/
def degOf (sums : (⟨S16x512, .f32⟩ : BufTy).Contents (Elt F)) (lab : (⟨S131072, .i32⟩ : BufTy).Contents (Elt F)) :
    (⟨S16, .f32⟩ : BufTy).Contents (Elt F) :=
  deg (pmOf sums lab)

/-- The loss, from the class sums, the labels, the intra-class term and the inter-class table. -/
def loss (sums : (⟨S16x512, .f32⟩ : BufTy).Contents (Elt F)) (lab : (⟨S131072, .i32⟩ : BufTy).Contents (Elt F))
    (intra : (⟨S_, .f32⟩ : BufTy).Contents (Elt F)) (T : (⟨S16x16, .f32⟩ : BufTy).Contents (Elt F)) :
    (⟨S_, .f32⟩ : BufTy).Contents (Elt F) :=
  tail (pmOf sums lab) (degOf sums lab) (cnt (F := F) lab) intra T

end Cert.KernelIdeal.Mid

end
-- ==== Proof.KHost.lean ====
/-
  The kernel program's host operations, threaded: what each pass finds in the buffers it reads, and the result, as
  the shared functions of the first pass's result array, the labels, and the second pass's two result arrays.
-/
import proofs.«425050_j40157944218131_3_alg».proof.Proof.Gen.KernelIdeal.Frame
import proofs.«425050_j40157944218131_3_alg».proof.Proof.Mid
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- The class sums as the kernel program forms them: the first pass's two partial sums added. -/
def sumsK (c : Dev nD) : (⟨S16x512, .f32⟩ : BufTy).Contents (Elt F) :=
  Host.reduceAdd (W2 m ρ c (Proc.devRef .tc main_v2)) (constant S_ .f32 0x00000000#32) reducesTo_S2x16x512_S16x512_d0 h_S_

/-! ### One stretch of host operations at a time, from any buffer contents `X`

Each lemma reads one buffer after one stretch as the stretch's operations applied to what `X` holds at the buffers
the stretch reads; a buffer the stretch does not write is read as `X` holds it. Where a lemma takes equations for what
`X` holds, its right-hand side is a shared function of the named values. -/

section Stretches

variable (X : Valuation τ sig (Elt F))

/-! The five stretches between the two passes write neither the samples nor the labels' column layout. -/

/-- No operation between the two passes writes the samples, … -/
theorem s1x_arg0 : StableHlo.after hostOps1_4 (StableHlo.after hostOps1_3 (StableHlo.after hostOps1_2
      (StableHlo.after hostOps1_1 (StableHlo.after hostOps1 X)))) (Proc.devRef .tc main_arg0) = X (Proc.devRef .tc main_arg0) := by
  after_results

/-- … nor the labels laid out as one column. -/
theorem s1x_v1 : StableHlo.after hostOps1_4 (StableHlo.after hostOps1_3 (StableHlo.after hostOps1_2
      (StableHlo.after hostOps1_1 (StableHlo.after hostOps1 X)))) (Proc.devRef .tc main_v1) = X (Proc.devRef .tc main_v1) := by
  after_results

/-! The stretch after the first pass: the class sums, the class counts, the centroids, the present classes. -/

theorem s1_v7 : StableHlo.after hostOps1 X (Proc.devRef .tc main_v7) = Mid.cnt (X (Proc.devRef .tc main_arg1)) := by
  after_results; rfl

theorem s1_v12 : StableHlo.after hostOps1 X (Proc.devRef .tc main_v12)
    = Mid.cen (Host.reduceAdd (X (Proc.devRef .tc main_v2)) (constant S_ .f32 0x00000000#32) reducesTo_S2x16x512_S16x512_d0 h_S_)
        (Mid.cnt (X (Proc.devRef .tc main_arg1))) := by
  after_results; rfl

theorem s1_v14 : StableHlo.after hostOps1 X (Proc.devRef .tc main_v14) = Mid.present (Mid.cnt (X (Proc.devRef .tc main_arg1))) := by
  after_results; rfl

/-! The row lengths of the centroids. -/

theorem s11_v15 (cen : (⟨S16x512, .f32⟩ : BufTy).Contents (Elt F)) (h12 : X (Proc.devRef .tc main_v12) = cen) :
    StableHlo.after hostOps1_1 X (Proc.devRef .tc main_v15)
      = Host.sqrt (broadcastInDim S16x1 ![0] bcast_S16_S16x1_0
          (Host.reduceAdd (mulf cen cen) (constant S_ .f32 0x00000000#32) reducesTo_S16x512_S16_d1 h_S_)) := by
  after_results; rw [h12]; rfl

theorem s11_v12 : StableHlo.after hostOps1_1 X (Proc.devRef .tc main_v12) = X (Proc.devRef .tc main_v12) := by
  after_results
theorem s11_v14 : StableHlo.after hostOps1_1 X (Proc.devRef .tc main_v14) = X (Proc.devRef .tc main_v14) := by
  after_results
theorem s11_v7 : StableHlo.after hostOps1_1 X (Proc.devRef .tc main_v7) = X (Proc.devRef .tc main_v7) := by
  after_results

/-! The scaled centroids, their transpose, one minus their inner products, and the all-ones mask. -/

theorem s12_v19 (cen : (⟨S16x512, .f32⟩ : BufTy).Contents (Elt F)) (h12 : X (Proc.devRef .tc main_v12) = cen)
    (h15 : X (Proc.devRef .tc main_v15) = Host.sqrt (broadcastInDim S16x1 ![0] bcast_S16_S16x1_0
          (Host.reduceAdd (mulf cen cen) (constant S_ .f32 0x00000000#32) reducesTo_S16x512_S16_d1 h_S_))) :
    StableHlo.after hostOps1_2 X (Proc.devRef .tc main_v19) = Mid.cn cen := by
  after_results; rw [h12, h15]; rfl

theorem s12_v20 (cen : (⟨S16x512, .f32⟩ : BufTy).Contents (Elt F)) (h12 : X (Proc.devRef .tc main_v12) = cen)
    (h15 : X (Proc.devRef .tc main_v15) = Host.sqrt (broadcastInDim S16x1 ![0] bcast_S16_S16x1_0
          (Host.reduceAdd (mulf cen cen) (constant S_ .f32 0x00000000#32) reducesTo_S16x512_S16_d1 h_S_))) :
    StableHlo.after hostOps1_2 X (Proc.devRef .tc main_v20) = Mid.cnT (Mid.cn cen) := by
  after_results; rw [h12, h15]; rfl

theorem s12_v24 (cen : (⟨S16x512, .f32⟩ : BufTy).Contents (Elt F)) (h12 : X (Proc.devRef .tc main_v12) = cen)
    (h15 : X (Proc.devRef .tc main_v15) = Host.sqrt (broadcastInDim S16x1 ![0] bcast_S16_S16x1_0
          (Host.reduceAdd (mulf cen cen) (constant S_ .f32 0x00000000#32) reducesTo_S16x512_S16_d1 h_S_))) :
    StableHlo.after hostOps1_2 X (Proc.devRef .tc main_v24)
      = subf (broadcastInDim S16x16 ![] bcast_S_S16x16 (constant S_ .f32 0x3F800000#32))
          (Host.dotGeneral dot_S16x512_S512x16_S16x16_1_0_0_1_n_n none (Mid.cn cen)
            (transpose S512x16 [1, 0] (Mid.cn cen) transposes_S16x512_S512x16_1_0)) := by
  after_results; rw [h12, h15]; rfl

theorem s12_v25 : StableHlo.after hostOps1_2 X (Proc.devRef .tc main_v25)
    = broadcastInDim S16x16 ![] bcast_S_S16x16 (constantI S_ 1 1#1) := by
  after_results

theorem s12_v14 : StableHlo.after hostOps1_2 X (Proc.devRef .tc main_v14) = X (Proc.devRef .tc main_v14) := by
  after_results
theorem s12_v7 : StableHlo.after hostOps1_2 X (Proc.devRef .tc main_v7) = X (Proc.devRef .tc main_v7) := by
  after_results

/-! The strict upper triangle. -/

theorem s13_v26 (h25 : X (Proc.devRef .tc main_v25) = broadcastInDim S16x16 ![] bcast_S_S16x16 (constantI S_ 1 1#1)) :
    StableHlo.after hostOps1_3 X (Proc.devRef .tc main_v26) = Mid.triu := by
  after_results; rw [h25]; rfl

theorem s13_v20 : StableHlo.after hostOps1_3 X (Proc.devRef .tc main_v20) = X (Proc.devRef .tc main_v20) := by
  after_results
theorem s13_v24 : StableHlo.after hostOps1_3 X (Proc.devRef .tc main_v24) = X (Proc.devRef .tc main_v24) := by
  after_results
theorem s13_v14 : StableHlo.after hostOps1_3 X (Proc.devRef .tc main_v14) = X (Proc.devRef .tc main_v14) := by
  after_results
theorem s13_v7 : StableHlo.after hostOps1_3 X (Proc.devRef .tc main_v7) = X (Proc.devRef .tc main_v7) := by
  after_results

/-! The close pairs, the degrees, and the degrees as a row. -/

theorem s14_v36 (cn : (⟨S16x512, .f32⟩ : BufTy).Contents (Elt F)) (pres : (⟨S16, .i1⟩ : BufTy).Contents (Elt F))
    (h26 : X (Proc.devRef .tc main_v26) = Mid.triu)
    (h24 : X (Proc.devRef .tc main_v24) = subf (broadcastInDim S16x16 ![] bcast_S_S16x16 (constant S_ .f32 0x3F800000#32))
          (Host.dotGeneral dot_S16x512_S512x16_S16x16_1_0_0_1_n_n none cn
            (transpose S512x16 [1, 0] cn transposes_S16x512_S512x16_1_0)))
    (h14 : X (Proc.devRef .tc main_v14) = pres) :
    StableHlo.after hostOps1_4 X (Proc.devRef .tc main_v36) = Mid.pm cn pres := by
  after_results; rw [h26, h24, h14]; rfl

theorem s14_v39 (cn : (⟨S16x512, .f32⟩ : BufTy).Contents (Elt F)) (pres : (⟨S16, .i1⟩ : BufTy).Contents (Elt F))
    (h26 : X (Proc.devRef .tc main_v26) = Mid.triu)
    (h24 : X (Proc.devRef .tc main_v24) = subf (broadcastInDim S16x16 ![] bcast_S_S16x16 (constant S_ .f32 0x3F800000#32))
          (Host.dotGeneral dot_S16x512_S512x16_S16x16_1_0_0_1_n_n none cn
            (transpose S512x16 [1, 0] cn transposes_S16x512_S512x16_1_0)))
    (h14 : X (Proc.devRef .tc main_v14) = pres) :
    StableHlo.after hostOps1_4 X (Proc.devRef .tc main_v39) = Mid.deg (Mid.pm cn pres) := by
  after_results_simp; rw [h26, h24, h14]; rfl

theorem s14_v40 (cn : (⟨S16x512, .f32⟩ : BufTy).Contents (Elt F)) (pres : (⟨S16, .i1⟩ : BufTy).Contents (Elt F))
    (h26 : X (Proc.devRef .tc main_v26) = Mid.triu)
    (h24 : X (Proc.devRef .tc main_v24) = subf (broadcastInDim S16x16 ![] bcast_S_S16x16 (constant S_ .f32 0x3F800000#32))
          (Host.dotGeneral dot_S16x512_S512x16_S16x16_1_0_0_1_n_n none cn
            (transpose S512x16 [1, 0] cn transposes_S16x512_S512x16_1_0)))
    (h14 : X (Proc.devRef .tc main_v14) = pres) :
    StableHlo.after hostOps1_4 X (Proc.devRef .tc main_v40) = Mid.degRow (Mid.deg (Mid.pm cn pres)) := by
  after_results_simp; rw [h26, h24, h14]; rfl

theorem s14_v20 : StableHlo.after hostOps1_4 X (Proc.devRef .tc main_v20) = X (Proc.devRef .tc main_v20) := by
  after_results
theorem s14_v7 : StableHlo.after hostOps1_4 X (Proc.devRef .tc main_v7) = X (Proc.devRef .tc main_v7) := by
  after_results

/-! The closing arithmetic: the two stretches after the second pass, read at the result. -/

theorem s2_v56 (pm : (⟨S16x16, .f32⟩ : BufTy).Contents (Elt F)) (deg cnt : (⟨S16, .f32⟩ : BufTy).Contents (Elt F))
    (h36 : X (Proc.devRef .tc main_v36) = pm) (h39 : X (Proc.devRef .tc main_v39) = deg) (h7 : X (Proc.devRef .tc main_v7) = cnt) :
    StableHlo.after hostOps2_1 (StableHlo.after hostOps2 X) (Proc.devRef .tc main_v56)
      = Mid.tail pm deg cnt
          (Host.reduceAdd (X (Proc.devRef .tc main_v41_0)) (constant S_ .f32 0x00000000#32) reducesTo_S2x1x1_S_d0_1_2 h_S_)
          (Host.reduceAdd (X (Proc.devRef .tc main_v41_1)) (constant S_ .f32 0x00000000#32) reducesTo_S2x16x16_S16x16_d0 h_S_) := by
  after_results_simp; rw [h36, h39, h7]; rfl

end Stretches

/-! ### The boundaries, one after the other

With `lab` the labels as launched and `sumsK` the class sums: what the buffers that a later stretch or pass reads hold
at each boundary of the program. -/

/-- Neither the first stretch nor the first pass writes the labels. -/
theorem W2_arg1 (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results

/-- The first pass leaves the labels' column layout as the first stretch wrote it. -/
theorem W2_v1 (c : Dev nD) :
    W2 m ρ c (Proc.devRef .tc main_v1) = shapeCast S131072x1 (m ((c : Thread nD τ).loc main_arg1)) shapeCasts_S131072_S131072x1 := by
  refine (W2_of_ne m ρ c main_v1 (by decide)).trans ?_
  show StableHlo.after hostOps0 (W0 m ρ c) (Proc.devRef .tc main_v1) = _
  after_results; rfl

/-- The first pass reads the samples through an input window: it leaves them as entered. -/
theorem W2_arg0 (c : Dev nD) : W2 m ρ c (Proc.devRef .tc main_arg0) = m ((c : Thread nD τ).loc main_arg0) := by
  refine ((W2_arr m ρ c 0).trans (((dat0 (V1 m ρ) c).arrAt_in 0 rfl _).trans (A_eq0 (V1 m ρ) c 0))).trans ?_
  show StableHlo.after hostOps0 (W0 m ρ c) (Proc.devRef .tc main_arg0) = _
  after_results

theorem W3_v7 (c : Dev nD) : W3 m ρ c (Proc.devRef .tc main_v7) = Mid.cnt (m ((c : Thread nD τ).loc main_arg1)) := by
  refine (s1_v7 (W2 m ρ c)).trans ?_; rw [W2_arg1]
theorem W3_v12 (c : Dev nD) :
    W3 m ρ c (Proc.devRef .tc main_v12) = Mid.cen (sumsK m ρ c) (Mid.cnt (m ((c : Thread nD τ).loc main_arg1))) := by
  refine (s1_v12 (W2 m ρ c)).trans ?_; rw [W2_arg1]; rfl
theorem W3_v14 (c : Dev nD) :
    W3 m ρ c (Proc.devRef .tc main_v14) = Mid.present (Mid.cnt (m ((c : Thread nD τ).loc main_arg1))) := by
  refine (s1_v14 (W2 m ρ c)).trans ?_; rw [W2_arg1]

theorem W4_v7 (c : Dev nD) : W4 m ρ c (Proc.devRef .tc main_v7) = Mid.cnt (m ((c : Thread nD τ).loc main_arg1)) :=
  (s11_v7 (W3 m ρ c)).trans (W3_v7 m ρ c)
theorem W4_v12 (c : Dev nD) :
    W4 m ρ c (Proc.devRef .tc main_v12) = Mid.cen (sumsK m ρ c) (Mid.cnt (m ((c : Thread nD τ).loc main_arg1))) :=
  (s11_v12 (W3 m ρ c)).trans (W3_v12 m ρ c)
theorem W4_v14 (c : Dev nD) :
    W4 m ρ c (Proc.devRef .tc main_v14) = Mid.present (Mid.cnt (m ((c : Thread nD τ).loc main_arg1))) :=
  (s11_v14 (W3 m ρ c)).trans (W3_v14 m ρ c)
theorem W4_v15 (c : Dev nD) :
    W4 m ρ c (Proc.devRef .tc main_v15) = Host.sqrt (broadcastInDim S16x1 ![0] bcast_S16_S16x1_0
      (Host.reduceAdd (mulf (Mid.cen (sumsK m ρ c) (Mid.cnt (m ((c : Thread nD τ).loc main_arg1))))
          (Mid.cen (sumsK m ρ c) (Mid.cnt (m ((c : Thread nD τ).loc main_arg1)))))
        (constant S_ .f32 0x00000000#32) reducesTo_S16x512_S16_d1 h_S_)) :=
  s11_v15 (W3 m ρ c) _ (W3_v12 m ρ c)

theorem W5_v7 (c : Dev nD) : W5 m ρ c (Proc.devRef .tc main_v7) = Mid.cnt (m ((c : Thread nD τ).loc main_arg1)) :=
  (s12_v7 (W4 m ρ c)).trans (W4_v7 m ρ c)
theorem W5_v14 (c : Dev nD) :
    W5 m ρ c (Proc.devRef .tc main_v14) = Mid.present (Mid.cnt (m ((c : Thread nD τ).loc main_arg1))) :=
  (s12_v14 (W4 m ρ c)).trans (W4_v14 m ρ c)
theorem W5_v20 (c : Dev nD) :
    W5 m ρ c (Proc.devRef .tc main_v20) = Mid.cnT (Mid.cnOf (sumsK m ρ c) (m ((c : Thread nD τ).loc main_arg1))) :=
  s12_v20 (W4 m ρ c) _ (W4_v12 m ρ c) (W4_v15 m ρ c)
theorem W5_v24 (c : Dev nD) :
    W5 m ρ c (Proc.devRef .tc main_v24)
      = subf (broadcastInDim S16x16 ![] bcast_S_S16x16 (constant S_ .f32 0x3F800000#32))
          (Host.dotGeneral dot_S16x512_S512x16_S16x16_1_0_0_1_n_n none (Mid.cnOf (sumsK m ρ c) (m ((c : Thread nD τ).loc main_arg1)))
            (transpose S512x16 [1, 0] (Mid.cnOf (sumsK m ρ c) (m ((c : Thread nD τ).loc main_arg1))) transposes_S16x512_S512x16_1_0)) :=
  s12_v24 (W4 m ρ c) _ (W4_v12 m ρ c) (W4_v15 m ρ c)
theorem W5_v25 (c : Dev nD) :
    W5 m ρ c (Proc.devRef .tc main_v25) = broadcastInDim S16x16 ![] bcast_S_S16x16 (constantI S_ 1 1#1) :=
  s12_v25 (W4 m ρ c)

theorem W6_v7 (c : Dev nD) : W6 m ρ c (Proc.devRef .tc main_v7) = Mid.cnt (m ((c : Thread nD τ).loc main_arg1)) :=
  (s13_v7 (W5 m ρ c)).trans (W5_v7 m ρ c)
theorem W6_v14 (c : Dev nD) :
    W6 m ρ c (Proc.devRef .tc main_v14) = Mid.present (Mid.cnt (m ((c : Thread nD τ).loc main_arg1))) :=
  (s13_v14 (W5 m ρ c)).trans (W5_v14 m ρ c)
theorem W6_v20 (c : Dev nD) :
    W6 m ρ c (Proc.devRef .tc main_v20) = Mid.cnT (Mid.cnOf (sumsK m ρ c) (m ((c : Thread nD τ).loc main_arg1))) :=
  (s13_v20 (W5 m ρ c)).trans (W5_v20 m ρ c)
theorem W6_v24 (c : Dev nD) :
    W6 m ρ c (Proc.devRef .tc main_v24)
      = subf (broadcastInDim S16x16 ![] bcast_S_S16x16 (constant S_ .f32 0x3F800000#32))
          (Host.dotGeneral dot_S16x512_S512x16_S16x16_1_0_0_1_n_n none (Mid.cnOf (sumsK m ρ c) (m ((c : Thread nD τ).loc main_arg1)))
            (transpose S512x16 [1, 0] (Mid.cnOf (sumsK m ρ c) (m ((c : Thread nD τ).loc main_arg1))) transposes_S16x512_S512x16_1_0)) :=
  (s13_v24 (W5 m ρ c)).trans (W5_v24 m ρ c)
theorem W6_v26 (c : Dev nD) : W6 m ρ c (Proc.devRef .tc main_v26) = Mid.triu :=
  s13_v26 (W5 m ρ c) (W5_v25 m ρ c)

theorem W7_v7 (c : Dev nD) : W7 m ρ c (Proc.devRef .tc main_v7) = Mid.cnt (m ((c : Thread nD τ).loc main_arg1)) :=
  (s14_v7 (W6 m ρ c)).trans (W6_v7 m ρ c)
theorem W7_v36 (c : Dev nD) :
    W7 m ρ c (Proc.devRef .tc main_v36) = Mid.pmOf (sumsK m ρ c) (m ((c : Thread nD τ).loc main_arg1)) :=
  s14_v36 (W6 m ρ c) (Mid.cnOf (sumsK m ρ c) (m ((c : Thread nD τ).loc main_arg1)))
    (Mid.present (Mid.cnt (m ((c : Thread nD τ).loc main_arg1)))) (W6_v26 m ρ c) (W6_v24 m ρ c) (W6_v14 m ρ c)
theorem W7_v39 (c : Dev nD) :
    W7 m ρ c (Proc.devRef .tc main_v39) = Mid.degOf (sumsK m ρ c) (m ((c : Thread nD τ).loc main_arg1)) :=
  s14_v39 (W6 m ρ c) (Mid.cnOf (sumsK m ρ c) (m ((c : Thread nD τ).loc main_arg1)))
    (Mid.present (Mid.cnt (m ((c : Thread nD τ).loc main_arg1)))) (W6_v26 m ρ c) (W6_v24 m ρ c) (W6_v14 m ρ c)

/-- The second pass writes none of the three buffers the closing arithmetic reads besides its results. -/
theorem W8_v7 (c : Dev nD) : W8 m ρ c (Proc.devRef .tc main_v7) = Mid.cnt (m ((c : Thread nD τ).loc main_arg1)) :=
  (W8_of_ne m ρ c main_v7 (by decide)).trans (W7_v7 m ρ c)
theorem W8_v36 (c : Dev nD) :
    W8 m ρ c (Proc.devRef .tc main_v36) = Mid.pmOf (sumsK m ρ c) (m ((c : Thread nD τ).loc main_arg1)) :=
  (W8_of_ne m ρ c main_v36 (by decide)).trans (W7_v36 m ρ c)
theorem W8_v39 (c : Dev nD) :
    W8 m ρ c (Proc.devRef .tc main_v39) = Mid.degOf (sumsK m ρ c) (m ((c : Thread nD τ).loc main_arg1)) :=
  (W8_of_ne m ρ c main_v39 (by decide)).trans (W7_v39 m ρ c)

/-! ### The statements -/

/-- The first pass reads the samples as launched … -/
theorem V1_arg0 (c : Dev nD) : V1 m ρ c main_arg0 = m ((c : Thread nD τ).loc main_arg0) := by
  show StableHlo.after hostOps0 (W0 m ρ c) (Proc.devRef .tc main_arg0) = _
  after_results
/-- … and the labels laid out as one row. -/
theorem V1_v0 (c : Dev nD) :
    V1 m ρ c main_v0 = shapeCast S1x131072 (m ((c : Thread nD τ).loc main_arg1)) shapeCasts_S131072_S1x131072 := by
  show StableHlo.after hostOps0 (W0 m ρ c) (Proc.devRef .tc main_v0) = _
  after_results; rfl
/-- After the first pass its result buffer holds what the pass leaves. -/
theorem W2_v2 (c : Dev nD) : W2 m ρ c (Proc.devRef .tc main_v2) = (dat0 (V1 m ρ) c).arrAt 2 cfg0.N :=
  W2_arr m ρ c 2
/-- The second pass reads the samples as launched, -/
theorem V7_arg0 (c : Dev nD) : V7 m ρ c main_arg0 = m ((c : Thread nD τ).loc main_arg0) :=
  (s1x_arg0 (W2 m ρ c)).trans (W2_arg0 m ρ c)
/-- the labels laid out as one column, -/
theorem V7_v1 (c : Dev nD) :
    V7 m ρ c main_v1 = shapeCast S131072x1 (m ((c : Thread nD τ).loc main_arg1)) shapeCasts_S131072_S131072x1 :=
  (s1x_v1 (W2 m ρ c)).trans (W2_v1 m ρ c)
/-- the scaled centroids as columns, -/
theorem V7_v20 (c : Dev nD) :
    V7 m ρ c main_v20 = Mid.cnT (Mid.cnOf (sumsK m ρ c) (m ((c : Thread nD τ).loc main_arg1))) :=
  (s14_v20 (W6 m ρ c)).trans (W6_v20 m ρ c)
/-- and the degrees as one row. -/
theorem V7_v40 (c : Dev nD) :
    V7 m ρ c main_v40 = Mid.degRow (Mid.degOf (sumsK m ρ c) (m ((c : Thread nD τ).loc main_arg1))) :=
  s14_v40 (W6 m ρ c) (Mid.cnOf (sumsK m ρ c) (m ((c : Thread nD τ).loc main_arg1)))
    (Mid.present (Mid.cnt (m ((c : Thread nD τ).loc main_arg1)))) (W6_v26 m ρ c) (W6_v24 m ρ c) (W6_v14 m ρ c)
/-- After the second pass its two result buffers hold what the pass leaves. -/
theorem W8_v41_0 (c : Dev nD) : W8 m ρ c (Proc.devRef .tc main_v41_0) = (dat1 (V7 m ρ) c).arrAt 4 cfg1.N :=
  W8_arr m ρ c 4
theorem W8_v41_1 (c : Dev nD) : W8 m ρ c (Proc.devRef .tc main_v41_1) = (dat1 (V7 m ρ) c).arrAt 5 cfg1.N :=
  W8_arr m ρ c 5
/-- The result: the shared closing arithmetic over the two passes' results. -/
theorem W10_v56 (c : Dev nD) :
    W10 m ρ c (Proc.devRef .tc main_v56)
      = Mid.loss (sumsK m ρ c) (m ((c : Thread nD τ).loc main_arg1))
          (Host.reduceAdd (W8 m ρ c (Proc.devRef .tc main_v41_0)) (constant S_ .f32 0x00000000#32) reducesTo_S2x1x1_S_d0_1_2 h_S_)
          (Host.reduceAdd (W8 m ρ c (Proc.devRef .tc main_v41_1)) (constant S_ .f32 0x00000000#32) reducesTo_S2x16x16_S16x16_d0 h_S_) :=
  s2_v56 (W8 m ρ c) (Mid.pmOf (sumsK m ρ c) (m ((c : Thread nD τ).loc main_arg1)))
    (Mid.degOf (sumsK m ρ c) (m ((c : Thread nD τ).loc main_arg1))) (Mid.cnt (m ((c : Thread nD τ).loc main_arg1)))
    (W8_v36 m ρ c) (W8_v39 m ρ c) (W8_v7 m ρ c)

end Cert.KernelIdeal.KHost

end
-- ==== Proof.R0Defs.lean ====
/-
  The first pass's accumulation, as a recursion over the grid points in order: at a point whose position is a
  multiple of 8 (the first tile of a half) the accumulator restarts from the zero block; otherwise it continues
  from what the point before left. The result array holds, for half h, the accumulator after point 8h + 7.
-/
import proofs.«425050_j40157944218131_3_alg».proof.Proof.Gen.KernelIdeal.Frame
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem

variable {F : FTy → Type} [FloatOps F] [Named F]
variable (V : (c : Dev nD) → (b : Ref sig .tc) → Buf (Elt F) ((c : Thread nD τ).loc b))

/-- The tile of samples point `t` reads. -/
abbrev xb (c : Dev nD) (t : Fin cfg0.N) : Vec F S8192x512 .f32 := iblk0 V c 0 t
/-- The tile of labels (one row) point `t` reads. -/
abbrev lb (c : Dev nD) (t : Fin cfg0.N) : Vec F S1x8192 .i32 := iblk0 V c 1 t

/-- The accumulator after point `n`. -/
def chain (c : Dev nD) : (n : ℕ) → n < cfg0.N → Vec F S1x16x512 .f32
  | 0, h => k0_pay2 (lb V c ⟨0, h⟩) (k0_pay1 (F := F)) (xb V c ⟨0, h⟩)
  | n + 1, h =>
    if (n + 1) % 8 = 0 then k0_pay2 (lb V c ⟨n + 1, h⟩) (k0_pay1 (F := F)) (xb V c ⟨n + 1, h⟩)
    else k0_pay2 (lb V c ⟨n + 1, h⟩) (chain c n (Nat.lt_of_succ_lt h)) (xb V c ⟨n + 1, h⟩)

/-- The last point of half `h`. -/
theorem last_lt (h : Fin 2) : 8 * h.val + 7 < cfg0.N := by
  have hN : cfg0.N = 16 := N_0
  have := h.isLt
  omega

/-- The result array: half `h` holds the accumulator after that half's last point. -/
def G (c : Dev nD) : FVec F S2x16x512 .f32 :=
  fun i => chain V c (8 * (i 0).val + 7) (last_lt (i 0)) (ix3 (0 : Fin 1) (i 1) (i 2))

end Cert.KernelIdeal.R0

end
-- ==== Proof.R0Frame.lean ====
/-
  The first pass's result array is the accumulation's closed form: the staging buffer after each point is the
  running accumulator (by induction on the point), the buffer is written back at the last point of each half, and
  those two write-backs cover the array.
-/
import proofs.«425050_j40157944218131_3_alg».proof.Proof.Gen.KernelIdeal.Frame
import proofs.«425050_j40157944218131_3_alg».proof.Proof.R0Defs
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.Tactic

variable {F : FTy → Type} [FloatOps F] [Named F]

/-! ## What one point leaves in the accumulator's staging buffer -/

/-- The zero offsets of a whole-buffer access, rank 2 and rank 3. -/
private theorem zeros2 : (![0, 0] : Fin 2 → Nat) = fun _ => 0 := funext fun a => by fin_cases a <;> rfl
private theorem zeros3 : (![0, 0, 0] : Fin 3 → Nat) = fun _ => 0 := funext fun a => by fin_cases a <;> rfl

/-- A point that is not the first tile of a half: the buffer holding `acc` is overwritten, by one store of the whole
    block, with the update of `acc` by the tile of samples `x` and its labels `l`; each load reads a whole buffer. -/
private theorem step_continue (c : Dev nD) (i : grid0.Coords) (a2 : Memref sig .tc .vmem S8192x512 .f32) (h2 : a2.IsWhole)
    (a3 : Memref sig .tc .vmem S1x8192 .i32) (h3 : a3.IsWhole) (a4 : Memref sig .tc .vmem S1x16x512 .f32) (h4 : a4.IsWhole)
    (hc : ¬cond0_0 i) (x : Vec F S8192x512 .f32) (l : Vec F S1x8192 .i32) (acc : Vec F S1x16x512 .f32) :
    out0_B_2 c i a2 h2 a3 h3 a4 h4 hc x l acc = k0_pay2 l acc x := by
  unfold out0_B_2
  rw [View.read_writes_eq_canon _ _ _ (cover0_B_2 c i a2 h2 a3 h3 a4 h4 hc x l acc)]
  unfold kernelRun0_B
  dsimp only
  sl_unfold_words
  rw [View.canon_unit_zero zeros3]
  simp only [View.readAt_eq_ld, h2.read_unread, h3.read_unread, h4.read_unread, View.ld_unit_zero (S := S1x8192) zeros2,
    View.ld_unit_zero (S := S1x16x512) zeros3, View.ld_unit_zero (S := S8192x512) zeros2]

/-- The first tile of a half: the buffer is first overwritten with the zero block, which is then read back as the
    accumulator of the same update; the later store covers the earlier one. -/
private theorem step_restart (c : Dev nD) (i : grid0.Coords) (a2 : Memref sig .tc .vmem S8192x512 .f32) (h2 : a2.IsWhole)
    (a3 : Memref sig .tc .vmem S1x8192 .i32) (h3 : a3.IsWhole) (a4 : Memref sig .tc .vmem S1x16x512 .f32) (h4 : a4.IsWhole)
    (hc : cond0_0 i) (x : Vec F S8192x512 .f32) (l : Vec F S1x8192 .i32) :
    out0_A_2 c i a2 h2 a3 h3 a4 h4 hc x l = k0_pay2 l (k0_pay1 (F := F)) x := by
  unfold out0_A_2
  rw [View.read_writes_eq_canon _ _ _ (cover0_A_2 c i a2 h2 a3 h3 a4 h4 hc x l)]
  unfold kernelRun0_A
  dsimp only
  sl_unfold_words
  rw [View.canon_cons_unit_zero (S := S1x16x512) zeros3, View.readCov_unit_zero (S := S1x16x512) _ zeros3]
  simp only [View.readAt_eq_ld, h2.read_unread, h3.read_unread, View.ld_unit_zero (S := S1x8192) zeros2,
    View.ld_unit_zero (S := S8192x512) zeros2]

/-! ## The staging buffer after each point is the running accumulator -/

section Closed

variable (V : (c : Dev nD) → (b : Ref sig .tc) → Buf (Elt F) ((c : Thread nD τ).loc b))

/-- By induction on the point: a multiple of 8 restarts from the zero block, any other point continues from its
    predecessor, on both sides alike. -/
private theorem outsAt_eq_chain (c : Dev nD) : ∀ (n : ℕ) (h : n < cfg0.N), outsAt0 V c n h = chain V c n h
  | 0, h =>
    (outsAt0_A V c ⟨0, h⟩ (Nat.zero_mod 8)).trans
      (step_restart c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        ((hcond0_0 ⟨0, h⟩).mpr (Nat.zero_mod 8)) (iblk0 V c 0 ⟨0, h⟩) (iblk0 V c 1 ⟨0, h⟩))
  | n + 1, h => by
    by_cases h0 : (n + 1) % 8 = 0
    · refine (outsAt0_A V c ⟨n + 1, h⟩ h0).trans ?_
      refine (step_restart c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) ((hcond0_0 ⟨n + 1, h⟩).mpr h0) (iblk0 V c 0 ⟨n + 1, h⟩) (iblk0 V c 1 ⟨n + 1, h⟩)).trans ?_
      rw [chain, if_pos h0]
    · refine (outsAt0_B V c ⟨n + 1, h⟩ h0).trans ?_
      refine (step_continue c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (fun hh => h0 ((hcond0_0 ⟨n + 1, h⟩).mp hh)) (iblk0 V c 0 ⟨n + 1, h⟩) (iblk0 V c 1 ⟨n + 1, h⟩)
        (outsAt0 V c n (Nat.lt_of_succ_lt h))).trans ?_
      rw [chain, if_neg h0, outsAt_eq_chain c n (Nat.lt_of_succ_lt h)]

/-! ## From the write-backs to the array -/

/-- The accumulator after point `n`, read at block index `y`, is the result array at `i` when `n` is the last point of
    `i`'s half and `y` is `i`'s position inside that half. -/
private theorem chain_eq_G (c : Dev nD) (n : ℕ) (hn : n < cfg0.N) (i : S2x16x512.Idx) (y : S1x16x512.Idx)
    (e : n = 8 * (i 0).val + 7) (y0 : (y 0).val = 0) (y1 : (y 1).val = (i 1).val) (y2 : (y 2).val = (i 2).val) :
    chain V c n hn y = G V c i := by
  subst e
  show chain V c _ _ y = chain V c _ _ (ix3 (0 : Fin 1) (i 1) (i 2))
  refine congrArg (chain V c (8 * (i 0).val + 7) hn) ?_
  funext a
  apply Fin.ext
  match a with
  | ⟨0, _⟩ => exact y0
  | ⟨1, _⟩ => exact y1
  | ⟨2, _⟩ => exact y2

/-- The result window's block index, decided over the grid: the half on the leading axis, zero on the two others. -/
private theorem out_index : ∀ t : Fin cfg0.N, win0_2.index t (0 : Fin 3) = t.val / 8 ∧ win0_2.index t (1 : Fin 3) = 0
    ∧ win0_2.index t (2 : Fin 3) = 0 :=
  (by decide +kernel : ∀ t : Fin grid0.N, win0_2.index t (0 : Fin 3) = t.val / 8 ∧ win0_2.index t (1 : Fin 3) = 0
    ∧ win0_2.index t (2 : Fin 3) = 0)

/-- What a write-back writes: at the last point of a half the buffer holds that half's final accumulator, and the
    block of the result array at block index (half, 0, 0) is that half's slice of it. -/
private theorem flushed_eq (c : Dev nD) (t : Fin cfg0.N) (hf : (cfg0.win 2).flush t = true) :
    (dat0 V c).flushed 2 t = ((cfg0.win 2).blk t).view.read (Elt F) (G V c) := by
  have h7 : t.val % 8 = 7 := (flush0_2 t).mp hf
  obtain ⟨e0, e1, e2⟩ := out_index t
  show (cfg0.win 2).cut (grid0.coords t) ((dat0 V c).after 2 t) = _
  rw [after0_2, outsAt_eq_chain]
  funext j
  have j0 : (j 0).val < 1 := (j 0).isLt
  refine chain_eq_G V c t.val t.isLt (((cfg0.win 2).blk t).view.emb j) (win0_2.xinj (grid0.coords t) j) ?_ ?_ ?_ ?_
  · show t.val = 8 * (win0_2.index t (0 : Fin 3) * 1 + 1 * (j 0).val) + 7
    omega
  · show (j 0).val = 0
    omega
  · show (j 1).val = win0_2.index t (1 : Fin 3) * 16 + 1 * (j 1).val
    omega
  · show (j 2).val = win0_2.index t (2 : Fin 3) * 512 + 1 * (j 2).val
    omega

/-- Every index of the result array lies in the block written back at the last point of its half. -/
private theorem covered (i : S2x16x512.Idx) :
    ∃ t : Fin cfg0.N, (cfg0.win 2).flush t = true ∧ i ∈ ((cfg0.win 2).blk t).view.set := by
  have i0 : (i 0).val < 2 := (i 0).isLt
  have i1 : (i 1).val < 16 := (i 1).isLt
  have i2 : (i 2).val < 512 := (i 2).isLt
  refine ⟨⟨8 * (i 0).val + 7, last_lt (i 0)⟩, (flush0_2 _).mpr (by show (8 * (i 0).val + 7) % 8 = 7; omega), ?_⟩
  obtain ⟨e0, e1, e2⟩ := out_index ⟨8 * (i 0).val + 7, last_lt (i 0)⟩
  have e0' : win0_2.index ⟨8 * (i 0).val + 7, last_lt (i 0)⟩ (0 : Fin 3) = (8 * (i 0).val + 7) / 8 := e0
  show i ∈ ((View.whole main_v2).slice (win0_2.rect ⟨8 * (i 0).val + 7, last_lt (i 0)⟩)).set
  rw [View.set_slice_whole, Rect.mem_set_unit]
  intro a
  match a with
  | ⟨0, _⟩ =>
    show win0_2.index ⟨8 * (i 0).val + 7, last_lt (i 0)⟩ (0 : Fin 3) * 1 ≤ (i 0).val
      ∧ (i 0).val < win0_2.index ⟨8 * (i 0).val + 7, last_lt (i 0)⟩ (0 : Fin 3) * 1 + 1
    omega
  | ⟨1, _⟩ =>
    show win0_2.index ⟨8 * (i 0).val + 7, last_lt (i 0)⟩ (1 : Fin 3) * 16 ≤ (i 1).val
      ∧ (i 1).val < win0_2.index ⟨8 * (i 0).val + 7, last_lt (i 0)⟩ (1 : Fin 3) * 16 + 16
    omega
  | ⟨2, _⟩ =>
    show win0_2.index ⟨8 * (i 0).val + 7, last_lt (i 0)⟩ (2 : Fin 3) * 512 ≤ (i 2).val
      ∧ (i 2).val < win0_2.index ⟨8 * (i 0).val + 7, last_lt (i 0)⟩ (2 : Fin 3) * 512 + 512
    omega

end Closed

/-- The result array after the sixteen points is the closed form: both write-backs write their half of it, and the two
    halves cover the array. -/
theorem final2 (V : (c : Dev nD) → (b : Ref sig .tc) → Buf (Elt F) ((c : Thread nD τ).loc b)) (c : Dev nD) :
    (dat0 V c).arrAt 2 cfg0.N = G V c :=
  (dat0 V c).arrAt_eq_of_cover 2 (G V c) (flushed_eq V c) covered

end Cert.KernelIdeal.R0

end
-- ==== Proof.Spec.lean ====
/-
  The loss, as mathematics over the extended reals.

  There are 131072 samples (rows of 512 reals) and 16 classes; sample n carries the class L n.
  * The class sum of class c is the sum of the rows whose sample carries c.
  * A row is scaled by the reciprocal square root of max(its squared length, κ), κ > 0 a fixed real.
  * The distance of a row to a column of 512 reals is 1 minus the inner product of the scaled row with the column.
  * The intra-class term adds, over all samples, (the weight of the sample's own class) times the part of its
    distance to its own class's column that exceeds α.
  * The inter-class table has, at (c, c'), the sum over the samples of class c' of the part by which β exceeds
    their distance to column c.
  The constants 1, α = f32(0.1), β = f32(1.1) and the zero of the positive part stay the bit patterns the two
  programs share; they are never evaluated. κ is the square of the real that f32(1e-8) denotes, 11258999² / 2¹⁰⁰.
-/
import Idealize.ShloMosaic.PureOps.Ideal
import Idealize.ShloMosaic.Lib.ValueIdx

noncomputable section

namespace Cert.Spec

open Idealize.ShloMosaic Idealize.ShloMosaic.ValueIdx

/-- The samples: [131072, 512]. -/
abbrev SX : Shape := ⟨2, ![131072, 512]⟩
/-- The class columns: [512, 16]. -/
abbrev SCT : Shape := ⟨2, ![512, 16]⟩

/-- The shared literals. -/
abbrev one : EReal := Ideal.ofBits .f32 0x3F800000#32
abbrev alpha : EReal := Ideal.ofBits .f32 0x3DCCCCCD#32
abbrev beta : EReal := Ideal.ofBits .f32 0x3F8CCCCD#32
abbrev zero : EReal := Ideal.ofBits .f32 0x00000000#32
/-- The floor under a squared length. -/
abbrev kappa : EReal := ((126765058482001 / 1267650600228229401496703205376 : ℝ) : EReal)

/-- The class sums: entry (c, d) adds column d of every sample of class c. -/
def sums (X : SX.Idx → EReal) (L : Fin 131072 → Fin 16) (c : Fin 16) (d : Fin 512) : EReal :=
  ∑ n : Fin 131072, if L n = c then X (ix2 n d) else 0

/-- The scale of a row: the reciprocal square root of its squared length, floored at κ. -/
def rowScale (row : Fin 512 → EReal) : EReal := Ideal.rsqrt (max (∑ d : Fin 512, row d * row d) kappa)

/-- The distance of a row to a column. -/
def rowDist (row col : Fin 512 → EReal) : EReal := one - ∑ d : Fin 512, (row d * rowScale row) * col d

/-- What a sample of distance `x` to its own class's column adds to the intra-class term, per unit weight. -/
def over (x : EReal) : EReal := max (x - alpha) zero

/-- What a sample of distance `x` to a column adds to the inter-class table. -/
def under (x : EReal) : EReal := max (beta - x) zero

/-- The distance of sample n to column c. -/
def dist (X : SX.Idx → EReal) (CT : SCT.Idx → EReal) (n : Fin 131072) (c : Fin 16) : EReal :=
  rowDist (fun d => X (ix2 n d)) (fun d => CT (ix2 d c))

/-- The intra-class term. -/
def intra (X : SX.Idx → EReal) (L : Fin 131072 → Fin 16) (CT : SCT.Idx → EReal) (DG : Fin 16 → EReal) : EReal :=
  ∑ n : Fin 131072, DG (L n) * over (dist X CT n (L n))

/-- The inter-class table. -/
def inter (X : SX.Idx → EReal) (L : Fin 131072 → Fin 16) (CT : SCT.Idx → EReal) (c c' : Fin 16) : EReal :=
  ∑ n : Fin 131072, if L n = c' then under (dist X CT n c) else 0

end Cert.Spec

end
-- ==== Proof.Alg.lean ====
/-
  The two constants that are evaluated — the zero word and ε = f32(1e-8) = 11258999 / 2⁵⁰ — and the one law that
  joins the two ways of scaling a row: for a real x and a squared length s ≥ 0,
    x / max(√s, ε) = x · (max(s, ε²))^(-1/2),
  because √ is monotone and ε > 0, so max(√s, ε) = √(max(s, ε²)).
-/
import proofs.«425050_j40157944218131_3_alg».proof.Proof.Spec

noncomputable section

namespace Cert.Alg

open Idealize.ShloMosaic

/-- The zero word denotes 0. -/
theorem ofBits_zero : Ideal.ofBits .f32 0x00000000#32 = 0 := by
  simp [Ideal.ofBits, Ideal.ieee]

/-- ε, the word of f32(1e-8), denotes 11258999 / 2⁵⁰. -/
theorem ofBits_eps : Ideal.ofBits .f32 0x322BCC77#32 = ((11258999 / 1125899906842624 : ℝ) : EReal) := by
  simp [Ideal.ofBits, Ideal.ieee, -EReal.coe_mul]; norm_num

/-- κ is ε². -/
theorem kappa_eq : Cert.Spec.kappa = (((11258999 / 1125899906842624 : ℝ) * (11258999 / 1125899906842624 : ℝ) : ℝ) : EReal) := by
  show ((_ : ℝ) : EReal) = ((_ : ℝ) : EReal)
  congr 1
  norm_num

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- The maximum of two reals, taken among the extended reals, is their real maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- For ε > 0 and s ≥ 0: max(√s, ε) = √(max(s, ε²)), so dividing by the one is multiplying by the reciprocal square
    root of the other's argument. -/
theorem scale_bridge_aux (e : ℝ) (he : 0 < e) (x s : ℝ) (hs : 0 ≤ s) :
    Ideal.div (x : EReal) (max (Ideal.sqrt (s : EReal)) (e : EReal))
      = (x : EReal) * Ideal.rsqrt (max (s : EReal) ((e * e : ℝ) : EReal)) := by
  have hmax : max (Real.sqrt s) e = Real.sqrt (max s (e * e)) := by
    rcases le_total s (e * e) with h | h
    · rw [max_eq_right h, Real.sqrt_mul_self he.le]
      exact max_eq_right ((Real.sqrt_le_sqrt h).trans_eq (Real.sqrt_mul_self he.le))
    · rw [max_eq_left h]
      exact max_eq_left ((Real.sqrt_mul_self he.le).symm.le.trans (Real.sqrt_le_sqrt h))
  have hpos : 0 < max s (e * e) := lt_max_of_lt_right (mul_pos he he)
  have hsq : 0 < Real.sqrt (max s (e * e)) := Real.sqrt_pos.mpr hpos
  rw [Ideal.sqrt_coe, if_neg (not_lt.mpr hs), coe_max, coe_max, hmax,
    Ideal.div_coe hsq.ne', Ideal.rsqrt_coe, if_neg (not_lt.mpr hpos.le), if_neg hpos.ne', one_div]

/-- Dividing by max(√s, ε) is multiplying by the reciprocal square root of max(s, κ). -/
theorem scale_bridge (x s : ℝ) (hs : 0 ≤ s) :
    Ideal.div (x : EReal) (max (Ideal.sqrt (s : EReal)) (Ideal.ofBits .f32 0x322BCC77#32))
      = (x : EReal) * Ideal.rsqrt (max (s : EReal) Cert.Spec.kappa) := by
  rw [ofBits_eps, kappa_eq]
  exact scale_bridge_aux _ (by norm_num) x s hs

/-- A row of reals has a real, non-negative squared length. -/
theorem sumsq_coe (row : Fin 512 → ℝ) :
    (∑ d : Fin 512, ((row d : ℝ) : EReal) * ((row d : ℝ) : EReal)) = ((∑ d : Fin 512, row d * row d : ℝ) : EReal) := by
  rw [coe_sum]
  exact Finset.sum_congr rfl (fun d _ => (EReal.coe_mul _ _).symm)

theorem sumsq_nonneg (row : Fin 512 → ℝ) : 0 ≤ ∑ d : Fin 512, row d * row d :=
  Finset.sum_nonneg (fun d _ => mul_self_nonneg (row d))

end Cert.Alg

end
-- ==== Proof.R0Math.lean ====
/-
  The accumulation's closed form, added over the two halves, is the class sums: one tile's step adds, at (k, d), the
  entries (r, d) of the tile's rows r of class k (a one-hot row times the tile); the sixteen tiles of 8192 rows are
  the 131072 samples in order.
-/
import proofs.«425050_j40157944218131_3_alg».proof.Proof.Gen.KernelIdeal.Frame
import proofs.«425050_j40157944218131_3_alg».proof.Proof.R0Defs
import proofs.«425050_j40157944218131_3_alg».proof.Proof.Spec
import proofs.«425050_j40157944218131_3_alg».proof.Proof.Alg
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

/-! ## One tile's step, at an entry -/

/-- Comparing two class numbers as 32-bit words, widening the bit and converting it gives 1 when they agree and 0
    when they do not: both numbers are below 16, so the words agree exactly when the numbers do. -/
private theorem onehot_word (p q : Fin 16) :
    (FloatOps.sitofp (F := Ideal) .f32 ((IntOp.cmpi .eq (BitVec.ofNat 32 p.val) (BitVec.ofNat 32 q.val)).setWidth 32) : EReal)
      = if q = p then 1 else 0 := by
  show ((((IntOp.cmpi .eq (BitVec.ofNat 32 p.val) (BitVec.ofNat 32 q.val)).setWidth 32).toInt : ℝ) : EReal) = _
  by_cases h : q = p
  · subst h
    rw [if_pos rfl]
    simp [IntOp.cmpi]
  · rw [if_neg h]
    have hne : BitVec.ofNat 32 p.val ≠ BitVec.ofNat 32 q.val := by
      intro e
      have h2 := congrArg BitVec.toNat e
      simp only [BitVec.toNat_ofNat] at h2
      have hp := p.isLt
      have hq := q.isLt
      apply h
      apply Fin.ext
      omega
    have hb : (BitVec.ofNat 32 p.val == BitVec.ofNat 32 q.val) = false := by simpa using hne
    simp [IntOp.cmpi, hb]

/-- The step at entry (0, k, d): the accumulator's entry plus the entries (r, d) of the tile's rows r whose class is k.
    Row k of the one-hot matrix has a 1 at column r exactly when row r's class is k, so its product with the tile
    keeps those rows and drops the others. -/
private theorem pay2_apply (l : Vec Ideal S1x8192 .i32) (a : Vec Ideal S1x16x512 .f32) (x : Vec Ideal S8192x512 .f32)
    (Lt : Fin 8192 → Fin 16) (hLt : ∀ r : Fin 8192, l (ix2 (0 : Fin 1) r) = BitVec.ofNat 32 (Lt r).val) (k : Fin 16) (d : Fin 512) :
    k0_pay2 (F := Ideal) l a x (ix3 (0 : Fin 1) k d)
      = a (ix3 (0 : Fin 1) k d) + ∑ r : Fin 8192, (if Lt r = k then x (ix2 r d) else 0) := by
  unfold k0_pay2
  refine (shapeCast_addUnit_apply _ _ _ _).trans ?_
  have hj : (fun a : Fin 2 => (ix3 (0 : Fin 1) k d) a.succ) = ix2 k d := by
    funext a; match a with | ⟨0, _⟩ => rfl | ⟨1, _⟩ => rfl
  rw [hj, addf_apply]
  congr 1
  · -- (k, d) of [16, 512] and (0, k, d) of [1, 16, 512] are the same row-major position
    refine shapeCast_apply a _ (ix2 k d) (ix3 (0 : Fin 1) k d) ?_
    rw [Shape.rowMajor_val_three, Shape.rowMajor_val_two]
    show ((0 : ℕ) * 16 + k.val) * 512 + d.val = k.val * 512 + d.val
    omega
  · -- the product at (k, d): the sum over the contracted coordinate r of (k, r) of the left times (r, d) of the right
    simp only [matmul]
    rw [Ideal.matmul_constant_zero_apply,
      ← Equiv.sum_comp (contrEquiv1 dot_S16x8192_S8192x512_S16x512_1_0_0_1_n_n 8192 rfl rfl).symm]
    refine Finset.sum_congr rfl fun r _ => ?_
    have c2 := contrEquiv1_symm_val dot_S16x8192_S8192x512_S16x512_1_0_0_1_n_n 8192 rfl rfl r
    have l2 : dot_S16x8192_S8192x512_S16x512_1_0_0_1_n_n.lhsIdx (ix2 k d) ((contrEquiv1 _ 8192 rfl rfl).symm r) = ix2 k r := by
      funext ax; apply Fin.ext
      match ax with
      | ⟨0, _⟩ => simp [DotDims.lhsIdx, dot_S16x8192_S8192x512_S16x512_1_0_0_1_n_n]; rfl
      | ⟨1, _⟩ => simp [DotDims.lhsIdx, dot_S16x8192_S8192x512_S16x512_1_0_0_1_n_n]; exact c2
    have r2 : dot_S16x8192_S8192x512_S16x512_1_0_0_1_n_n.rhsIdx (ix2 k d) ((contrEquiv1 _ 8192 rfl rfl).symm r) = ix2 r d := by
      funext ax; apply Fin.ext
      match ax with
      | ⟨0, _⟩ => simp [DotDims.rhsIdx, dot_S16x8192_S8192x512_S16x512_1_0_0_1_n_n]; exact c2
      | ⟨1, _⟩ => simp [DotDims.rhsIdx, dot_S16x8192_S8192x512_S16x512_1_0_0_1_n_n]; rfl
    rw [l2, r2, sitofp_apply, extui_apply]
    show FloatOps.sitofp (F := Ideal) .f32 ((IntOp.cmpi .eq (iota Kind.tc S16x8192 32 [0] iota_S16x8192_d0_w32 (ix2 k r))
        (broadcastTo S16x8192 (shapeCast S1x8192 l shapeCasts_S1x8192_S1x8192) broadcasts_S1x8192_S16x8192 (ix2 k r))).setWidth 32) * x (ix2 r d) = _
    -- at (k, r) the row counter reads k and the labels, copied down the rows, read entry (0, r)
    rw [iota_single_apply, shapeCast_self,
      broadcastTo_apply l broadcasts_S1x8192_S16x8192 (ix2 k r) (ix2 (0 : Fin 1) r) (fun a => by
        match a with
        | ⟨0, _⟩ => rfl
        | ⟨1, _⟩ => rfl),
      hLt r]
    show FloatOps.sitofp (F := Ideal) .f32 ((IntOp.cmpi .eq (BitVec.ofNat 32 k.val) (BitVec.ofNat 32 (Lt r).val)).setWidth 32) * x (ix2 r d) = _
    rw [onehot_word]
    by_cases h : Lt r = k
    · rw [if_pos h, if_pos h, one_mul]
    · rw [if_neg h, if_neg h, zero_mul]

/-- The restart block is zero everywhere. -/
private theorem pay1_apply (j : S1x16x512.Idx) : k0_pay1 (F := Ideal) j = 0 := by
  unfold k0_pay1
  refine (shapeCast_addUnit_apply _ _ _ _).trans ?_
  exact Cert.Alg.ofBits_zero

/-! ## The tiles a point reads -/

/-- Point t's tile of samples is block (t, 0) of the [8192, 512] blocks; -/
private theorem idx0_facts : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- its tile of labels is block (0, t) of the [1, 8192] blocks. -/
private theorem idx1_facts : ∀ t : Fin cfg0.N, win0_1.index t (0 : Fin 2) = 0 ∧ win0_1.index t (1 : Fin 2) = t.val :=
  (by decide +kernel : ∀ t : Fin grid0.N, win0_1.index t (0 : Fin 2) = 0 ∧ win0_1.index t (1 : Fin 2) = t.val)

/-- Row r of tile t is a sample: 8192·t + r is below 131072 = 16 · 8192. -/
private theorem row_lt (t : Fin cfg0.N) (r : Fin 8192) : 8192 * t.val + r.val < 131072 := by
  have hN : cfg0.N = 16 := N_0
  have := t.isLt
  have := r.isLt
  omega

section Blocks
variable (V : (c : Dev nD) → (b : Ref sig .tc) → Buf (Elt Ideal) ((c : Thread nD τ).loc b))

/-- Entry (r, d) of point t's tile of samples is entry (8192·t + r, d) of the samples. -/
private theorem xb_apply (c : Dev nD) (t : Fin cfg0.N) (r : Fin 8192) (d : Fin 512) :
    xb V c t (ix2 r d) = (V c main_arg0 : S131072x512.Idx → EReal) (ix2 ⟨8192 * t.val + r.val, row_lt t r⟩ d) := by
  have hi := idx0_facts t
  unfold xb iblk0
  rw [View.read_apply]
  show (V c main_arg0 : S131072x512.Idx → EReal) _ = _
  congr 1
  funext a
  apply Fin.ext
  match a with
  | ⟨0, _⟩ =>
    show win0_0.index t 0 * 8192 + 1 * r.val = 8192 * t.val + r.val
    rw [hi.1]; omega
  | ⟨1, _⟩ =>
    show win0_0.index t 1 * 512 + 1 * d.val = d.val
    rw [hi.2]; omega

/-- Entry (0, r) of point t's tile of labels is entry (0, 8192·t + r) of the labels' row. -/
private theorem lb_apply (c : Dev nD) (t : Fin cfg0.N) (r : Fin 8192) :
    lb V c t (ix2 (0 : Fin 1) r) = (V c main_v0 : S1x131072.Idx → BitVec 32) (ix2 (0 : Fin 1) ⟨8192 * t.val + r.val, row_lt t r⟩) := by
  have hi := idx1_facts t
  unfold lb iblk0
  rw [View.read_apply]
  show (V c main_v0 : S1x131072.Idx → BitVec 32) _ = _
  congr 1
  funext a
  apply Fin.ext
  match a with
  | ⟨0, _⟩ =>
    show win0_1.index t 0 * 1 + 1 * 0 = 0
    rw [hi.1]
  | ⟨1, _⟩ =>
    show win0_1.index t 1 * 8192 + 1 * r.val = 8192 * t.val + r.val
    rw [hi.2]; omega

end Blocks

/-- The labels as one row: entry (0, n) of the row is label n (the same row-major position). -/
private theorem lab_at (lab : S131072.Idx → BitVec 32) (n : Fin 131072) :
    shapeCast S1x131072 lab shapeCasts_S131072_S1x131072 (ix2 (0 : Fin 1) n) = lab (ix1 n) := by
  refine shapeCast_apply lab _ _ _ ?_
  rw [Shape.rowMajor_val_one, Shape.rowMajor_val_two]
  show n.val = 0 * 131072 + n.val
  omega

/-! ## The class sums, tile by tile -/

section Sums
variable (X : S131072x512.Idx → EReal) (L : Fin 131072 → Fin 16)

/-- Sample n's share of entry (k, d) of the class sums, on every natural (nothing past the last sample). -/
private def term (k : Fin 16) (d : Fin 512) (n : ℕ) : EReal :=
  if hn : n < 131072 then (if L ⟨n, hn⟩ = k then X (ix2 ⟨n, hn⟩ d) else 0) else 0

/-- Tile t's share: that of its 8192 samples 8192·t, …, 8192·t + 8191. -/
private def tile (k : Fin 16) (d : Fin 512) (t : ℕ) : EReal := ∑ r ∈ Finset.range 8192, term X L k d (8192 * t + r)

end Sums

section Chain
variable (V : (c : Dev nD) → (b : Ref sig .tc) → Buf (Elt Ideal) ((c : Thread nD τ).loc b)) (c : Dev nD)
variable (X : S131072x512.Idx → EReal) (lab : S131072.Idx → BitVec 32) (L : Fin 131072 → Fin 16)
variable (hX : V c main_arg0 = X) (hl : V c main_v0 = shapeCast S1x131072 lab shapeCasts_S131072_S1x131072)
variable (hL : ∀ n : Fin 131072, lab (ix1 n) = BitVec.ofNat 32 (L n).val)

include hX hl hL in
/-- The step at point t adds tile t's share to the accumulator's entry. -/
private theorem step_at (t : Fin cfg0.N) (acc : Vec Ideal S1x16x512 .f32) (k : Fin 16) (d : Fin 512) :
    k0_pay2 (F := Ideal) (lb V c t) acc (xb V c t) (ix3 (0 : Fin 1) k d) = acc (ix3 (0 : Fin 1) k d) + tile X L k d t.val := by
  have hLt : ∀ r : Fin 8192, lb V c t (ix2 (0 : Fin 1) r) = BitVec.ofNat 32 (L ⟨8192 * t.val + r.val, row_lt t r⟩).val := fun r => by
    rw [lb_apply, hl, lab_at, hL]
  rw [pay2_apply (lb V c t) acc (xb V c t) (fun r => L ⟨8192 * t.val + r.val, row_lt t r⟩) hLt k d]
  refine congrArg (acc (ix3 (0 : Fin 1) k d) + ·) ?_
  unfold tile
  rw [← Fin.sum_univ_eq_sum_range (fun r => term X L k d (8192 * t.val + r)) 8192]
  refine Finset.sum_congr rfl fun r _ => ?_
  unfold term
  rw [dif_pos (row_lt t r), xb_apply, hX]

include hX hl hL in
/-- The accumulator after point n holds the shares of the tiles of n's half up to n: the tiles n − n mod 8, …, n.
    By induction on the point: a point at a multiple of 8 restarts from zero, any other adds its tile to what
    the point before left. -/
private theorem chain_eq : ∀ (n : ℕ) (h : n < cfg0.N) (k : Fin 16) (d : Fin 512),
    chain V c n h (ix3 (0 : Fin 1) k d) = ∑ j ∈ Finset.range (n % 8 + 1), tile X L k d (n - n % 8 + j)
  | 0, h, k, d => by
    rw [chain, step_at V c X lab L hX hl hL ⟨0, h⟩, pay1_apply, zero_add]
    simp
  | n + 1, h, k, d => by
    rw [chain]
    split_ifs with h0
    · rw [step_at V c X lab L hX hl hL ⟨n + 1, h⟩, pay1_apply, zero_add, h0]
      simp
    · rw [step_at V c X lab L hX hl hL ⟨n + 1, h⟩, chain_eq n (Nat.lt_of_succ_lt h) k d]
      have h1 : (n + 1) % 8 = n % 8 + 1 := by omega
      have h2 : n + 1 - (n % 8 + 1) = n - n % 8 := by omega
      have h3 : n - n % 8 + (n % 8 + 1) = n + 1 := by omega
      rw [h1, h2, Finset.sum_range_succ _ (n % 8 + 1), h3]

end Chain

/-- A sum over the first m·n naturals, cut into m runs of n. -/
private theorem sum_range_mul' {M : Type*} [AddCommMonoid M] (g : ℕ → M) (n : ℕ) : ∀ m : ℕ,
    ∑ i ∈ Finset.range (m * n), g i = ∑ a ∈ Finset.range m, ∑ b ∈ Finset.range n, g (n * a + b)
  | 0 => by simp
  | m + 1 => by
    rw [Nat.succ_mul, Finset.sum_range_add, sum_range_mul' g n m, Finset.sum_range_succ, Nat.mul_comm m n]

/-- The sixteen tiles are the 131072 samples in order, so their shares add up to the class sums. -/
private theorem sum_tiles (X : S131072x512.Idx → EReal) (L : Fin 131072 → Fin 16) (k : Fin 16) (d : Fin 512) :
    ∑ t ∈ Finset.range 16, tile X L k d t = Cert.Spec.sums X L k d := by
  unfold Cert.Spec.sums tile
  rw [← sum_range_mul' (term X L k d) 8192 16, ← Fin.sum_univ_eq_sum_range (term X L k d) (16 * 8192)]
  refine Finset.sum_congr rfl fun n _ => ?_
  unfold term
  rw [dif_pos n.isLt]

/-- Adding over axis 0 of [2, 16, 512] leaves [16, 512]. -/
private theorem red0 : S2x16x512.Reduces [0] S16x512 := by decide

theorem sumG_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (L : Fin 131072 → Fin 16)
    (hX : V c main_arg0 = X) (hl : V c main_v0 = shapeCast S1x131072 lab shapeCasts_S131072_S1x131072)
    (hL : ∀ n : Fin 131072, lab (ix1 n) = BitVec.ofNat 32 (L n).val) :
    Host.reduceAdd (G (F := Ideal) V c) (constant S_ .f32 0x00000000#32) reducesTo_S2x16x512_S16x512_d0 h_S_
      = fun i => Cert.Spec.sums X L (i 0) (i 1) := by
  funext i
  -- the host's sum at (k, d): zero plus the two halves' entries (h, k, d)
  show Ideal.hostReduceAdd reducesTo_S2x16x512_S16x512_d0 (G (F := Ideal) V c) _ i = _
  rw [Ideal.hostReduceAdd_single reducesTo_S2x16x512_S16x512_d0 red0, constant_apply, Cert.Alg.ofBits_zero, zero_add]
  -- half h holds the shares of its eight tiles 8h, …, 8h + 7
  have hG : ∀ h : Fin 2, G (F := Ideal) V c (red0.lift i h)
      = ∑ j ∈ Finset.range 8, tile X L (i 0) (i 1) (8 * h.val + j) := fun h => by
    show chain V c (8 * h.val + 7) _ (ix3 (0 : Fin 1) (i 0) (i 1)) = _
    refine (chain_eq V c X lab L hX hl hL (8 * h.val + 7) (last_lt h) (i 0) (i 1)).trans ?_
    have h1 : (8 * h.val + 7) % 8 = 7 := by omega
    have h2 : 8 * h.val + 7 - 7 = 8 * h.val := by omega
    rw [h1, h2]
  -- sixteen tiles are eight and eight
  have h16 : ∑ t ∈ Finset.range 16, tile X L (i 0) (i 1) t
      = ∑ j ∈ Finset.range 8, tile X L (i 0) (i 1) j + ∑ j ∈ Finset.range 8, tile X L (i 0) (i 1) (8 + j) :=
    Finset.sum_range_add (tile X L (i 0) (i 1)) 8 8
  show ∑ h : Fin 2, G (F := Ideal) V c (red0.lift i h) = _
  rw [Fin.sum_univ_two, hG 0, hG 1, ← sum_tiles X L (i 0) (i 1), h16]
  simp only [Fin.val_zero, Fin.val_one, Nat.mul_zero, Nat.zero_add, Nat.mul_one]

end Cert.KernelIdeal.R0

end
-- ==== Proof.Region0.lean ====
/-
  The first pass, read as a value: the two per-half partial sums it leaves, added over the halves, are the class sums.
-/
import proofs.«425050_j40157944218131_3_alg».proof.Proof.Gen.KernelIdeal.Frame
import proofs.«425050_j40157944218131_3_alg».proof.Proof.R0Frame
import proofs.«425050_j40157944218131_3_alg».proof.Proof.R0Math
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.ShloMosaic.ValueIdx Idealize.SL.Sem
open Idealize.ShloMosaic.Pipeline (Dat)

theorem sums_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (L : Fin 131072 → Fin 16)
    (hX : V c main_arg0 = X) (hl : V c main_v0 = shapeCast S1x131072 lab shapeCasts_S131072_S1x131072)
    (hL : ∀ n : Fin 131072, lab (ix1 n) = BitVec.ofNat 32 (L n).val) :
    Host.reduceAdd (F := Ideal) ((dat0 (F := Ideal) V c).arrAt 2 cfg0.N) (constant S_ .f32 0x00000000#32) reducesTo_S2x16x512_S16x512_d0 h_S_
      = fun i => Cert.Spec.sums X L (i 0) (i 1) := by
  rw [final2 V c]
  exact sumG_eq V c X lab L hX hl hL

end Cert.KernelIdeal.R0

end
-- ==== Proof.R1Defs.lean ====
/-
  The second pass's two accumulations, as one recursion over the grid points in order: at a point whose position is
  a multiple of 8 both accumulators restart from zero; otherwise they continue from what the point before left.
  Each result array holds, for half h, its accumulator after point 8h + 7.
-/
import proofs.«425050_j40157944218131_3_alg».proof.Proof.Gen.KernelIdeal.Frame
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem

variable {F : FTy → Type} [FloatOps F] [Named F]
variable (V : (c : Dev nD) → (b : Ref sig .tc) → Buf (Elt F) ((c : Thread nD τ).loc b))

/-- The tile of samples point `t` reads. -/
abbrev xb (c : Dev nD) (t : Fin cfg1.N) : Vec F S8192x512 .f32 := iblk1 V c 0 t
/-- The tile of labels (one column) point `t` reads. -/
abbrev lb (c : Dev nD) (t : Fin cfg1.N) : Vec F S8192x1 .i32 := iblk1 V c 1 t
/-- The class columns, whole at every point. -/
abbrev ctb (c : Dev nD) (t : Fin cfg1.N) : Vec F S512x16 .f32 := iblk1 V c 2 t
/-- The degree row, whole at every point. -/
abbrev dgb (c : Dev nD) (t : Fin cfg1.N) : Vec F S1x16 .f32 := iblk1 V c 3 t

/-- One point's step on the two accumulators. -/
def step (x : Vec F S8192x512 .f32) (l : Vec F S8192x1 .i32) (ct : Vec F S512x16 .f32) (dg : Vec F S1x16 .f32)
    (a4 : Vec F S1x1x1 .f32) (a5 : Vec F S1x16x16 .f32) : Vec F S1x1x1 .f32 × Vec F S1x16x16 .f32 :=
  (k1_pay1 (k1_pay7 x ct l dg) a4, k1_pay2 (k1_pay5 x ct) (k1_pay6 l) a5)

/-- The two accumulators after point `n`. -/
def chain (c : Dev nD) : (n : ℕ) → n < cfg1.N → Vec F S1x1x1 .f32 × Vec F S1x16x16 .f32
  | 0, h => step (xb V c ⟨0, h⟩) (lb V c ⟨0, h⟩) (ctb V c ⟨0, h⟩) (dgb V c ⟨0, h⟩) (k1_pay3 (F := F)) (k1_pay4 (F := F))
  | n + 1, h =>
    if (n + 1) % 8 = 0 then
      step (xb V c ⟨n + 1, h⟩) (lb V c ⟨n + 1, h⟩) (ctb V c ⟨n + 1, h⟩) (dgb V c ⟨n + 1, h⟩) (k1_pay3 (F := F)) (k1_pay4 (F := F))
    else
      step (xb V c ⟨n + 1, h⟩) (lb V c ⟨n + 1, h⟩) (ctb V c ⟨n + 1, h⟩) (dgb V c ⟨n + 1, h⟩)
        (chain c n (Nat.lt_of_succ_lt h)).1 (chain c n (Nat.lt_of_succ_lt h)).2

/-- The last point of half `h`. -/
theorem last_lt (h : Fin 2) : 8 * h.val + 7 < cfg1.N := by
  have hN : cfg1.N = 16 := N_1
  have := h.isLt
  omega

/-- The intra-class result array: half `h` holds the first accumulator after that half's last point. -/
def G4 (c : Dev nD) : FVec F S2x1x1 .f32 :=
  fun i => (chain V c (8 * (i 0).val + 7) (last_lt (i 0))).1 (ix3 (0 : Fin 1) (i 1) (i 2))

/-- The inter-class result array: half `h` holds the second accumulator after that half's last point. -/
def G5 (c : Dev nD) : FVec F S2x16x16 .f32 :=
  fun i => (chain V c (8 * (i 0).val + 7) (last_lt (i 0))).2 (ix3 (0 : Fin 1) (i 1) (i 2))

end Cert.KernelIdeal.R1

end
-- ==== Proof.R1Frame.lean ====
/-
  The second pass's two result arrays are the accumulations' closed forms: the staging buffers after each point are
  the running accumulators (by induction on the point), each is written back at the last point of each half, and
  those two write-backs cover its array.
-/
import proofs.«425050_j40157944218131_3_alg».proof.Proof.Gen.KernelIdeal.Frame
import proofs.«425050_j40157944218131_3_alg».proof.Proof.R1Defs
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F] [Named F]

/-- Three zero offsets, however spelt. -/
private theorem hz3 : (![0, 0, 0] : Fin 3 → Nat) = fun _ => 0 := funext fun a => by fin_cases a <;> rfl
/-- Two zero offsets, however spelt. -/
private theorem hz2 : (![0, 0] : Fin 2 → Nat) = fun _ => 0 := funext fun a => by fin_cases a <;> rfl

/-- A continuing point leaves in the first accumulator's buffer, which held `xo4`, the step's first component:
    one covering store whose payload reads the four input blocks and the buffer whole. -/
private theorem out_B_4 (c : Dev nD) (i : grid1.Coords) (a2 : Memref sig .tc .vmem S8192x512 .f32) (h2 : a2.IsWhole)
    (a3 : Memref sig .tc .vmem S8192x1 .i32) (h3 : a3.IsWhole) (a4 : Memref sig .tc .vmem S512x16 .f32) (h4 : a4.IsWhole)
    (a5 : Memref sig .tc .vmem S1x16 .f32) (h5 : a5.IsWhole) (a6 : Memref sig .tc .vmem S1x1x1 .f32) (h6 : a6.IsWhole)
    (a7 : Memref sig .tc .vmem S1x16x16 .f32) (h7 : a7.IsWhole) (hc : ¬cond1_0 i)
    (x0 : Vec F S8192x512 .f32) (x1 : Vec F S8192x1 .i32) (x2 : Vec F S512x16 .f32) (x3 : Vec F S1x16 .f32)
    (xo4 : Vec F S1x1x1 .f32) (xo5 : Vec F S1x16x16 .f32) :
    out1_B_4 c i a2 h2 a3 h3 a4 h4 a5 h5 a6 h6 a7 h7 hc x0 x1 x2 x3 xo4 xo5 = k1_pay1 (k1_pay7 x0 x2 x1 x3) xo4 := by
  unfold out1_B_4
  rw [View.read_writes_eq_canon _ _ _ (cover1_B_4 c i a2 h2 a3 h3 a4 h4 a5 h5 a6 h6 a7 h7 hc x0 x1 x2 x3 xo4 xo5)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x16x16) hz3, View.ld_unit_zero (S := S8192x512) hz2,
    View.ld_unit_zero (S := S8192x1) hz2, View.ld_unit_zero (S := S512x16) hz2, View.ld_unit_zero (S := S1x16) hz2]

/-- A continuing point leaves in the second accumulator's buffer, which held `xo5`, the step's second component. -/
private theorem out_B_5 (c : Dev nD) (i : grid1.Coords) (a2 : Memref sig .tc .vmem S8192x512 .f32) (h2 : a2.IsWhole)
    (a3 : Memref sig .tc .vmem S8192x1 .i32) (h3 : a3.IsWhole) (a4 : Memref sig .tc .vmem S512x16 .f32) (h4 : a4.IsWhole)
    (a5 : Memref sig .tc .vmem S1x16 .f32) (h5 : a5.IsWhole) (a6 : Memref sig .tc .vmem S1x1x1 .f32) (h6 : a6.IsWhole)
    (a7 : Memref sig .tc .vmem S1x16x16 .f32) (h7 : a7.IsWhole) (hc : ¬cond1_0 i)
    (x0 : Vec F S8192x512 .f32) (x1 : Vec F S8192x1 .i32) (x2 : Vec F S512x16 .f32) (x3 : Vec F S1x16 .f32)
    (xo4 : Vec F S1x1x1 .f32) (xo5 : Vec F S1x16x16 .f32) :
    out1_B_5 c i a2 h2 a3 h3 a4 h4 a5 h5 a6 h6 a7 h7 hc x0 x1 x2 x3 xo4 xo5 = k1_pay2 (k1_pay5 x0 x2) (k1_pay6 x1) xo5 := by
  unfold out1_B_5
  rw [View.read_writes_eq_canon _ _ _ (cover1_B_5 c i a2 h2 a3 h3 a4 h4 a5 h5 a6 h6 a7 h7 hc x0 x1 x2 x3 xo4 xo5)]
  unfold kernelRun1_B
  dsimp only
  sl_unfold_words
  rw [View.canon_unit_zero hz3]
  simp only [View.readAt_eq_ld, h2.read_unread, h3.read_unread, h4.read_unread, h5.read_unread, h6.read_unread, h7.read_unread,
    View.ld_unit_zero (S := S1x1x1) hz3, View.ld_unit_zero (S := S1x16x16) hz3, View.ld_unit_zero (S := S8192x512) hz2,
    View.ld_unit_zero (S := S8192x1) hz2, View.ld_unit_zero (S := S512x16) hz2, View.ld_unit_zero (S := S1x16) hz2]

/-- A restarting point stores the zero accumulator, reads it back, and leaves the step's first component from zero. -/
private theorem out_A_4 (c : Dev nD) (i : grid1.Coords) (a2 : Memref sig .tc .vmem S8192x512 .f32) (h2 : a2.IsWhole)
    (a3 : Memref sig .tc .vmem S8192x1 .i32) (h3 : a3.IsWhole) (a4 : Memref sig .tc .vmem S512x16 .f32) (h4 : a4.IsWhole)
    (a5 : Memref sig .tc .vmem S1x16 .f32) (h5 : a5.IsWhole) (a6 : Memref sig .tc .vmem S1x1x1 .f32) (h6 : a6.IsWhole)
    (a7 : Memref sig .tc .vmem S1x16x16 .f32) (h7 : a7.IsWhole) (hc : cond1_0 i)
    (x0 : Vec F S8192x512 .f32) (x1 : Vec F S8192x1 .i32) (x2 : Vec F S512x16 .f32) (x3 : Vec F S1x16 .f32) :
    out1_A_4 c i a2 h2 a3 h3 a4 h4 a5 h5 a6 h6 a7 h7 hc x0 x1 x2 x3 = k1_pay1 (k1_pay7 x0 x2 x1 x3) (k1_pay3 (F := F)) := by
  unfold out1_A_4
  rw [View.read_writes_eq_canon _ _ _ (cover1_A_4 c i a2 h2 a3 h3 a4 h4 a5 h5 a6 h6 a7 h7 hc x0 x1 x2 x3)]
  unfold kernelRun1_A
  dsimp only
  sl_unfold_words
  rw [View.canon_cons_unit_zero (S := S1x1x1) hz3, View.readCov_unit_zero (S := S1x1x1) _ hz3]
  simp only [View.readAt_eq_ld, h2.read_unread, h3.read_unread, h4.read_unread, h5.read_unread, h6.read_unread, h7.read_unread,
    View.ld_unit_zero (S := S1x1x1) hz3, View.ld_unit_zero (S := S1x16x16) hz3, View.ld_unit_zero (S := S8192x512) hz2,
    View.ld_unit_zero (S := S8192x1) hz2, View.ld_unit_zero (S := S512x16) hz2, View.ld_unit_zero (S := S1x16) hz2]

/-- A restarting point stores the zero accumulator, reads it back, and leaves the step's second component from zero. -/
private theorem out_A_5 (c : Dev nD) (i : grid1.Coords) (a2 : Memref sig .tc .vmem S8192x512 .f32) (h2 : a2.IsWhole)
    (a3 : Memref sig .tc .vmem S8192x1 .i32) (h3 : a3.IsWhole) (a4 : Memref sig .tc .vmem S512x16 .f32) (h4 : a4.IsWhole)
    (a5 : Memref sig .tc .vmem S1x16 .f32) (h5 : a5.IsWhole) (a6 : Memref sig .tc .vmem S1x1x1 .f32) (h6 : a6.IsWhole)
    (a7 : Memref sig .tc .vmem S1x16x16 .f32) (h7 : a7.IsWhole) (hc : cond1_0 i)
    (x0 : Vec F S8192x512 .f32) (x1 : Vec F S8192x1 .i32) (x2 : Vec F S512x16 .f32) (x3 : Vec F S1x16 .f32) :
    out1_A_5 c i a2 h2 a3 h3 a4 h4 a5 h5 a6 h6 a7 h7 hc x0 x1 x2 x3 = k1_pay2 (k1_pay5 x0 x2) (k1_pay6 x1) (k1_pay4 (F := F)) := by
  unfold out1_A_5
  rw [View.read_writes_eq_canon _ _ _ (cover1_A_5 c i a2 h2 a3 h3 a4 h4 a5 h5 a6 h6 a7 h7 hc x0 x1 x2 x3)]
  unfold kernelRun1_A
  dsimp only
  sl_unfold_words
  rw [View.canon_cons_unit_zero (S := S1x16x16) hz3, View.readCov_unit_zero (S := S1x16x16) _ hz3]
  simp only [View.readAt_eq_ld, h2.read_unread, h3.read_unread, h4.read_unread, h5.read_unread, h6.read_unread, h7.read_unread,
    View.ld_unit_zero (S := S1x1x1) hz3, View.ld_unit_zero (S := S1x16x16) hz3, View.ld_unit_zero (S := S8192x512) hz2,
    View.ld_unit_zero (S := S8192x1) hz2, View.ld_unit_zero (S := S512x16) hz2, View.ld_unit_zero (S := S1x16) hz2]

section Accumulation

variable (V : (c : Dev nD) → (b : Ref sig .tc) → Buf (Elt F) ((c : Thread nD τ).loc b))

/-- The recursion at a restarting point: the step from the zero accumulators. -/
private theorem chain_A (c : Dev nD) (t : Fin cfg1.N) (h0 : t.val % 8 = 0) :
    chain V c t.val t.isLt = step (xb V c t) (lb V c t) (ctb V c t) (dgb V c t) (k1_pay3 (F := F)) (k1_pay4 (F := F)) := by
  obtain ⟨n, hn⟩ := t
  cases n with
  | zero => exact rfl
  | succ n => exact (if_pos h0).trans rfl

/-- The recursion at a continuing point: the step from what the point before left. -/
private theorem chain_B (c : Dev nD) (t : Fin cfg1.N) (h0 : ¬t.val % 8 = 0) :
    chain V c t.val t.isLt = step (xb V c t) (lb V c t) (ctb V c t) (dgb V c t)
      (chain V c (t.val - 1) (Nat.lt_of_le_of_lt (Nat.sub_le _ _) t.isLt)).1
      (chain V c (t.val - 1) (Nat.lt_of_le_of_lt (Nat.sub_le _ _) t.isLt)).2 := by
  obtain ⟨n, hn⟩ := t
  cases n with
  | zero => exact absurd (Nat.zero_mod _) h0
  | succ n => exact (if_neg h0).trans rfl

/-- The buffers after a restarting point: the step from the zero accumulators. -/
private theorem outs_A (c : Dev nD) (t : Fin cfg1.N) (h0 : t.val % 8 = 0) :
    outsAt1 V c t.val t.isLt = step (xb V c t) (lb V c t) (ctb V c t) (dgb V c t) (k1_pay3 (F := F)) (k1_pay4 (F := F)) := by
  rw [outsAt1_A V c t h0]
  unfold step
  exact congrArg₂ Prod.mk
    (out_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xb V c t) (lb V c t) (ctb V c t) (dgb V c t))
    (out_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (xb V c t) (lb V c t) (ctb V c t) (dgb V c t))

/-- The buffers after a continuing point: the step from what they held after the point before. -/
private theorem outs_B (c : Dev nD) (t : Fin cfg1.N) (h0 : ¬t.val % 8 = 0) :
    outsAt1 V c t.val t.isLt = step (xb V c t) (lb V c t) (ctb V c t) (dgb V c t)
      (outsAt1 V c (t.val - 1) (Nat.lt_of_le_of_lt (Nat.sub_le _ _) t.isLt)).1
      (outsAt1 V c (t.val - 1) (Nat.lt_of_le_of_lt (Nat.sub_le _ _) t.isLt)).2 := by
  rw [outsAt1_B V c t h0]
  unfold step
  exact congrArg₂ Prod.mk
    (out_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xb V c t) (lb V c t) (ctb V c t) (dgb V c t)
      (outsAt1 V c (t.val - 1) (Nat.lt_of_le_of_lt (Nat.sub_le _ _) t.isLt)).1
      (outsAt1 V c (t.val - 1) (Nat.lt_of_le_of_lt (Nat.sub_le _ _) t.isLt)).2)
    (out_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (xb V c t) (lb V c t) (ctb V c t) (dgb V c t)
      (outsAt1 V c (t.val - 1) (Nat.lt_of_le_of_lt (Nat.sub_le _ _) t.isLt)).1
      (outsAt1 V c (t.val - 1) (Nat.lt_of_le_of_lt (Nat.sub_le _ _) t.isLt)).2)

/-- The buffers after every point are the running accumulators: by induction on the point. -/
private theorem outsAt_eq (c : Dev nD) : ∀ (n : ℕ) (h : n < cfg1.N), outsAt1 V c n h = chain V c n h
  | 0, h => (outs_A V c ⟨0, h⟩ rfl).trans (chain_A V c ⟨0, h⟩ rfl).symm
  | n + 1, h => by
    by_cases h0 : (n + 1) % 8 = 0
    · exact (outs_A V c ⟨n + 1, h⟩ h0).trans (chain_A V c ⟨n + 1, h⟩ h0).symm
    · refine (outs_B V c ⟨n + 1, h⟩ h0).trans ((chain_B V c ⟨n + 1, h⟩ h0).trans ?_).symm
      show step (xb V c ⟨n + 1, h⟩) (lb V c ⟨n + 1, h⟩) (ctb V c ⟨n + 1, h⟩) (dgb V c ⟨n + 1, h⟩)
          (chain V c n (Nat.lt_of_succ_lt h)).1 (chain V c n (Nat.lt_of_succ_lt h)).2
        = step (xb V c ⟨n + 1, h⟩) (lb V c ⟨n + 1, h⟩) (ctb V c ⟨n + 1, h⟩) (dgb V c ⟨n + 1, h⟩)
          (outsAt1 V c n (Nat.lt_of_succ_lt h)).1 (outsAt1 V c n (Nat.lt_of_succ_lt h)).2
      rw [outsAt_eq c n (Nat.lt_of_succ_lt h)]

/-- The recursion depends on the point's position only, not on how its bound is proved or its position spelt. -/
private theorem chain_congr (c : Dev nD) {n n' : ℕ} (e : n = n') (h : n < cfg1.N) (h' : n' < cfg1.N) :
    chain V c n h = chain V c n' h' := by
  subst e; rfl

/-- The first result's block index at point `t`: half `t / 8`, then zeros. -/
private theorem index4 : ∀ t : Fin grid1.N, win1_4.index t 0 = t.val / 8 ∧ win1_4.index t 1 = 0 ∧ win1_4.index t 2 = 0 := by
  decide +kernel

/-- The second result's block index at point `t`: half `t / 8`, then zeros. -/
private theorem index5 : ∀ t : Fin grid1.N, win1_5.index t 0 = t.val / 8 ∧ win1_5.index t 1 = 0 ∧ win1_5.index t 2 = 0 := by
  decide +kernel

/-- At the last point of a half the write-back of the first result writes that half's slice of the closed form:
    the block sits at row `t / 8` of the array, and `8 (t / 8) + 7 = t` there. -/
private theorem flushed4 (c : Dev nD) (t : Fin cfg1.N) (hf : (cfg1.win 4).flush t = true) :
    (dat1 V c).flushed 4 t = ((cfg1.win 4).blk t).view.read (Elt F) (G4 V c) := by
  have h7 : t.val % 8 = 7 := (flush1_4 t).mp hf
  show (cfg1.win 4).cut (grid1.coords t) ((dat1 V c).after 4 t) = _
  rw [after1_4, outsAt_eq]
  funext y
  rw [View.read_apply]
  have hb0 : (((cfg1.win 4).blk t).view.emb y 0).val = win1_4.index t 0 * 1 + 1 * (y 0).val := rfl
  have hb1 : (((cfg1.win 4).blk t).view.emb y 1).val = win1_4.index t 1 * 1 + 1 * (y 1).val := rfl
  have hb2 : (((cfg1.win 4).blk t).view.emb y 2).val = win1_4.index t 2 * 1 + 1 * (y 2).val := rfl
  have hy0 : (y 0).val < 1 := (y 0).isLt
  obtain ⟨i0, i1, i2⟩ := index4 t
  have e0 : 8 * (((cfg1.win 4).blk t).view.emb y 0).val + 7 = t.val := by rw [hb0, i0]; omega
  show (chain V c t.val t.isLt).1 ((cfg1.win 4).xinj (grid1.coords t) y)
    = (chain V c (8 * (((cfg1.win 4).blk t).view.emb y 0).val + 7) (last_lt (((cfg1.win 4).blk t).view.emb y 0))).1
        (ix3 (0 : Fin 1) (((cfg1.win 4).blk t).view.emb y 1) (((cfg1.win 4).blk t).view.emb y 2))
  rw [chain_congr V c e0 (last_lt (((cfg1.win 4).blk t).view.emb y 0)) t.isLt]
  refine congrArg (chain V c t.val t.isLt).1 (funext fun a => Fin.ext ?_)
  match a with
  | ⟨0, _⟩ => show (y 0).val = 0; omega
  | ⟨1, _⟩ => show (y 1).val = (((cfg1.win 4).blk t).view.emb y 1).val; rw [hb1, i1]; omega
  | ⟨2, _⟩ => show (y 2).val = (((cfg1.win 4).blk t).view.emb y 2).val; rw [hb2, i2]; omega

/-- At the last point of a half the write-back of the second result writes that half's slice of the closed form. -/
private theorem flushed5 (c : Dev nD) (t : Fin cfg1.N) (hf : (cfg1.win 5).flush t = true) :
    (dat1 V c).flushed 5 t = ((cfg1.win 5).blk t).view.read (Elt F) (G5 V c) := by
  have h7 : t.val % 8 = 7 := (flush1_5 t).mp hf
  show (cfg1.win 5).cut (grid1.coords t) ((dat1 V c).after 5 t) = _
  rw [after1_5, outsAt_eq]
  funext y
  rw [View.read_apply]
  have hb0 : (((cfg1.win 5).blk t).view.emb y 0).val = win1_5.index t 0 * 1 + 1 * (y 0).val := rfl
  have hb1 : (((cfg1.win 5).blk t).view.emb y 1).val = win1_5.index t 1 * 16 + 1 * (y 1).val := rfl
  have hb2 : (((cfg1.win 5).blk t).view.emb y 2).val = win1_5.index t 2 * 16 + 1 * (y 2).val := rfl
  have hy0 : (y 0).val < 1 := (y 0).isLt
  obtain ⟨i0, i1, i2⟩ := index5 t
  have e0 : 8 * (((cfg1.win 5).blk t).view.emb y 0).val + 7 = t.val := by rw [hb0, i0]; omega
  show (chain V c t.val t.isLt).2 ((cfg1.win 5).xinj (grid1.coords t) y)
    = (chain V c (8 * (((cfg1.win 5).blk t).view.emb y 0).val + 7) (last_lt (((cfg1.win 5).blk t).view.emb y 0))).2
        (ix3 (0 : Fin 1) (((cfg1.win 5).blk t).view.emb y 1) (((cfg1.win 5).blk t).view.emb y 2))
  rw [chain_congr V c e0 (last_lt (((cfg1.win 5).blk t).view.emb y 0)) t.isLt]
  refine congrArg (chain V c t.val t.isLt).2 (funext fun a => Fin.ext ?_)
  match a with
  | ⟨0, _⟩ => show (y 0).val = 0; omega
  | ⟨1, _⟩ => show (y 1).val = (((cfg1.win 5).blk t).view.emb y 1).val; rw [hb1, i1]; omega
  | ⟨2, _⟩ => show (y 2).val = (((cfg1.win 5).blk t).view.emb y 2).val; rw [hb2, i2]; omega

end Accumulation

theorem final4 (V : (c : Dev nD) → (b : Ref sig .tc) → Buf (Elt F) ((c : Thread nD τ).loc b)) (c : Dev nD) :
    (dat1 V c).arrAt 4 cfg1.N = G4 V c :=
  -- row `h` of the array is covered by the write-back at the last point of half `h`
  (dat1 V c).arrAt_eq_of_cover 4 (G4 V c) (flushed4 V c) fun i =>
    ⟨⟨8 * (i 0).val + 7, last_lt (i 0)⟩, (flush1_4 _).mpr (by show (8 * (i 0).val + 7) % 8 = 7; omega), by
      show i ∈ ((View.whole main_v41_0).slice (win1_4.rect ⟨8 * (i 0).val + 7, last_lt (i 0)⟩)).set
      rw [View.set_slice_whole, Rect.mem_set_unit]
      obtain ⟨i0, i1, i2⟩ := index4 ⟨8 * (i 0).val + 7, last_lt (i 0)⟩
      have h0 : (i 0 : Nat) < 2 := (i 0).isLt
      have h1 : (i 1 : Nat) < 1 := (i 1).isLt
      have h2 : (i 2 : Nat) < 1 := (i 2).isLt
      intro a
      match a with
      | ⟨0, _⟩ =>
        show win1_4.index ⟨8 * (i 0).val + 7, last_lt (i 0)⟩ 0 * 1 ≤ (i 0 : Nat)
          ∧ (i 0 : Nat) < win1_4.index ⟨8 * (i 0).val + 7, last_lt (i 0)⟩ 0 * 1 + 1
        rw [i0]; dsimp only; omega
      | ⟨1, _⟩ =>
        show win1_4.index ⟨8 * (i 0).val + 7, last_lt (i 0)⟩ 1 * 1 ≤ (i 1 : Nat)
          ∧ (i 1 : Nat) < win1_4.index ⟨8 * (i 0).val + 7, last_lt (i 0)⟩ 1 * 1 + 1
        rw [i1]; omega
      | ⟨2, _⟩ =>
        show win1_4.index ⟨8 * (i 0).val + 7, last_lt (i 0)⟩ 2 * 1 ≤ (i 2 : Nat)
          ∧ (i 2 : Nat) < win1_4.index ⟨8 * (i 0).val + 7, last_lt (i 0)⟩ 2 * 1 + 1
        rw [i2]; omega⟩

theorem final5 (V : (c : Dev nD) → (b : Ref sig .tc) → Buf (Elt F) ((c : Thread nD τ).loc b)) (c : Dev nD) :
    (dat1 V c).arrAt 5 cfg1.N = G5 V c :=
  -- slab `h` of the array is covered by the write-back at the last point of half `h`
  (dat1 V c).arrAt_eq_of_cover 5 (G5 V c) (flushed5 V c) fun i =>
    ⟨⟨8 * (i 0).val + 7, last_lt (i 0)⟩, (flush1_5 _).mpr (by show (8 * (i 0).val + 7) % 8 = 7; omega), by
      show i ∈ ((View.whole main_v41_1).slice (win1_5.rect ⟨8 * (i 0).val + 7, last_lt (i 0)⟩)).set
      rw [View.set_slice_whole, Rect.mem_set_unit]
      obtain ⟨i0, i1, i2⟩ := index5 ⟨8 * (i 0).val + 7, last_lt (i 0)⟩
      have h0 : (i 0 : Nat) < 2 := (i 0).isLt
      have h1 : (i 1 : Nat) < 16 := (i 1).isLt
      have h2 : (i 2 : Nat) < 16 := (i 2).isLt
      intro a
      match a with
      | ⟨0, _⟩ =>
        show win1_5.index ⟨8 * (i 0).val + 7, last_lt (i 0)⟩ 0 * 1 ≤ (i 0 : Nat)
          ∧ (i 0 : Nat) < win1_5.index ⟨8 * (i 0).val + 7, last_lt (i 0)⟩ 0 * 1 + 1
        rw [i0]; dsimp only; omega
      | ⟨1, _⟩ =>
        show win1_5.index ⟨8 * (i 0).val + 7, last_lt (i 0)⟩ 1 * 16 ≤ (i 1 : Nat)
          ∧ (i 1 : Nat) < win1_5.index ⟨8 * (i 0).val + 7, last_lt (i 0)⟩ 1 * 16 + 16
        rw [i1]; omega
      | ⟨2, _⟩ =>
        show win1_5.index ⟨8 * (i 0).val + 7, last_lt (i 0)⟩ 2 * 16 ≤ (i 2 : Nat)
          ∧ (i 2 : Nat) < win1_5.index ⟨8 * (i 0).val + 7, last_lt (i 0)⟩ 2 * 16 + 16
        rw [i2]; omega⟩

end Cert.KernelIdeal.R1

end
-- ==== Proof.R1Pay.lean ====
/-
  The second pass's per-tile values read at an index: the distance of a tile's row to a class column, and the
  one-hot reading of a tile's labels.
-/
import proofs.«425050_j40157944218131_3_alg».proof.Proof.Gen.KernelIdeal.Frame
import proofs.«425050_j40157944218131_3_alg».proof.Proof.Spec
import proofs.«425050_j40157944218131_3_alg».proof.Proof.Alg
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

/-- The lane sum of a [8192, 512] tile, at row r: the sum of the row. -/
private theorem laneSum512 (v : FVec Ideal S8192x512 .f32) (h : S8192x512.Reduces [1] S8192) (hφ : FKind.Formats .f32)
    (hacc : (0x00000000#32 : BitVec 32) = FKind.add.neutral .f32 hφ) (r : Fin 8192) :
    multiReduction (F := Ideal) .add [1] S8192 v 0x00000000#32 h hφ hacc (ix1 r) = ∑ d : Fin 512, v (ix2 r d) := by
  refine (Ideal.multiReduction_add_single v 0x00000000#32 h hφ hacc (ix1 r)).trans ?_
  refine Finset.sum_congr rfl fun d _ => congrArg v ?_
  funext a; apply Fin.ext
  match a with
  | ⟨0, _⟩ => rfl
  | ⟨1, _⟩ => rfl

/-- A vector of 8192 entries seen as a column: entry (r, 0) is entry r. -/
private theorem toCol_apply {α : Type} (v : S8192.Idx → α) (h : S8192.ShapeCasts S8192x1) (r : Fin 8192) (u : Fin 1) :
    shapeCast S8192x1 v h (ix2 r u) = v (ix1 r) :=
  shapeCast_apply v h _ _ (by
    have hu : u.val = 0 := by omega
    rw [Shape.rowMajor_val_two, Shape.rowMajor_val_one]
    show r.val = r.val * 1 + u.val
    omega)

/-- A column repeated along the lanes: entry (p, q) is the column's entry (p, 0). -/
private theorem colBcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The named floor under the squared length is κ. -/
private theorem eps_sq_eq :
    Named.named (F := Ideal) Cert.KernelIdeal.κ "eps_sq" (φ := .f32) 0x24E69595#32 = Cert.Spec.kappa :=
  IdealRules.named_const.ideal_named_scalar _ _ _ _ rfl

/-! The product of a [8192, 512] tile with a [512, 16] one contracts the tile's lane axis with the other's row axis. -/

private theorem lhs_row (j : S8192x16.Idx) (k : dot_S8192x512_S512x16_S8192x16_1_0_0_1_n_n.contr.Idx) :
    (dot_S8192x512_S512x16_S8192x16_1_0_0_1_n_n.lhsIdx j k (0 : Fin 2)).val = (j (0 : Fin 2)).val := by
  simp [DotDims.lhsIdx, dot_S8192x512_S512x16_S8192x16_1_0_0_1_n_n]; rfl

private theorem lhs_lane (j : S8192x16.Idx) (k : dot_S8192x512_S512x16_S8192x16_1_0_0_1_n_n.contr.Idx) :
    (dot_S8192x512_S512x16_S8192x16_1_0_0_1_n_n.lhsIdx j k (1 : Fin 2)).val = (k ⟨0, by decide⟩).val :=
  DotDims.lhsIdx_val_of_single _ rfl j k

private theorem rhs_row (j : S8192x16.Idx) (k : dot_S8192x512_S512x16_S8192x16_1_0_0_1_n_n.contr.Idx) :
    (dot_S8192x512_S512x16_S8192x16_1_0_0_1_n_n.rhsIdx j k (0 : Fin 2)).val = (k ⟨0, by decide⟩).val :=
  DotDims.rhsIdx_val_of_single _ rfl j k

private theorem rhs_lane (j : S8192x16.Idx) (k : dot_S8192x512_S512x16_S8192x16_1_0_0_1_n_n.contr.Idx) :
    (dot_S8192x512_S512x16_S8192x16_1_0_0_1_n_n.rhsIdx j k (1 : Fin 2)).val = (j (1 : Fin 2)).val := by
  simp [DotDims.rhsIdx, dot_S8192x512_S512x16_S8192x16_1_0_0_1_n_n]; rfl

/-- Entry (r, c) of the product into the zero tile: the sum over d of A (r, d) · B (d, c). -/
private theorem matmul_at {φ₁ φ₂ : FTy} (A : FVec Ideal S8192x512 φ₁) (B : FVec Ideal S512x16 φ₂) (r : Fin 8192) (c : Fin 16) :
    matmul (F := Ideal) dot_S8192x512_S512x16_S8192x16_1_0_0_1_n_n none A B (constant (F := Ideal) S8192x16 .f32 0x00000000#32) (ix2 r c)
      = ∑ d : Fin 512, A (ix2 r d) * B (ix2 d c) := by
  show FloatOps.matmul dot_S8192x512_S512x16_S8192x16_1_0_0_1_n_n none A B (constant S8192x16 .f32 0x00000000#32) (ix2 r c) = _
  rw [Ideal.matmul_constant_zero_apply,
    ← Equiv.sum_comp (contrEquiv1 dot_S8192x512_S512x16_S8192x16_1_0_0_1_n_n 512 rfl rfl).symm]
  refine Finset.sum_congr rfl fun d _ => ?_
  have hd := contrEquiv1_symm_val dot_S8192x512_S512x16_S8192x16_1_0_0_1_n_n 512 rfl rfl d
  have hl : dot_S8192x512_S512x16_S8192x16_1_0_0_1_n_n.lhsIdx (ix2 r c)
      ((contrEquiv1 dot_S8192x512_S512x16_S8192x16_1_0_0_1_n_n 512 rfl rfl).symm d) = ix2 r d := by
    funext ax; apply Fin.ext
    match ax with
    | ⟨0, _⟩ => exact lhs_row _ _
    | ⟨1, _⟩ => exact (lhs_lane _ _).trans hd
  have hr : dot_S8192x512_S512x16_S8192x16_1_0_0_1_n_n.rhsIdx (ix2 r c)
      ((contrEquiv1 dot_S8192x512_S512x16_S8192x16_1_0_0_1_n_n 512 rfl rfl).symm d) = ix2 d c := by
    funext ax; apply Fin.ext
    match ax with
    | ⟨0, _⟩ => exact (rhs_row _ _).trans hd
    | ⟨1, _⟩ => exact rhs_lane _ _
  rw [hl, hr]

/-- Entry (r, c) of the distances of a tile: row r's distance to column c. -/
theorem pay5_apply (x : Vec Ideal S8192x512 .f32) (ct : Vec Ideal S512x16 .f32) (r : Fin 8192) (c : Fin 16) :
    k1_pay5 (F := Ideal) x ct (ix2 r c) = Cert.Spec.rowDist (fun d => x (ix2 r d)) (fun d => ct (ix2 d c)) := by
  unfold k1_pay5 Cert.Spec.rowDist Cert.Spec.rowScale
  -- the literal 1 minus entry (r, c) of the product
  refine (subf_apply _ _ _).trans ?_
  refine congrArg (fun t => Cert.Spec.one - t) ?_
  refine (matmul_at _ _ r c).trans ?_
  refine Finset.sum_congr rfl fun d _ => ?_
  refine congrArg₂ (fun s t : EReal => s * t) ?_ ?_
  · -- the scaled row: x (r, d) times the row's scale, which every lane of row r shares
    show x (ix2 r d) * broadcastTo S8192x512 _ broadcasts_S8192x1_S8192x512 (ix2 r d) = _
    refine congrArg (fun t => x (ix2 r d) * t) ?_
    refine (colBcast_apply _ _ r d).trans ?_
    show Ideal.rsqrt (max (shapeCast S8192x1 _ shapeCasts_S8192_S8192x1 (ix2 r (0 : Fin 1))) _) = _
    refine congrArg Ideal.rsqrt (congrArg₂ max ?_ eps_sq_eq)
    exact (toCol_apply _ _ r 0).trans (laneSum512 _ _ _ _ r)
  · -- the class column is read as it is
    show shapeCast S512x16 ct shapeCasts_S512x16_S512x16 (ix2 d c) = _
    rw [shapeCast_self]

/-- Two class numbers below 16, written as 32-bit words, are the same word exactly when they are the same class;
    the one-bit answer, widened to a word and read as a signed integer, is 1 or 0. -/
private theorem sameWord : ∀ a b : Fin 16,
    ((IntOp.cmpi .eq (BitVec.ofNat 32 a.val) (BitVec.ofNat 32 b.val)).setWidth 32).toInt = if b = a then 1 else 0 := by
  decide

/-- … and as an extended real. -/
private theorem sameWord_real (a b : Fin 16) :
    ((((IntOp.cmpi .eq (BitVec.ofNat 32 a.val) (BitVec.ofNat 32 b.val)).setWidth 32).toInt : ℝ) : EReal)
      = if b = a then (1 : EReal) else 0 := by
  rw [sameWord a b]
  split
  · rw [Int.cast_one, EReal.coe_one]
  · rw [Int.cast_zero, EReal.coe_zero]

/-- Entry (r, c) of the one-hot reading of a tile's labels: one where row r carries class c. -/
theorem pay6_apply (l : Vec Ideal S8192x1 .i32) (Lt : Fin 8192 → Fin 16)
    (hL : ∀ r : Fin 8192, l (ix2 r (0 : Fin 1)) = BitVec.ofNat 32 (Lt r).val) (r : Fin 8192) (c : Fin 16) :
    k1_pay6 (F := Ideal) l (ix2 r c) = if Lt r = c then (1 : EReal) else 0 := by
  -- the lane counter at (r, c) is the word of c
  have e1 : iota .tc S8192x16 32 [1] iota_S8192x16_d1_w32 (ix2 r c) = BitVec.ofNat 32 c.val :=
    iota_single_apply .tc S8192x16 32 1 iota_S8192x16_d1_w32 (ix2 r c)
  -- the label column repeated along the lanes is, at (r, c), the word of row r's class
  have e2 : broadcastTo S8192x16 (shapeCast S8192x1 l shapeCasts_S8192x1_S8192x1) broadcasts_S8192x1_S8192x16 (ix2 r c)
      = BitVec.ofNat 32 (Lt r).val :=
    (colBcast_apply _ _ r c).trans ((congrFun (shapeCast_self l _) _).trans (hL r))
  unfold k1_pay6
  show ((((IntOp.cmpi .eq (iota .tc S8192x16 32 [1] iota_S8192x16_d1_w32 (ix2 r c))
      (broadcastTo S8192x16 (shapeCast S8192x1 l shapeCasts_S8192x1_S8192x1) broadcasts_S8192x1_S8192x16 (ix2 r c))).setWidth 32).toInt : ℝ) : EReal) = _
  rw [e1, e2]
  exact sameWord_real c (Lt r)

end Cert.KernelIdeal.R1

end
-- ==== Proof.R1TileIntra.lean ====
/-
  One tile of the second pass's intra-class accumulator: what was there plus, over the tile's rows, the weight of
  the row's class times the part of its distance to its own class's column that exceeds α.
-/
import proofs.«425050_j40157944218131_3_alg».proof.Proof.Gen.KernelIdeal.Frame
import proofs.«425050_j40157944218131_3_alg».proof.Proof.Spec
import proofs.«425050_j40157944218131_3_alg».proof.Proof.R1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

/-- Between shapes of one element a cast reads the one entry. -/
private theorem cast_unit {α : Type} {s t : Shape} (hs : s.numel = 1) (ht : t.numel = 1) (x : s.Idx → α) (h : s.ShapeCasts t)
    (j : t.Idx) (k : s.Idx) : shapeCast t x h j = x k :=
  shapeCast_apply x h j k (by have := (s.rowMajor k).isLt; have := (t.rowMajor j).isLt; omega)

/-- The lane sum of an [a, b] tile, at row r: the sum of the row. -/
private theorem laneSum {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ v 0x00000000#32 h hφ hacc (ix1 r) = ∑ d : Fin b, v (ix2 r d) := by
  refine (Ideal.multiReduction_add_single v 0x00000000#32 h hφ hacc (ix1 r)).trans ?_
  refine Finset.sum_congr rfl fun d _ => congrArg v ?_
  funext ax; apply Fin.ext
  match ax with
  | ⟨0, _⟩ => rfl
  | ⟨1, _⟩ => rfl

/-- Against a row that is one at t and zero elsewhere, a sum over the 16 classes keeps its term at t. -/
private theorem sum_oneHot (f : Fin 16 → EReal) (t : Fin 16) :
    ∑ c : Fin 16, f c * (if t = c then (1 : EReal) else 0) = f t := by
  rw [Finset.sum_eq_single t]
  · rw [if_pos rfl, mul_one]
  · intro c _ hc; rw [if_neg (Ne.symm hc), mul_zero]
  · intro h; exact absurd (Finset.mem_univ t) h

/-- Row r of a tile's contributions: the weight of the row's class times the part of the row's distance to its own
    class's column that exceeds α. Both lane sums meet the one-hot row of r and keep their term at r's class. -/
private theorem row_apply (x : Vec Ideal S8192x512 .f32) (l : Vec Ideal S8192x1 .i32) (ct : Vec Ideal S512x16 .f32)
    (dg : Vec Ideal S1x16 .f32) (Lt : Fin 8192 → Fin 16)
    (hL : ∀ r : Fin 8192, l (ix2 r (0 : Fin 1)) = BitVec.ofNat 32 (Lt r).val) (r : Fin 8192) :
    k1_pay7 (F := Ideal) x ct l dg (ix2 (0 : Fin 1) r) = dg (ix2 (0 : Fin 1) (Lt r))
          * Cert.Spec.over (Cert.Spec.rowDist (fun d => x (ix2 r d)) (fun d => ct (ix2 d (Lt r)))) := by
  unfold k1_pay7
  refine (shapeCast_a_1a_apply _ _ (0 : Fin 1) r).trans ?_
  refine (mulf_apply _ _ _).trans ?_
  refine congrArg₂ (fun s t : EReal => s * t) ?_ ?_
  · -- ∑ c, dg (0, c) · onehot (r, c) = dg (0, Lt r)
    refine (laneSum _ _ _ _ r).trans ?_
    refine (Finset.sum_congr rfl fun c _ => ?_).trans (sum_oneHot (fun c => dg (ix2 (0 : Fin 1) c)) (Lt r))
    refine (mulf_apply _ _ _).trans ?_
    refine congrArg₂ (fun s t : EReal => s * t) ?_ (pay6_apply l Lt hL r c)
    refine (broadcastTo_1b_ab_apply _ _ r c).trans ?_
    exact congrFun (shapeCast_self dg _) _
  · -- max ((∑ c, dist (r, c) · onehot (r, c)) − α, 0) = over (dist (r, Lt r))
    unfold Cert.Spec.over
    refine (maximumf_apply _ _ _).trans ?_
    refine congrArg₂ max ?_ rfl
    refine (subf_apply _ _ _).trans ?_
    refine congrArg (fun t => t - Cert.Spec.alpha) ?_
    refine (laneSum _ _ _ _ r).trans ?_
    refine (Finset.sum_congr rfl fun c _ => ?_).trans
      (sum_oneHot (fun c => Cert.Spec.rowDist (fun d => x (ix2 r d)) (fun d => ct (ix2 d c))) (Lt r))
    refine (mulf_apply _ _ _).trans ?_
    exact congrArg₂ (fun s t : EReal => s * t) (pay5_apply x ct r c) (pay6_apply l Lt hL r c)

/-- A [1, 1] value seen as [1, 1, 1]: its one entry. -/
private theorem castUp_apply (X : S1x1.Idx → EReal) (h : S1x1.ShapeCasts S1x1x1) (i : S1x1x1.Idx) :
    shapeCast S1x1x1 X h i = X (ix2 (0 : Fin 1) (0 : Fin 1)) :=
  cast_unit (by decide) (by decide) _ _ i (ix2 (0 : Fin 1) (0 : Fin 1))

/-- A [1, 1, 1] value seen as [1, 1]: its one entry. -/
private theorem castDown_apply (a : S1x1x1.Idx → EReal) (h : S1x1x1.ShapeCasts S1x1) (i : S1x1x1.Idx) :
    shapeCast S1x1 a h (ix2 (0 : Fin 1) (0 : Fin 1)) = a i :=
  cast_unit (by decide) (by decide) a _ _ i

/-- A [1] value seen as [1, 1]: its one entry, wherever it is read. -/
private theorem castCol_apply (M : S1.Idx → EReal) (h : S1.ShapeCasts S1x1) (k : S1x1.Idx) :
    shapeCast S1x1 M h k = M (ix1 (0 : Fin 1)) :=
  cast_unit (by decide) (by decide) _ _ _ (ix1 (0 : Fin 1))

/-- The lane sum of a [1, 8192] row vector: the sum of its 8192 entries. -/
private theorem rowSum8192 (v : FVec Ideal S1x8192 .f32) (h : S1x8192.Reduces [1] S1) (hφ : FKind.Formats .f32)
    (hacc : (0x00000000#32 : BitVec 32) = FKind.add.neutral .f32 hφ) :
    multiReduction (F := Ideal) .add [1] S1 v 0x00000000#32 h hφ hacc (ix1 (0 : Fin 1))
      = ∑ r : Fin 8192, v (ix2 (0 : Fin 1) r) :=
  laneSum v _ _ _ 0

/-- The accumulator's one entry after a tile: what was there plus the sum of the tile's row of contributions. -/
private theorem acc_apply (v : FVec Ideal S1x8192 .f32) (a : Vec Ideal S1x1x1 .f32) (i : S1x1x1.Idx) :
    k1_pay1 (F := Ideal) v a i = a i + ∑ r : Fin 8192, v (ix2 (0 : Fin 1) r) := by
  unfold k1_pay1
  refine (castUp_apply _ _ i).trans ?_
  refine (addf_apply _ _ _).trans ?_
  refine congrArg₂ (fun s t : EReal => s + t) (castDown_apply a _ i) ?_
  -- the entry picked out of the [1, 1] view of the lane sum, repeated over [1, 1], is the lane sum
  exact (castCol_apply _ _ _).trans (rowSum8192 v _ _ _)

theorem tile_intra (x : Vec Ideal S8192x512 .f32) (l : Vec Ideal S8192x1 .i32) (ct : Vec Ideal S512x16 .f32)
    (dg : Vec Ideal S1x16 .f32) (a : Vec Ideal S1x1x1 .f32) (Lt : Fin 8192 → Fin 16)
    (hL : ∀ r : Fin 8192, l (ix2 r (0 : Fin 1)) = BitVec.ofNat 32 (Lt r).val) (i : S1x1x1.Idx) :
    k1_pay1 (F := Ideal) (k1_pay7 x ct l dg) a i
      = a i + ∑ r : Fin 8192, dg (ix2 (0 : Fin 1) (Lt r))
          * Cert.Spec.over (Cert.Spec.rowDist (fun d => x (ix2 r d)) (fun d => ct (ix2 d (Lt r)))) := by
  refine (acc_apply _ a i).trans ?_
  refine congrArg (fun t => a i + t) ?_
  exact Finset.sum_congr rfl fun r _ => row_apply x l ct dg Lt hL r

end Cert.KernelIdeal.R1

end
-- ==== Proof.R1TileInter.lean ====
/-
  One tile of the second pass's inter-class accumulator: entry (k, k') gains, over the tile's rows of class k', the
  part by which β exceeds the row's distance to column k.
-/
import proofs.«425050_j40157944218131_3_alg».proof.Proof.Gen.KernelIdeal.Frame
import proofs.«425050_j40157944218131_3_alg».proof.Proof.Spec
import proofs.«425050_j40157944218131_3_alg».proof.Proof.R1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

/-- On the left factor's row axis, the one contracted, the index is the contraction position. -/
private theorem lhs_axis0 (j : S16x16.Idx) (q : dot_S8192x16_S8192x16_S16x16_0_0_1_1_n_n.contr.Idx) :
    (dot_S8192x16_S8192x16_S16x16_0_0_1_1_n_n.lhsIdx j q 0).val = (q ⟨0, by decide⟩).val :=
  DotDims.lhsIdx_val_of_single _ rfl j q

/-- On the left factor's column axis the index is the result's first coordinate. -/
private theorem lhs_axis1 (j : S16x16.Idx) (q : dot_S8192x16_S8192x16_S16x16_0_0_1_1_n_n.contr.Idx) :
    (dot_S8192x16_S8192x16_S16x16_0_0_1_1_n_n.lhsIdx j q 1).val = (j 0).val := by
  unfold DotDims.lhsIdx
  rw [dif_neg (show ¬(1 : Fin S8192x16.rank) ∈ dot_S8192x16_S8192x16_S16x16_0_0_1_1_n_n.lhsBatch by decide),
    dif_pos (show (1 : Fin S8192x16.rank) ∈ dot_S8192x16_S8192x16_S16x16_0_0_1_1_n_n.lhsNonContracting by decide)]
  rfl

/-- On the right factor's row axis, the one contracted, the index is the contraction position. -/
private theorem rhs_axis0 (j : S16x16.Idx) (q : dot_S8192x16_S8192x16_S16x16_0_0_1_1_n_n.contr.Idx) :
    (dot_S8192x16_S8192x16_S16x16_0_0_1_1_n_n.rhsIdx j q 0).val = (q ⟨0, by decide⟩).val :=
  DotDims.rhsIdx_val_of_single _ rfl j q

/-- On the right factor's column axis the index is the result's second coordinate. -/
private theorem rhs_axis1 (j : S16x16.Idx) (q : dot_S8192x16_S8192x16_S16x16_0_0_1_1_n_n.contr.Idx) :
    (dot_S8192x16_S8192x16_S16x16_0_0_1_1_n_n.rhsIdx j q 1).val = (j 1).val := by
  unfold DotDims.rhsIdx
  rw [dif_neg (show ¬(1 : Fin S8192x16.rank) ∈ dot_S8192x16_S8192x16_S16x16_0_0_1_1_n_n.rhsBatch by decide),
    dif_pos (show (1 : Fin S8192x16.rank) ∈ dot_S8192x16_S8192x16_S16x16_0_0_1_1_n_n.rhsNonContracting by decide)]
  rfl

/-- The product that contracts the row axis of both factors, accumulated into zero: entry (k, k') is the sum over the
    rows r of the left factor at (r, k) times the right factor at (r, k'). -/
private theorem gram_apply (A B : FVec Ideal S8192x16 .bf16) (k k' : Fin 16) :
    matmul dot_S8192x16_S8192x16_S16x16_0_0_1_1_n_n none A B (constant (F := Ideal) S16x16 .f32 0x00000000#32) (ix2 k k')
      = ∑ r : Fin 8192, A (ix2 r k) * B (ix2 r k') := by
  show FloatOps.matmul _ none A B _ (ix2 k k') = _
  rw [Ideal.matmul_constant_zero_apply,
    ← Equiv.sum_comp (contrEquiv1 dot_S8192x16_S8192x16_S16x16_0_0_1_1_n_n 8192 rfl rfl).symm]
  refine Finset.sum_congr rfl fun r _ => ?_
  have hq := contrEquiv1_symm_val dot_S8192x16_S8192x16_S16x16_0_0_1_1_n_n 8192 rfl rfl r
  have hl : dot_S8192x16_S8192x16_S16x16_0_0_1_1_n_n.lhsIdx (ix2 k k') ((contrEquiv1 _ 8192 rfl rfl).symm r) = ix2 r k := by
    funext ax; apply Fin.ext
    match ax with
    | ⟨0, _⟩ => exact (lhs_axis0 _ _).trans hq
    | ⟨1, _⟩ => exact lhs_axis1 _ _
  have hr : dot_S8192x16_S8192x16_S16x16_0_0_1_1_n_n.rhsIdx (ix2 k k') ((contrEquiv1 _ 8192 rfl rfl).symm r) = ix2 r k' := by
    funext ax; apply Fin.ext
    match ax with
    | ⟨0, _⟩ => exact (rhs_axis0 _ _).trans hq
    | ⟨1, _⟩ => exact rhs_axis1 _ _
  rw [hl, hr]

theorem tile_inter (x : Vec Ideal S8192x512 .f32) (l : Vec Ideal S8192x1 .i32) (ct : Vec Ideal S512x16 .f32)
    (a : Vec Ideal S1x16x16 .f32) (Lt : Fin 8192 → Fin 16)
    (hL : ∀ r : Fin 8192, l (ix2 r (0 : Fin 1)) = BitVec.ofNat 32 (Lt r).val) (k k' : Fin 16) :
    k1_pay2 (F := Ideal) (k1_pay5 x ct) (k1_pay6 l) a (ix3 (0 : Fin 1) k k')
      = a (ix3 (0 : Fin 1) k k') + ∑ r : Fin 8192,
          if Lt r = k' then Cert.Spec.under (Cert.Spec.rowDist (fun d => x (ix2 r d)) (fun d => ct (ix2 d k))) else 0 := by
  unfold k1_pay2
  -- the two casts only add and drop the leading unit axis; the sum in between is entrywise
  rw [shapeCast_ab_1ab_apply, addf_apply, shapeCast_1ab_ab_apply, gram_apply]
  refine congrArg (a (ix3 (0 : Fin 1) k k') + ·) (Finset.sum_congr rfl fun r _ => ?_)
  -- the narrowing of the format is the identity on extended reals
  rw [truncf_apply, truncf_apply, maximumf_apply, subf_apply, broadcast_apply, broadcast_apply,
    pay5_apply, pay6_apply l Lt hL]
  -- a factor 1 where row r carries class k', a factor 0 elsewhere
  by_cases h : Lt r = k'
  · rw [if_pos h, if_pos h, mul_one]; rfl
  · rw [if_neg h, if_neg h, mul_zero]

end Cert.KernelIdeal.R1

end
-- ==== Proof.R1Math.lean ====
/-
  The accumulations' closed forms, added over the two halves, are the intra-class term and the inter-class table:
  each tile's step adds that tile's rows' contributions, and the sixteen tiles of 8192 rows are the 131072 samples
  in order.
-/
import proofs.«425050_j40157944218131_3_alg».proof.Proof.Gen.KernelIdeal.Frame
import proofs.«425050_j40157944218131_3_alg».proof.Proof.R1Defs
import proofs.«425050_j40157944218131_3_alg».proof.Proof.R1TileIntra
import proofs.«425050_j40157944218131_3_alg».proof.Proof.R1TileInter
import proofs.«425050_j40157944218131_3_alg».proof.Proof.Spec
import proofs.«425050_j40157944218131_3_alg».proof.Proof.Alg
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

section Pieces

/-! ## Sums over the samples, tile by tile -/

/-- One tile's rows added up: tile t holds the samples 8192 t, …, 8192 t + 8191. -/
private def tileSum (g : ℕ → EReal) (t : ℕ) : EReal := ∑ r : Fin 8192, g (8192 * t + r.val)

/-- A sum over a · b consecutive numbers, cut into a runs of b. -/
private theorem sum_range_blocks (f : ℕ → EReal) (a b : ℕ) :
    ∑ n ∈ Finset.range (a * b), f n = ∑ i ∈ Finset.range a, ∑ j ∈ Finset.range b, f (b * i + j) := by
  induction a with
  | zero => simp
  | succ a ih => rw [Nat.succ_mul, Finset.sum_range_add, ih, Finset.sum_range_succ, Nat.mul_comm a b]

/-- The two halves of eight tiles of 8192 rows are the 131072 samples in order. -/
private theorem regroup (g : ℕ → EReal) :
    ∑ h : Fin 2, ∑ j ∈ Finset.range 8, tileSum g (8 * h.val + j) = ∑ n : Fin 131072, g n.val := by
  rw [← Finset.sum_range (fun n => g n), show (131072 : ℕ) = 16 * 8192 from rfl, sum_range_blocks,
    show (16 : ℕ) = 2 * 8 from rfl, sum_range_blocks, ← Finset.sum_range (fun h => ∑ j ∈ Finset.range 8, tileSum g (8 * h + j))]
  refine Finset.sum_congr rfl fun h _ => Finset.sum_congr rfl fun j _ => ?_
  unfold tileSum
  exact (Finset.sum_range (fun r => g (8192 * (8 * h + j) + r))).symm

/-! ## What one sample adds -/

/-- What sample n adds to the intra-class term: the weight of its class times the part of its distance to its own
    class's column that exceeds α (nothing past the last sample). -/
private def addIntra (X : (⟨S131072x512, .f32⟩ : BufTy).Contents (Elt Ideal)) (L : Fin 131072 → Fin 16)
    (CT : (⟨S512x16, .f32⟩ : BufTy).Contents (Elt Ideal)) (DG : (⟨S1x16, .f32⟩ : BufTy).Contents (Elt Ideal)) (n : ℕ) : EReal :=
  if h : n < 131072 then DG (ix2 (0 : Fin 1) (L ⟨n, h⟩)) * Cert.Spec.over (Cert.Spec.dist X CT ⟨n, h⟩ (L ⟨n, h⟩)) else 0

/-- What sample n adds to entry (k, k') of the inter-class table: if its class is k', the part by which β exceeds its
    distance to column k (nothing past the last sample). -/
private def addInter (X : (⟨S131072x512, .f32⟩ : BufTy).Contents (Elt Ideal)) (L : Fin 131072 → Fin 16)
    (CT : (⟨S512x16, .f32⟩ : BufTy).Contents (Elt Ideal)) (k k' : Fin 16) (n : ℕ) : EReal :=
  if h : n < 131072 then (if L ⟨n, h⟩ = k' then Cert.Spec.under (Cert.Spec.dist X CT ⟨n, h⟩ k) else 0) else 0

/-! ## The zero blocks, and the labels' column -/

private theorem pay3_zero (i : S1x1x1.Idx) : k1_pay3 (F := Ideal) i = 0 :=
  (show k1_pay3 (F := Ideal) i = Ideal.ofBits .f32 0x00000000#32 from rfl).trans Cert.Alg.ofBits_zero

private theorem pay4_zero (i : S1x16x16.Idx) : k1_pay4 (F := Ideal) i = 0 :=
  (show k1_pay4 (F := Ideal) i = Ideal.ofBits .f32 0x00000000#32 from rfl).trans Cert.Alg.ofBits_zero

/-- The labels as one column: row n of the column is label n (the same row-major position). -/
private theorem label_column (lab : (⟨S131072, .i32⟩ : BufTy).Contents (Elt Ideal)) (n : Fin 131072) :
    shapeCast S131072x1 lab shapeCasts_S131072_S131072x1 (ix2 n (0 : Fin 1)) = lab (ix1 n) :=
  shapeCast_apply lab shapeCasts_S131072_S131072x1 (ix2 n (0 : Fin 1)) (ix1 n) (by
    rw [Shape.rowMajor_val_one, Shape.rowMajor_val_two]
    show n.val = n.val * 1 + 0
    omega)

/-! ## One tile, over the samples' numbers -/

/-- The intra-class step of tile t, whose row r is sample 8192 t + r. -/
private theorem tile_intra_at (x : Vec Ideal S8192x512 .f32) (l : Vec Ideal S8192x1 .i32) (ct : Vec Ideal S512x16 .f32)
    (dg : Vec Ideal S1x16 .f32) (a : Vec Ideal S1x1x1 .f32)
    (X : (⟨S131072x512, .f32⟩ : BufTy).Contents (Elt Ideal)) (L : Fin 131072 → Fin 16)
    (CT : (⟨S512x16, .f32⟩ : BufTy).Contents (Elt Ideal)) (DG : (⟨S1x16, .f32⟩ : BufTy).Contents (Elt Ideal))
    (t : ℕ) (ht : ∀ r : Fin 8192, 8192 * t + r.val < 131072)
    (hx : ∀ (r : Fin 8192) (d : Fin 512), x (ix2 r d) = X (ix2 ⟨8192 * t + r.val, ht r⟩ d))
    (hl : ∀ r : Fin 8192, l (ix2 r (0 : Fin 1)) = BitVec.ofNat 32 (L ⟨8192 * t + r.val, ht r⟩).val)
    (hct : ct = CT) (hdg : dg = DG) (i : S1x1x1.Idx) :
    k1_pay1 (F := Ideal) (k1_pay7 x ct l dg) a i = a i + tileSum (addIntra X L CT DG) t := by
  subst hct hdg
  refine (tile_intra x l ct dg a (fun r => L ⟨8192 * t + r.val, ht r⟩) hl i).trans ?_
  refine congrArg (a i + ·) (Finset.sum_congr rfl fun r _ => ?_)
  have hrow : (fun d : Fin 512 => x (ix2 r d)) = fun d => X (ix2 ⟨8192 * t + r.val, ht r⟩ d) := funext fun d => hx r d
  unfold addIntra
  rw [dif_pos (ht r), hrow]
  rfl

/-- The inter-class step of tile t, whose row r is sample 8192 t + r, at entry (k, k'). -/
private theorem tile_inter_at (x : Vec Ideal S8192x512 .f32) (l : Vec Ideal S8192x1 .i32) (ct : Vec Ideal S512x16 .f32)
    (a : Vec Ideal S1x16x16 .f32)
    (X : (⟨S131072x512, .f32⟩ : BufTy).Contents (Elt Ideal)) (L : Fin 131072 → Fin 16)
    (CT : (⟨S512x16, .f32⟩ : BufTy).Contents (Elt Ideal))
    (t : ℕ) (ht : ∀ r : Fin 8192, 8192 * t + r.val < 131072)
    (hx : ∀ (r : Fin 8192) (d : Fin 512), x (ix2 r d) = X (ix2 ⟨8192 * t + r.val, ht r⟩ d))
    (hl : ∀ r : Fin 8192, l (ix2 r (0 : Fin 1)) = BitVec.ofNat 32 (L ⟨8192 * t + r.val, ht r⟩).val)
    (hct : ct = CT) (k k' : Fin 16) :
    k1_pay2 (F := Ideal) (k1_pay5 x ct) (k1_pay6 l) a (ix3 (0 : Fin 1) k k')
      = a (ix3 (0 : Fin 1) k k') + tileSum (addInter X L CT k k') t := by
  subst hct
  refine (tile_inter x l ct a (fun r => L ⟨8192 * t + r.val, ht r⟩) hl k k').trans ?_
  refine congrArg (a (ix3 (0 : Fin 1) k k') + ·) (Finset.sum_congr rfl fun r _ => ?_)
  have hrow : (fun d : Fin 512 => x (ix2 r d)) = fun d => X (ix2 ⟨8192 * t + r.val, ht r⟩ d) := funext fun d => hx r d
  unfold addInter
  rw [dif_pos (ht r), hrow]
  rfl

variable (V : (c : Dev nD) → (b : Ref sig .tc) → Buf (Elt Ideal) ((c : Thread nD τ).loc b))

/-- Where the windows' blocks sit: point t reads row block t of the samples and of the labels, and block (0, 0) of the
    two whole arrays. -/
private theorem blockIdx : ∀ t : Fin cfg1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0) :=
  (by decide +kernel : ∀ t : Fin grid1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0))

/-- Row r of the samples' tile at point t is sample 8192 t + r. -/
private theorem xb_apply (c : Dev nD) (t : Fin cfg1.N) (r : Fin 8192) (d : Fin 512) (h : 8192 * t.val + r.val < 131072) :
    xb (F := Ideal) V c t (ix2 r d) = V c main_arg0 (ix2 ⟨8192 * t.val + r.val, h⟩ d) := by
  show iblk1 V c 0 t (ix2 r d) = _
  unfold iblk1
  rw [View.read_apply]
  show V c main_arg0 _ = V c main_arg0 _
  congr 1
  funext a
  apply Fin.ext
  match a with
  | ⟨0, _⟩ => show win1_0.index t 0 * 8192 + 1 * r.val = 8192 * t.val + r.val; rw [(blockIdx t).1.1]; omega
  | ⟨1, _⟩ => show win1_0.index t 1 * 512 + 1 * d.val = d.val; rw [(blockIdx t).1.2]; omega

/-- Row r of the labels' tile at point t is the label column's row 8192 t + r. -/
private theorem lb_apply (c : Dev nD) (t : Fin cfg1.N) (r : Fin 8192) (h : 8192 * t.val + r.val < 131072) :
    lb (F := Ideal) V c t (ix2 r (0 : Fin 1)) = V c main_v1 (ix2 ⟨8192 * t.val + r.val, h⟩ (0 : Fin 1)) := by
  show iblk1 V c 1 t (ix2 r (0 : Fin 1)) = _
  unfold iblk1
  rw [View.read_apply]
  show V c main_v1 _ = V c main_v1 _
  congr 1
  funext a
  apply Fin.ext
  match a with
  | ⟨0, _⟩ => show win1_1.index t 0 * 8192 + 1 * r.val = 8192 * t.val + r.val; rw [(blockIdx t).2.1.1]; omega
  | ⟨1, _⟩ => show win1_1.index t 1 * 1 + 1 * 0 = 0; rw [(blockIdx t).2.1.2]

/-- The class columns' block is the whole array at every point. -/
private theorem ctb_eq (c : Dev nD) (t : Fin cfg1.N) : ctb (F := Ideal) V c t = V c main_v20 := by
  funext j
  show iblk1 V c 2 t j = _
  unfold iblk1
  rw [View.read_apply]
  show V c main_v20 _ = V c main_v20 j
  congr 1
  funext a
  apply Fin.ext
  match a with
  | ⟨0, _⟩ => show win1_2.index t 0 * 512 + 1 * (j 0).val = (j 0).val; rw [(blockIdx t).2.2.1.1]; omega
  | ⟨1, _⟩ => show win1_2.index t 1 * 16 + 1 * (j 1).val = (j 1).val; rw [(blockIdx t).2.2.1.2]; omega

/-- The degree row's block is the whole array at every point. -/
private theorem dgb_eq (c : Dev nD) (t : Fin cfg1.N) : dgb (F := Ideal) V c t = V c main_v40 := by
  funext j
  show iblk1 V c 3 t j = _
  unfold iblk1
  rw [View.read_apply]
  show V c main_v40 _ = V c main_v40 j
  congr 1
  funext a
  apply Fin.ext
  match a with
  | ⟨0, _⟩ => show win1_3.index t 0 * 1 + 1 * (j 0).val = (j 0).val; rw [(blockIdx t).2.2.2.1]; omega
  | ⟨1, _⟩ => show win1_3.index t 1 * 16 + 1 * (j 1).val = (j 1).val; rw [(blockIdx t).2.2.2.2]; omega

/-! ## One grid point's step, at the blocks it reads -/

/-- Tile t's row r is a sample: 8192 t + r < 131072 for t < 16. -/
private theorem tile_lt (t : Fin cfg1.N) (r : Fin 8192) : 8192 * t.val + r.val < 131072 := by
  have hN : t.val < 16 := lt_of_lt_of_eq t.isLt (show cfg1.N = 16 from N_1)
  have := r.isLt
  omega

/-- The first accumulator's step at point t: tile t's intra-class sum is added. -/
private theorem step_fst (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal)) (DG : (⟨S1x16, .f32⟩ : BufTy).Contents (Elt Ideal))
    (L : Fin 131072 → Fin 16)
    (hX : V c main_arg0 = X) (hl : V c main_v1 = shapeCast S131072x1 lab shapeCasts_S131072_S131072x1)
    (hCT : V c main_v20 = CT) (hDG : V c main_v40 = DG)
    (hL : ∀ n : Fin 131072, lab (ix1 n) = BitVec.ofNat 32 (L n).val)
    (t : Fin cfg1.N) (a4 : Vec Ideal S1x1x1 .f32) (a5 : Vec Ideal S1x16x16 .f32) (i : S1x1x1.Idx) :
    (step (xb V c t) (lb V c t) (ctb V c t) (dgb V c t) a4 a5).1 i = a4 i + tileSum (addIntra X L CT DG) t.val :=
  tile_intra_at (xb V c t) (lb V c t) (ctb V c t) (dgb V c t) a4 X L CT DG t.val (tile_lt t)
    (fun r d => (xb_apply V c t r d (tile_lt t r)).trans (congrFun hX _))
    (fun r => ((lb_apply V c t r (tile_lt t r)).trans (congrFun hl _)).trans ((label_column lab _).trans (hL _)))
    ((ctb_eq V c t).trans hCT) ((dgb_eq V c t).trans hDG) i

/-- The second accumulator's step at point t, at entry (k, k'): tile t's inter-class sum is added. -/
private theorem step_snd (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal))
    (L : Fin 131072 → Fin 16)
    (hX : V c main_arg0 = X) (hl : V c main_v1 = shapeCast S131072x1 lab shapeCasts_S131072_S131072x1)
    (hCT : V c main_v20 = CT)
    (hL : ∀ n : Fin 131072, lab (ix1 n) = BitVec.ofNat 32 (L n).val)
    (t : Fin cfg1.N) (a4 : Vec Ideal S1x1x1 .f32) (a5 : Vec Ideal S1x16x16 .f32) (k k' : Fin 16) :
    (step (xb V c t) (lb V c t) (ctb V c t) (dgb V c t) a4 a5).2 (ix3 (0 : Fin 1) k k')
      = a5 (ix3 (0 : Fin 1) k k') + tileSum (addInter X L CT k k') t.val :=
  tile_inter_at (xb V c t) (lb V c t) (ctb V c t) a5 X L CT t.val (tile_lt t)
    (fun r d => (xb_apply V c t r d (tile_lt t r)).trans (congrFun hX _))
    (fun r => ((lb_apply V c t r (tile_lt t r)).trans (congrFun hl _)).trans ((label_column lab _).trans (hL _)))
    ((ctb_eq V c t).trans hCT) k k'

/-! ## The accumulators after point n

Read at one place P, each point adds its tile's sum g; a point at a multiple of 8 restarts from the zero blocks. So after
point n the place holds the sums of the tiles from the last multiple of 8 up to n. -/

/-- By induction on the point: a restart leaves the tile's own sum, any other point adds its tile's sum to the sums
    before. -/
private theorem chain_closed (c : Dev nD) (P : Vec Ideal S1x1x1 .f32 × Vec Ideal S1x16x16 .f32 → EReal) (g : ℕ → EReal)
    (hstep : ∀ (t : Fin cfg1.N) (a4 : Vec Ideal S1x1x1 .f32) (a5 : Vec Ideal S1x16x16 .f32),
      P (step (xb V c t) (lb V c t) (ctb V c t) (dgb V c t) a4 a5) = P (a4, a5) + tileSum g t.val)
    (hzero : P (k1_pay3 (F := Ideal), k1_pay4 (F := Ideal)) = 0) :
    ∀ (n : ℕ) (h : n < cfg1.N), P (chain V c n h) = ∑ j ∈ Finset.range (n % 8 + 1), tileSum g (n - n % 8 + j)
  | 0, h => by
    rw [chain, hstep ⟨0, h⟩, hzero, zero_add]
    simp
  | n + 1, h => by
    rw [chain]
    by_cases h0 : (n + 1) % 8 = 0
    · rw [if_pos h0, hstep ⟨n + 1, h⟩, hzero, zero_add, h0]
      simp
    · have e1 : (n + 1) % 8 = n % 8 + 1 := by omega
      have e2 : n + 1 - (n % 8 + 1) = n - n % 8 := by omega
      have e3 : n - n % 8 + (n % 8 + 1) = n + 1 := by omega
      rw [if_neg h0, hstep ⟨n + 1, h⟩,
        show ((chain V c n (Nat.lt_of_succ_lt h)).1, (chain V c n (Nat.lt_of_succ_lt h)).2) = chain V c n (Nat.lt_of_succ_lt h) from rfl,
        chain_closed c P g hstep hzero n (Nat.lt_of_succ_lt h), e1, e2,
        Finset.sum_range_succ (fun j => tileSum g (n - n % 8 + j)) (n % 8 + 1), e3]

/-- After a half's last point: the sums of that half's eight tiles. -/
private theorem chain_last (c : Dev nD) (P : Vec Ideal S1x1x1 .f32 × Vec Ideal S1x16x16 .f32 → EReal) (g : ℕ → EReal)
    (hstep : ∀ (t : Fin cfg1.N) (a4 : Vec Ideal S1x1x1 .f32) (a5 : Vec Ideal S1x16x16 .f32),
      P (step (xb V c t) (lb V c t) (ctb V c t) (dgb V c t) a4 a5) = P (a4, a5) + tileSum g t.val)
    (hzero : P (k1_pay3 (F := Ideal), k1_pay4 (F := Ideal)) = 0) (h : Fin 2) :
    P (chain V c (8 * h.val + 7) (last_lt h)) = ∑ j ∈ Finset.range 8, tileSum g (8 * h.val + j) := by
  rw [chain_closed V c P g hstep hzero (8 * h.val + 7) (last_lt h),
    show (8 * h.val + 7) % 8 = 7 from by omega, show 8 * h.val + 7 - 7 = 8 * h.val from by omega]

/-! ## The host's sums over the two halves -/

/-- The intra-class array has one entry per half. -/
private def halfIdx : Fin 2 ≃ S2x1x1.Idx where
  toFun h := ix3 h (0 : Fin 1) (0 : Fin 1)
  invFun i := i 0
  left_inv h := rfl
  right_inv i := by
    have h1 : (i 1).val < 1 := (i 1).isLt
    have h2 : (i 2).val < 1 := (i 2).isLt
    funext a
    match a with
    | ⟨0, _⟩ => rfl
    | ⟨1, _⟩ => exact Fin.ext (by show 0 = (i 1).val; omega)
    | ⟨2, _⟩ => exact Fin.ext (by show 0 = (i 2).val; omega)

end Pieces

theorem sumG4_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal)) (DG : (⟨S1x16, .f32⟩ : BufTy).Contents (Elt Ideal))
    (L : Fin 131072 → Fin 16)
    (hX : V c main_arg0 = X) (hl : V c main_v1 = shapeCast S131072x1 lab shapeCasts_S131072_S131072x1)
    (hCT : V c main_v20 = CT) (hDG : V c main_v40 = DG)
    (hL : ∀ n : Fin 131072, lab (ix1 n) = BitVec.ofNat 32 (L n).val) :
    Host.reduceAdd (G4 (F := Ideal) V c) (constant S_ .f32 0x00000000#32) reducesTo_S2x1x1_S_d0_1_2 h_S_
      = fun _ => Cert.Spec.intra X L CT (fun k => DG (ix2 (0 : Fin 1) k)) := by
  funext j
  show Ideal.hostReduceAdd reducesTo_S2x1x1_S_d0_1_2 (G4 (F := Ideal) V c) (Ideal.ofBits .f32 0x00000000#32) j = _
  rw [Ideal.hostReduceAdd_total reducesTo_S2x1x1_S_d0_1_2 (fun b => b.elim0), Cert.Alg.ofBits_zero, zero_add,
    ← Equiv.sum_comp halfIdx (G4 (F := Ideal) V c)]
  have hG : ∀ h : Fin 2, G4 (F := Ideal) V c (halfIdx h)
      = ∑ j ∈ Finset.range 8, tileSum (addIntra X L CT DG) (8 * h.val + j) := fun h =>
    chain_last V c (fun p => p.1 (ix3 (0 : Fin 1) (0 : Fin 1) (0 : Fin 1))) (addIntra X L CT DG)
      (fun t a4 a5 => step_fst V c X lab CT DG L hX hl hCT hDG hL t a4 a5 (ix3 (0 : Fin 1) (0 : Fin 1) (0 : Fin 1)))
      (pay3_zero (ix3 (0 : Fin 1) (0 : Fin 1) (0 : Fin 1))) h
  rw [Finset.sum_congr rfl (fun h _ => hG h), regroup]
  unfold Cert.Spec.intra
  refine Finset.sum_congr rfl fun n _ => ?_
  unfold addIntra
  rw [dif_pos n.isLt]

theorem sumG5_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal)) (DG : (⟨S1x16, .f32⟩ : BufTy).Contents (Elt Ideal))
    (L : Fin 131072 → Fin 16)
    (hX : V c main_arg0 = X) (hl : V c main_v1 = shapeCast S131072x1 lab shapeCasts_S131072_S131072x1)
    (hCT : V c main_v20 = CT) (hDG : V c main_v40 = DG)
    (hL : ∀ n : Fin 131072, lab (ix1 n) = BitVec.ofNat 32 (L n).val) :
    Host.reduceAdd (G5 (F := Ideal) V c) (constant S_ .f32 0x00000000#32) reducesTo_S2x16x16_S16x16_d0 h_S_
      = fun i => Cert.Spec.inter X L CT (i 0) (i 1) := by
  funext j
  obtain ⟨k, k', rfl⟩ : ∃ (k k' : Fin 16), j = ix2 k k' := ⟨j 0, j 1, eq_ix2 j⟩
  have hR : S2x16x16.Reduces [0] S16x16 := by decide
  show Ideal.hostReduceAdd reducesTo_S2x16x16_S16x16_d0 (G5 (F := Ideal) V c) (Ideal.ofBits .f32 0x00000000#32) (ix2 k k')
    = Cert.Spec.inter X L CT k k'
  rw [Ideal.hostReduceAdd_single reducesTo_S2x16x16_S16x16_d0 hR, Cert.Alg.ofBits_zero, zero_add]
  have hG : ∀ h : Fin 2, G5 (F := Ideal) V c (hR.lift (ix2 k k') h)
      = ∑ j ∈ Finset.range 8, tileSum (addInter X L CT k k') (8 * h.val + j) := fun h =>
    chain_last V c (fun p => p.2 (ix3 (0 : Fin 1) k k')) (addInter X L CT k k')
      (fun t a4 a5 => step_snd V c X lab CT L hX hl hCT hL t a4 a5 k k') (pay4_zero (ix3 (0 : Fin 1) k k')) h
  show ∑ h : Fin 2, G5 (F := Ideal) V c (hR.lift (ix2 k k') h) = _
  rw [Finset.sum_congr rfl (fun h _ => hG h), regroup]
  unfold Cert.Spec.inter
  refine Finset.sum_congr rfl fun n _ => ?_
  unfold addInter
  rw [dif_pos n.isLt]

end Cert.KernelIdeal.R1

end
-- ==== Proof.Region1.lean ====
/-
  The second pass, read as a value: the per-half partial results it leaves, added over the halves, are the
  intra-class term and the inter-class table.
-/
import proofs.«425050_j40157944218131_3_alg».proof.Proof.Gen.KernelIdeal.Frame
import proofs.«425050_j40157944218131_3_alg».proof.Proof.R1Frame
import proofs.«425050_j40157944218131_3_alg».proof.Proof.R1Math
import Idealize.ShloMosaic.Lib.Pipeline.Value
import Idealize.ShloMosaic.Lib.ValueIdx
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx Idealize.SL.Sem
open Idealize.ShloMosaic.Pipeline (Dat)

theorem intra_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal)) (DG : (⟨S1x16, .f32⟩ : BufTy).Contents (Elt Ideal))
    (L : Fin 131072 → Fin 16)
    (hX : V c main_arg0 = X) (hl : V c main_v1 = shapeCast S131072x1 lab shapeCasts_S131072_S131072x1)
    (hCT : V c main_v20 = CT) (hDG : V c main_v40 = DG)
    (hL : ∀ n : Fin 131072, lab (ix1 n) = BitVec.ofNat 32 (L n).val) :
    Host.reduceAdd (F := Ideal) ((dat1 (F := Ideal) V c).arrAt 4 cfg1.N) (constant S_ .f32 0x00000000#32) reducesTo_S2x1x1_S_d0_1_2 h_S_
      = fun _ => Cert.Spec.intra X L CT (fun k => DG (ix2 (0 : Fin 1) k)) := by
  rw [final4 V c]
  exact sumG4_eq V c X lab CT DG L hX hl hCT hDG hL

theorem inter_eq (V : (c : Dev nD) → (b : Ref sig .tc) → Buf (Elt Ideal) ((c : Thread nD τ).loc b)) (c : Dev nD)
    (X : (⟨S131072x512, .f32⟩ : BufTy).Contents (Elt Ideal)) (lab : (⟨S131072, .i32⟩ : BufTy).Contents (Elt Ideal))
    (CT : (⟨S512x16, .f32⟩ : BufTy).Contents (Elt Ideal)) (DG : (⟨S1x16, .f32⟩ : BufTy).Contents (Elt Ideal))
    (L : Fin 131072 → Fin 16)
    (hX : V c main_arg0 = X) (hl : V c main_v1 = shapeCast S131072x1 lab shapeCasts_S131072_S131072x1)
    (hCT : V c main_v20 = CT) (hDG : V c main_v40 = DG)
    (hL : ∀ n : Fin 131072, lab (ix1 n) = BitVec.ofNat 32 (L n).val) :
    Host.reduceAdd (F := Ideal) ((dat1 (F := Ideal) V c).arrAt 5 cfg1.N) (constant S_ .f32 0x00000000#32) reducesTo_S2x16x16_S16x16_d0 h_S_
      = fun i => Cert.Spec.inter X L CT (i 0) (i 1) := by
  rw [final5 V c]
  exact sumG5_eq V c X lab CT DG L hX hl hCT hDG hL

end Cert.KernelIdeal.R1

end
-- ==== Proof.RefDist.lean ====
/-
  The reference's distance table read at an index: entry (c, n) is the distance of sample n to the scaled centroid
  of class c, the centroid read as column c of the transposed table.
-/
import proofs.«425050_j40157944218131_3_alg».proof.Proof.RefRead
import proofs.«425050_j40157944218131_3_alg».proof.Proof.Spec
import proofs.«425050_j40157944218131_3_alg».proof.Proof.Alg
import Idealize.ShloMosaic.Lib.Pipeline.Value
import Idealize.ShloMosaic.Lib.ValueIdx
import Idealize.ShloMosaic.PureOps.Ideal.Laws

set_option maxRecDepth 16384

noncomputable section

namespace Cert.ReferenceIdeal.RefV

open Cert.ReferenceIdeal Cert.ReferenceIdeal.Gen Cert.ReferenceIdeal.ReadP
open Idealize.ShloMosaic Idealize.ShloMosaic.TcCoe Idealize.ShloMosaic.ValueIdx Idealize.SL.Sem

/-- One entry of a scaled sample row. The row's entries are reals, so its squared length is a non-negative real s;
    the zero word adds nothing to it; and dividing an entry by max(√s, ε) is multiplying it by (max(s, κ))^(-1/2),
    the row's scale. -/
private theorem scaled_entry (X : (⟨2, ![131072, 512]⟩ : Shape).Idx → EReal) (hfin : ∀ i, ∃ r : ℝ, X i = (r : EReal))
    (n : Fin 131072) (k : Fin 512) :
    Ideal.div (X (ix2 n k))
        (max (Ideal.sqrt (Ideal.ofBits .f32 0x00000000#32 + ∑ d : Fin 512, X (ix2 n d) * X (ix2 n d)))
          (Ideal.ofBits .f32 0x322BCC77#32))
      = X (ix2 n k) * Cert.Spec.rowScale (fun d => X (ix2 n d)) := by
  choose r hr using hfin
  have hsum : (∑ d : Fin 512, X (ix2 n d) * X (ix2 n d))
      = ((∑ d : Fin 512, r (ix2 n d) * r (ix2 n d) : ℝ) : EReal) := by
    rw [← Cert.Alg.sumsq_coe (fun d => r (ix2 n d))]
    exact Finset.sum_congr rfl (fun d _ => by rw [hr (ix2 n d)])
  show _ = X (ix2 n k) * Ideal.rsqrt (max (∑ d : Fin 512, X (ix2 n d) * X (ix2 n d)) Cert.Spec.kappa)
  rw [hsum, Cert.Alg.ofBits_zero, zero_add, hr (ix2 n k)]
  exact Cert.Alg.scale_bridge _ _ (Cert.Alg.sumsq_nonneg _)

theorem dist_eq (x0 : (⟨S131072x512, .f32⟩ : BufTy).Contents (Elt Ideal)) (x1 : (⟨S131072, .i32⟩ : BufTy).Contents (Elt Ideal))
    (hfin : ∀ i, ∃ r : ℝ, x0 i = (r : EReal)) (n : Fin 131072) (c : Fin 16) :
    val_main_v56 (F := Ideal) x0 x1 (ix2 c n)
      = Cert.Spec.dist x0 (transpose S512x16 [1, 0] (val_main_v47 (F := Ideal) x0 x1) transposes_S16x512_S512x16_1_0) n c := by
  -- The index maps of the stages between the samples and the distance table, at the entry (c, n) and the
  -- contraction coordinate k: the product reads the centroid at (c, k) and the transposed scaled samples at (k, n),
  -- that is the scaled samples at (n, k); the row's length is broadcast from (n, 0), read from the sum at n over (n, d).
  have hl : ∀ k : Fin 512, lidx_main_v54 (ix2 c n) k = ix2 c k := fun k =>
    funext fun a => Fin.ext (by match a with | ⟨0, _⟩ => rfl | ⟨1, _⟩ => rfl)
  have hr : ∀ k : Fin 512, ridx_main_v54 (ix2 c n) k = ix2 k n := fun k =>
    funext fun a => Fin.ext (by match a with | ⟨0, _⟩ => rfl | ⟨1, _⟩ => rfl)
  have h53 : ∀ k : Fin 512, idx_main_v53 (ix2 k n) = ix2 n k := fun k =>
    funext fun a => Fin.ext (by match a with | ⟨0, _⟩ => rfl | ⟨1, _⟩ => rfl)
  have h51 : ∀ k : Fin 512, idx_main_v51 (ix2 n k) = ix2 n (0 : Fin 1) := fun k =>
    funext fun a => Fin.ext (by match a with | ⟨0, _⟩ => rfl | ⟨1, _⟩ => rfl)
  have hc2 : idx_main_call4_v2 (ix2 n (0 : Fin 1)) = ix1 n :=
    funext fun a => Fin.ext (by match a with | ⟨0, _⟩ => rfl)
  have hc1 : ∀ d : Fin 512, idx_main_call4_v1 (ix1 n) d = ix2 n d := fun d =>
    funext fun a => Fin.ext (by match a with | ⟨0, _⟩ => rfl | ⟨1, _⟩ => rfl)
  -- column c of the transposed centroid table, at d, is the centroid table at (c, d)
  have hT : ∀ d : Fin 512,
      transpose S512x16 [1, 0] (val_main_v47 (F := Ideal) x0 x1) transposes_S16x512_S512x16_1_0 (ix2 d c)
        = val_main_v47 (F := Ideal) x0 x1 (ix2 c d) := fun d =>
    transpose_apply [1, 0] _ transposes_S16x512_S512x16_1_0 (ix2 d c) (ix2 c d)
      (fun b => match b with | ⟨0, _⟩ => rfl | ⟨1, _⟩ => rfl)
  rw [val_main_v56_apply, val_main_v55_apply, val_main_cst_12_apply, val_main_v54_apply]
  show Ideal.ofBits .f32 0x3F800000#32 - _ = Cert.Spec.one - ∑ d : Fin 512, _
  refine congrArg (Cert.Spec.one - ·) (Finset.sum_congr rfl fun k _ => ?_)
  rw [hl, hr, val_main_v53_apply, h53, val_main_v52_apply, val_main_v51_apply, h51, val_main_v50_apply,
    val_main_v48_apply, val_main_call4_v2_apply, hc2, val_main_call4_v1_apply, val_main_call4_cst_apply,
    val_main_v49_apply, val_main_cst_11_apply]
  simp only [hc1, val_main_call4_v0_apply, Ideal.hostDivf_def, Ideal.hostUnary_sqrt_def, Ideal.maximumf_def,
    Ideal.mulf_def, Ideal.ofBits_def]
  rw [hT, scaled_entry x0 hfin n k]
  exact mul_comm _ _

end Cert.ReferenceIdeal.RefV

end
-- ==== Proof.LibGraphOps.lean ====
/-
  Where an update of an accumulating scatter lands, as a host program prints it.

  A hypergraph convolution adds, for every incidence pair, a row of per-pair values into the table row the pair's
  index word names (an accumulating scatter whose scatter indices are the [N, 1] column of those words).
  With the dimension numbers jax prints for "rows of updates added into table rows" — the updates' axis 1 the one
  window axis, the table's axis 0 inserted and scatter-indexed, the index vector on axis 1 of the scatter indices —
  update entry (r, b) lands on table entry (c, f) exactly when row r's scatter word, read as a signed integer, is c,
  and b = f. A word that is no row number (negative, or ≥ the table's rows) lands nowhere. The rank-1 form (a
  vector of updates into a vector) is the same without the feature coordinate. Stated for any sizes.
-/
import Idealize.ShloMosaic.PureOps.Dims
import Idealize.ShloMosaic.PureOps.ShapeOps
import Idealize.ShloMosaic.PureOps.Ideal
import Idealize.ShloMosaic.Lib.ValueIdx

namespace Idealize.ShloMosaic.GraphOps

open Idealize.ShloMosaic Idealize.ShloMosaic.ValueIdx

/-- A rank-1 index has one coordinate, whatever the axis is called. -/
theorem ix1_val {n : Nat} (a : Fin n) (i : Fin 1) : (ix1 a i).val = a.val := by
  match i with
  | ⟨0, _⟩ => rfl

/-- Coordinate 0 of a rank-2 index built from (a, b) is a. -/
theorem ix2_val_zero {n0 n1 : Nat} (a : Fin n0) (b : Fin n1) (x : Fin 2) (h : x.val = 0) : (ix2 a b x).val = a.val := by
  match x, h with
  | ⟨0, _⟩, _ => rfl

/-- Coordinate 1 of a rank-2 index built from (a, b) is b. -/
theorem ix2_val_one {n0 n1 : Nat} (a : Fin n0) (b : Fin n1) (x : Fin 2) (h : x.val = 1) : (ix2 a b x).val = b.val := by
  match x, h with
  | ⟨1, _⟩, _ => rfl

/-! ## 1. Where an update lands -/

section rows
variable {C D N w : Nat} (d : ScatterDims ⟨2, ![C, D]⟩ ⟨2, ![N, 1]⟩ ⟨2, ![N, D]⟩)

/-- With axis 1 of the updates the one window axis, every update scatter axis is axis 0. -/
theorem rows_uScatter (huw : d.updateWindowDims = [1]) : ∀ a ∈ d.uScatter, a.val = 0 := by
  intro a ha
  have hna : a ∉ d.updateWindowDims := by
    have := (List.mem_filter.mp ha).2
    simpa using this
  rw [huw] at hna
  have h2 : a.val < 2 := a.isLt
  by_contra hne
  exact hna (List.mem_singleton.mpr (Fin.ext (by show a.val = 1; omega)))

/-- Update entry (r, b) reads its one scatter word at (r, 0) of the scatter indices. -/
theorem rows_siIdx (huw : d.updateWindowDims = [1]) (hsd : d.scatterDimsToOperandDims = [0]) (hivd : d.indexVectorDim = 1)
    (r : Fin N) (b : Fin D) (k : Fin d.scatterDimsToOperandDims.length) :
    d.siIdx (ix2 r b) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix2_val_zero r b _ (rows_uScatter d huw _ (List.getElem_mem _))
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

/-- On table axis 0 the window of update entry (r, b) starts at row r's scatter word, read signed. -/
theorem rows_start_zero (huw : d.updateWindowDims = [1]) (hsd : d.scatterDimsToOperandDims = [0]) (hivd : d.indexVectorDim = 1)
    (idx : IVec ⟨2, ![N, 1]⟩ w) (r : Fin N) (b : Fin D) :
    d.start (ix2 r b) idx 0 = (idx (ix2 r (0 : Fin 1))).toInt := by
  have hm : (0 : Fin 2) ∈ d.scatterDimsToOperandDims := by rw [hsd]; exact List.mem_singleton.mpr rfl
  unfold ScatterDims.start
  rw [dif_pos hm, rows_siIdx d huw hsd hivd r b]

/-- … and on table axis 1, which no scatter word names, at 0. -/
theorem rows_start_one (hsd : d.scatterDimsToOperandDims = [0]) (idx : IVec ⟨2, ![N, 1]⟩ w) (r : Fin N) (b : Fin D) :
    d.start (ix2 r b) idx 1 = 0 := by
  have hm : (1 : Fin 2) ∉ d.scatterDimsToOperandDims := by rw [hsd]; simp
  unfold ScatterDims.start
  rw [dif_neg hm]

/-- Table axis 0 is inserted: no window coordinate on it. -/
theorem rows_window_zero (hiw : d.insertedWindowDims = [0]) (r : Fin N) (b : Fin D) : d.window (ix2 r b) 0 = 0 := by
  have hk : (0 : Fin 2) ∉ d.sKept := by
    intro h
    have := (List.mem_filter.mp h).2
    rw [hiw] at this
    simp at this
  unfold ScatterDims.window
  rw [dif_neg hk]

/-- Table axis 1 is the one kept axis: its window coordinate is the update's feature column. -/
theorem rows_window_one (huw : d.updateWindowDims = [1]) (hiw : d.insertedWindowDims = [0]) (r : Fin N) (b : Fin D) :
    d.window (ix2 r b) 1 = b.val := by
  have hk : (1 : Fin 2) ∈ d.sKept := by
    refine List.mem_filter.mpr ⟨List.mem_finRange _, ?_⟩
    rw [hiw]; simp
  have hwin : ∀ a ∈ d.updateWindowDims, a.val = 1 := by
    intro a ha; rw [huw] at ha; rw [List.mem_singleton.mp ha]; rfl
  unfold ScatterDims.window
  rw [dif_pos hk]
  exact ix2_val_one r b _ (hwin _ (List.getElem_mem _))

end rows

/-- ROWS INTO ROWS. Update entry (r, b) of [N, D] updates lands on entry (c, f) of a [C, D] table exactly when row r's
    scatter word, as a signed integer, is c, and the feature column is kept (b = f). The four hypotheses are the printed
    dimension numbers, each by `rfl` at a program's record. -/
theorem rows_hit {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (idx : IVec ⟨2, ![N, 1]⟩ w) (r : Fin N) (b f : Fin D) (c : Fin C) :
    d.resultIdx? (ix2 r b) idx = some (ix2 c f) ↔ (idx (ix2 r (0 : Fin 1))).toInt = (c.val : ℤ) ∧ b = f := by
  have hs0 := rows_start_zero d huw hsd hivd idx r b
  have hs1 := rows_start_one d hsd idx r b
  have hw0 := rows_window_zero d hiw r b
  have hw1 := rows_window_one d huw hiw r b
  unfold ScatterDims.resultIdx?
  constructor
  · intro h
    split at h
    · rename_i hc
      have he := Option.some.inj h
      have e0 : (d.start (ix2 r b) idx 0 + (d.window (ix2 r b) 0 : ℤ)).toNat = c.val := congrArg (fun g => (g 0).val) he
      have e1 : (d.start (ix2 r b) idx 1 + (d.window (ix2 r b) 1 : ℤ)).toNat = f.val := congrArg (fun g => (g 1).val) he
      have c0 := (hc 0).1
      rw [hs0, hw0] at e0 c0
      rw [hs1, hw1] at e1
      exact ⟨by omega, Fin.ext (by omega)⟩
    · cases h
  · rintro ⟨hS, rfl⟩
    have hcl : c.val < C := c.isLt
    have hbl : b.val < D := b.isLt
    rw [dif_pos (by
      intro a
      match a with
      | ⟨0, _⟩ =>
        show 0 ≤ d.start (ix2 r b) idx 0 + (d.window (ix2 r b) 0 : ℤ) ∧ d.start (ix2 r b) idx 0 + (d.window (ix2 r b) 0 : ℤ) < (C : ℤ)
        rw [hs0, hw0, hS]; omega
      | ⟨1, _⟩ =>
        show 0 ≤ d.start (ix2 r b) idx 1 + (d.window (ix2 r b) 1 : ℤ) ∧ d.start (ix2 r b) idx 1 + (d.window (ix2 r b) 1 : ℤ) < (D : ℤ)
        rw [hs1, hw1]; omega)]
    congr 1
    funext a
    apply Fin.ext
    match a with
    | ⟨0, _⟩ =>
      show (d.start (ix2 r b) idx 0 + (d.window (ix2 r b) 0 : ℤ)).toNat = c.val
      rw [hs0, hw0, hS]; omega
    | ⟨1, _⟩ =>
      show (d.start (ix2 r b) idx 1 + (d.window (ix2 r b) 1 : ℤ)).toNat = b.val
      rw [hs1, hw1]; omega

section vec
variable {C N w : Nat} (d : ScatterDims ⟨1, ![C]⟩ ⟨2, ![N, 1]⟩ ⟨1, ![N]⟩)

/-- Update r of a vector of updates reads its one scatter word at (r, 0) of the scatter indices. -/
theorem vec_siIdx (hsd : d.scatterDimsToOperandDims = [0]) (hivd : d.indexVectorDim = 1)
    (r : Fin N) (k : Fin d.scatterDimsToOperandDims.length) :
    d.siIdx (ix1 r) k = ix2 r (0 : Fin 1) := by
  funext a
  apply Fin.ext
  match a with
  | ⟨0, _⟩ =>
    unfold ScatterDims.siIdx
    rw [dif_neg (by rw [hivd]; exact Nat.zero_ne_one)]
    unfold ScatterDims.siCoord
    simp only [Fin.val_cast]
    exact ix1_val r _
  | ⟨1, _⟩ =>
    unfold ScatterDims.siIdx
    rw [dif_pos (by rw [hivd])]
    have hl : d.scatterDimsToOperandDims.length = 1 := by rw [hsd]; rfl
    have hk : k.val < d.scatterDimsToOperandDims.length := k.isLt
    show k.val = 0
    omega

/-- On the one axis of the operand the window of update r starts at r's scatter word, read signed. -/
theorem vec_start (hsd : d.scatterDimsToOperandDims = [0]) (hivd : d.indexVectorDim = 1)
    (idx : IVec ⟨2, ![N, 1]⟩ w) (r : Fin N) :
    d.start (ix1 r) idx 0 = (idx (ix2 r (0 : Fin 1))).toInt := by
  have hm : (0 : Fin 1) ∈ d.scatterDimsToOperandDims := by rw [hsd]; exact List.mem_singleton.mpr rfl
  unfold ScatterDims.start
  rw [dif_pos hm, vec_siIdx d hsd hivd r]

/-- That axis is inserted: no window coordinate on it. -/
theorem vec_window (hiw : d.insertedWindowDims = [0]) (r : Fin N) : d.window (ix1 r) 0 = 0 := by
  have hk : (0 : Fin 1) ∉ d.sKept := by
    intro h
    have := (List.mem_filter.mp h).2
    rw [hiw] at this
    simp at this
  unfold ScatterDims.window
  rw [dif_neg hk]

end vec

/-- ENTRIES INTO ENTRIES. Update r of a vector of N updates lands on entry c of a vector of C entries exactly when r's
    scatter word, as a signed integer, is c. The four hypotheses are the printed dimension numbers. -/
theorem vec_hit {C N w : Nat} (d : ScatterDims ⟨1, ![C]⟩ ⟨2, ![N, 1]⟩ ⟨1, ![N]⟩)
    (huw : d.updateWindowDims = []) (hiw : d.insertedWindowDims = [0]) (hsd : d.scatterDimsToOperandDims = [0])
    (hivd : d.indexVectorDim = 1)
    (idx : IVec ⟨2, ![N, 1]⟩ w) (r : Fin N) (c : Fin C) :
    d.resultIdx? (ix1 r) idx = some (ix1 c) ↔ (idx (ix2 r (0 : Fin 1))).toInt = (c.val : ℤ) := by
  have _ := huw
  have hs0 := vec_start d hsd hivd idx r
  have hw0 := vec_window d hiw r
  unfold ScatterDims.resultIdx?
  constructor
  · intro h
    split at h
    · rename_i hc
      have he := Option.some.inj h
      have e0 : (d.start (ix1 r) idx 0 + (d.window (ix1 r) 0 : ℤ)).toNat = c.val := congrArg (fun g => (g 0).val) he
      have c0 := (hc 0).1
      rw [hs0, hw0] at e0 c0
      omega
    · cases h
  · intro hS
    have hcl : c.val < C := c.isLt
    rw [dif_pos (by
      intro a
      match a with
      | ⟨0, _⟩ =>
        show 0 ≤ d.start (ix1 r) idx 0 + (d.window (ix1 r) 0 : ℤ) ∧ d.start (ix1 r) idx 0 + (d.window (ix1 r) 0 : ℤ) < (C : ℤ)
        rw [hs0, hw0, hS]; omega)]
    congr 1
    funext a
    apply Fin.ext
    match a with
    | ⟨0, _⟩ =>
      show (d.start (ix1 r) idx 0 + (d.window (ix1 r) 0 : ℤ)).toNat = c.val
      rw [hs0, hw0, hS]; omega

end Idealize.ShloMosaic.GraphOps
-- ==== Proof.RefSums.lean ====
/-
  The reference's two accumulating scatters of rows, read as sums over the samples of a class: the class sums, and
  the inter-class table.
-/
import proofs.«425050_j40157944218131_3_alg».proof.Proof.RefRead
import proofs.«425050_j40157944218131_3_alg».proof.Proof.Spec
import proofs.«425050_j40157944218131_3_alg».proof.Proof.RefDist
import proofs.«425050_j40157944218131_3_alg».proof.Proof.LibGraphOps
import Idealize.ShloMosaic.Lib.Pipeline.Value
import Idealize.ShloMosaic.Lib.ValueIdx
import Idealize.ShloMosaic.PureOps.Ideal.Laws

set_option maxRecDepth 16384

noncomputable section

namespace Cert.ReferenceIdeal.RefV

open Cert.ReferenceIdeal Cert.ReferenceIdeal.Gen Cert.ReferenceIdeal.ReadP
open Idealize.ShloMosaic Idealize.ShloMosaic.TcCoe Idealize.ShloMosaic.ValueIdx Idealize.SL.Sem

/-- A class number below 16, written as a 32-bit word, reads back as itself when the word is read signed. -/
private theorem label_toInt (k : Fin 16) : (BitVec.ofNat 32 k.val).toInt = (k.val : ℤ) := by
  revert k; decide

/-- ROWS ADDED INTO ROWS BY LABEL. With the dimension numbers "rows of updates added into table rows" and row r's
    scatter word the number of the class L r, entry (c, f) of the accumulating scatter is the table's entry plus the sum,
    over the rows r of class c, of the update's entry (r, f): of the update entries (r, b) only those with L r = c and
    b = f land on (c, f). -/
private theorem scatter_rows_apply {C D N w : Nat} (d : ScatterDims ⟨2, ![C, D]⟩ ⟨2, ![N, 1]⟩ ⟨2, ![N, D]⟩)
    (huw : d.updateWindowDims = [1]) (hiw : d.insertedWindowDims = [0]) (hsd : d.scatterDimsToOperandDims = [0])
    (hivd : d.indexVectorDim = 1)
    (x : (⟨2, ![C, D]⟩ : Shape).Idx → EReal) (idx : IVec ⟨2, ![N, 1]⟩ w) (upd : (⟨2, ![N, D]⟩ : Shape).Idx → EReal)
    (L : Fin N → Fin C) (hL : ∀ r : Fin N, (idx (ix2 r (0 : Fin 1))).toInt = ((L r).val : ℤ)) (c : Fin C) (f : Fin D) :
    Ideal.hostScatterAdd d x idx upd (ix2 c f) = x (ix2 c f) + ∑ r : Fin N, if L r = c then upd (ix2 r f) else 0 := by
  unfold Ideal.hostScatterAdd
  congr 1
  rw [Finset.sum_filter, sum_idx2]
  refine Finset.sum_congr rfl fun r _ => ?_
  have hit : ∀ b : Fin D, (d.resultIdx? (ix2 r b) idx = some (ix2 c f)) ↔ (L r = c ∧ b = f) := by
    intro b
    rw [GraphOps.rows_hit d huw hiw hsd hivd idx r b f c, hL r]
    constructor
    · rintro ⟨h, rfl⟩
      exact ⟨Fin.ext (by exact_mod_cast h), rfl⟩
    · rintro ⟨rfl, rfl⟩
      exact ⟨rfl, rfl⟩
  simp only [hit]
  by_cases hc : L r = c
  · simp only [hc, true_and, if_true]
    exact Finset.sum_ite_eq' Finset.univ f (fun b => upd (ix2 r b)) |>.trans (if_pos (Finset.mem_univ f))
  · simp only [hc, false_and, if_false]
    exact Finset.sum_const_zero

/-- The scatter word of row r, in the [131072, 1] column of labels, is the label of sample r. -/
private theorem idx_col (r : Fin 131072) : idx_main_v5 (ix2 r (0 : Fin 1)) = ix1 r :=
  funext fun a => Fin.ext (by match a with | ⟨0, _⟩ => rfl)

/-- The same for the second scatter's column of labels. -/
private theorem idx_col' (r : Fin 131072) : idx_main_v89 (ix2 r (0 : Fin 1)) = ix1 r :=
  funext fun a => Fin.ext (by match a with | ⟨0, _⟩ => rfl)

/-- The transposed table read at (c, c') is the table at (c', c). -/
private theorem idx_tr (c c' : Fin 16) : idx_main_v91 (ix2 c c') = ix2 c' c :=
  funext fun a => Fin.ext (by match a with | ⟨0, _⟩ => rfl | ⟨1, _⟩ => rfl)

/-- The update's entry (r, c) is entry (c, r) of the table it transposes. -/
private theorem idx_upd (r : Fin 131072) (c : Fin 16) : idx_main_v87 (ix2 r c) = ix2 c r :=
  funext fun a => Fin.ext (by match a with | ⟨0, _⟩ => rfl | ⟨1, _⟩ => rfl)

theorem sums_eq (x0 : (⟨S131072x512, .f32⟩ : BufTy).Contents (Elt Ideal)) (x1 : (⟨S131072, .i32⟩ : BufTy).Contents (Elt Ideal))
    (L : Fin 131072 → Fin 16) (hL : ∀ n : Fin 131072, x1 (ix1 n) = BitVec.ofNat 32 (L n).val) :
    val_main_v6 (F := Ideal) x0 x1 = fun i => Cert.Spec.sums x0 L (i 0) (i 1) := by
  funext i
  obtain ⟨c, f, rfl⟩ : ∃ c f, i = ix2 c f := ⟨i 0, i 1, eq_ix2 i⟩
  show val_main_v6 (F := Ideal) x0 x1 (ix2 c f) = Cert.Spec.sums x0 L c f
  unfold val_main_v6 Host.scatterAdd
  rw [Ideal.hostScatterAdd_def]
  refine (scatter_rows_apply scatter_S16x512_S131072x1_S131072x512_1_0_0_1 rfl rfl rfl rfl
    (val_main_v4 (F := Ideal)) (val_main_v5 (F := Ideal) x1) x0 L (fun r => ?_) c f).trans ?_
  · rw [val_main_v5_apply, idx_col, hL r]
    exact label_toInt (L r)
  · rw [val_main_v4_apply, val_main_cst_1_apply, Ideal.ofBits_def, Cert.Alg.ofBits_zero, zero_add]
    rfl

theorem inter_eq (x0 : (⟨S131072x512, .f32⟩ : BufTy).Contents (Elt Ideal)) (x1 : (⟨S131072, .i32⟩ : BufTy).Contents (Elt Ideal))
    (hfin : ∀ i, ∃ r : ℝ, x0 i = (r : EReal)) (L : Fin 131072 → Fin 16) (hL : ∀ n : Fin 131072, x1 (ix1 n) = BitVec.ofNat 32 (L n).val) :
    val_main_v91 (F := Ideal) x0 x1
      = fun i => Cert.Spec.inter x0 L (transpose S512x16 [1, 0] (val_main_v47 (F := Ideal) x0 x1) transposes_S16x512_S512x16_1_0) (i 0) (i 1) := by
  funext i
  obtain ⟨c, c', rfl⟩ : ∃ c c', i = ix2 c c' := ⟨i 0, i 1, eq_ix2 i⟩
  show val_main_v91 (F := Ideal) x0 x1 (ix2 c c')
    = Cert.Spec.inter x0 L (transpose S512x16 [1, 0] (val_main_v47 (F := Ideal) x0 x1) transposes_S16x512_S512x16_1_0) c c'
  rw [val_main_v91_apply, idx_tr]
  unfold val_main_v90 Host.scatterAdd
  rw [Ideal.hostScatterAdd_def]
  refine (scatter_rows_apply scatter_S16x16_S131072x1_S131072x16_1_0_0_1 rfl rfl rfl rfl
    (val_main_v88 (F := Ideal)) (val_main_v89 (F := Ideal) x1) (val_main_v87 (F := Ideal) x0 x1) L (fun r => ?_) c' c).trans ?_
  · rw [val_main_v89_apply, idx_col', hL r]
    exact label_toInt (L r)
  · rw [val_main_v88_apply, val_main_cst_22_apply, Ideal.ofBits_def, Cert.Alg.ofBits_zero, zero_add]
    unfold Cert.Spec.inter
    refine Finset.sum_congr rfl fun r _ => ?_
    congr 1
    rw [val_main_v87_apply, idx_upd, val_main_v86_apply, val_main_v85_apply, val_main_v84_apply, val_main_cst_21_apply,
      val_main_call6_v0_apply, val_main_call6_cst_apply, dist_eq x0 x1 hfin r c]
    rfl

end Cert.ReferenceIdeal.RefV

end
-- ==== Proof.RefIntra.lean ====
/-
  The reference's intra-class term: the two gathers pick, for each sample, its own class's degree and its distance
  to its own class's centroid.
-/
import proofs.«425050_j40157944218131_3_alg».proof.Proof.RefRead
import proofs.«425050_j40157944218131_3_alg».proof.Proof.Spec
import proofs.«425050_j40157944218131_3_alg».proof.Proof.RefDist
import Idealize.ShloMosaic.Lib.Pipeline.Value
import Idealize.ShloMosaic.Lib.ValueIdx
import Idealize.ShloMosaic.Lib.ValueIdxRank1
import Idealize.ShloMosaic.Lib.StableHlo.Predicate
import Idealize.ShloMosaic.PureOps.Ideal.Laws

set_option maxRecDepth 16384

noncomputable section

namespace Cert.ReferenceIdeal.RefV

open Cert.ReferenceIdeal Cert.ReferenceIdeal.Gen Cert.ReferenceIdeal.ReadP
open Idealize.ShloMosaic Idealize.ShloMosaic.TcCoe Idealize.ShloMosaic.ValueIdx Idealize.SL.Sem
open Idealize.ShloMosaic.StableHlo

/-- A non-negative word is not below zero, so the select that adds the extent to negative indices keeps it. -/
private theorem wrap_nonneg (a : ℕ) (ha : a < 2 ^ 31) (y : BitVec 32) :
    Scalar.select (IntOp.cmpi .slt (BitVec.ofNat 32 a) 0#32) y (BitVec.ofNat 32 a) = BitVec.ofNat 32 a := by
  have h : ¬ IntOp.cmpi .slt (BitVec.ofNat 32 a) 0#32 = 1#1 := by
    rw [Predicate.slt_iff_toNat (by rw [BitVec.toNat_ofNat, Nat.mod_eq_of_lt (by omega)]; exact ha) (by decide)]
    exact Nat.not_lt_zero _
  rw [eq_zero_of_ne_one h, select_zero]

/-- A small non-negative word, read signed and clamped into [0, m], is its value when that is at most m. -/
private theorem clamp_small (a m : ℕ) (ha : a < 2 ^ 31) (ham : a ≤ m) :
    min (BitVec.ofNat 32 a).toInt.toNat m = a := by
  rw [Predicate.toInt_ofNat_small a ha, Int.toNat_natCast]; exact Nat.min_eq_left ham

/-- The gather with a pair of start indices per result position: both operand axes are collapsed, so position n reads
    the operand at (its first start index, its second start index), each clamped into its axis; when the pair at n is
    (l, n) with l a class and n the position itself, nothing is clamped and the read is at (l, n). -/
private theorem gather_pair_at {α : Type} (x : S16x131072.Idx → α) (idx : IVec S131072x2 32) (n : Fin 131072) (l : Fin 16)
    (h0 : idx (ix2 n (0 : Fin 2)) = BitVec.ofNat 32 l.val) (h1 : idx (ix2 n (1 : Fin 2)) = BitVec.ofNat 32 n.val) :
    Host.gather gather_S16x131072_S131072x2_S131072_n_01_n_n_01_1_11 x idx (ix1 n) = x (ix2 l n) := by
  unfold Host.gather
  refine congrArg x (funext fun a => Fin.ext ?_)
  show gather_S16x131072_S131072x2_S131072_n_01_n_n_01_1_11.start (ix1 n) idx a
      + gather_S16x131072_S131072x2_S131072_n_01_n_n_01_1_11.batchCoord (ix1 n) a
      + gather_S16x131072_S131072x2_S131072_n_01_n_n_01_1_11.offCoord (ix1 n) a = (ix2 l n a).val
  rw [GatherDims.batchCoord_eq_zero _ _ _ List.not_mem_nil,
    GatherDims.offCoord_eq_zero _ _ _ (fun h => ((GatherDims.mem_sKept _ _).mp h).1 (by revert a; decide))]
  simp only [Nat.add_zero]
  unfold GatherDims.start
  match a with
  | ⟨0, ha0⟩ =>
    have hm : (⟨0, ha0⟩ : Fin S16x131072.rank) ∈ gather_S16x131072_S131072x2_S131072_n_01_n_n_01_1_11.startIndexMap :=
      show (0 : Fin 2) ∈ gather_S16x131072_S131072x2_S131072_n_01_n_n_01_1_11.startIndexMap from by decide
    rw [dif_pos hm]
    have hsi : gather_S16x131072_S131072x2_S131072_n_01_n_n_01_1_11.siIdx (ix1 n)
        ⟨List.idxOf (⟨0, ha0⟩ : Fin S16x131072.rank) gather_S16x131072_S131072x2_S131072_n_01_n_n_01_1_11.startIndexMap,
          List.idxOf_lt_length_iff.2 hm⟩ = ix2 n (0 : Fin 2) := by
      funext b; refine Fin.ext ?_
      match b with
      | ⟨0, _⟩ => rfl
      | ⟨1, _⟩ => rfl
    rw [hsi, h0]
    exact clamp_small l.val 15 (by omega) (by omega)
  | ⟨1, ha1⟩ =>
    have hm : (⟨1, ha1⟩ : Fin S16x131072.rank) ∈ gather_S16x131072_S131072x2_S131072_n_01_n_n_01_1_11.startIndexMap :=
      show (1 : Fin 2) ∈ gather_S16x131072_S131072x2_S131072_n_01_n_n_01_1_11.startIndexMap from by decide
    rw [dif_pos hm]
    have hsi : gather_S16x131072_S131072x2_S131072_n_01_n_n_01_1_11.siIdx (ix1 n)
        ⟨List.idxOf (⟨1, ha1⟩ : Fin S16x131072.rank) gather_S16x131072_S131072x2_S131072_n_01_n_n_01_1_11.startIndexMap,
          List.idxOf_lt_length_iff.2 hm⟩ = ix2 n (1 : Fin 2) := by
      funext b; refine Fin.ext ?_
      match b with
      | ⟨0, _⟩ => rfl
      | ⟨1, _⟩ => rfl
    rw [hsi, h1]
    exact clamp_small n.val 131071 (by omega) (by omega)

/-- The gather with one start index per result position, out of a vector of 16: position n reads the vector at its
    start index clamped into [0, 15]; when that index is a class l, the read is at l. -/
private theorem gather_one_at {α : Type} (x : S16.Idx → α) (idx : IVec S131072x1 32) (n : Fin 131072) (l : Fin 16)
    (h0 : idx (ix2 n (0 : Fin 1)) = BitVec.ofNat 32 l.val) :
    Host.gather gather_S16_S131072x1_S131072_n_0_n_n_0_1_1 x idx (ix1 n) = x (ix1 l) := by
  unfold Host.gather
  refine congrArg x (funext fun a => Fin.ext ?_)
  show gather_S16_S131072x1_S131072_n_0_n_n_0_1_1.start (ix1 n) idx a
      + gather_S16_S131072x1_S131072_n_0_n_n_0_1_1.batchCoord (ix1 n) a
      + gather_S16_S131072x1_S131072_n_0_n_n_0_1_1.offCoord (ix1 n) a = (ix1 l a).val
  rw [GatherDims.batchCoord_eq_zero _ _ _ List.not_mem_nil,
    GatherDims.offCoord_eq_zero _ _ _ (fun h => ((GatherDims.mem_sKept _ _).mp h).1 (by revert a; decide))]
  simp only [Nat.add_zero]
  unfold GatherDims.start
  match a with
  | ⟨0, ha0⟩ =>
    have hm : (⟨0, ha0⟩ : Fin S16.rank) ∈ gather_S16_S131072x1_S131072_n_0_n_n_0_1_1.startIndexMap :=
      show (0 : Fin 1) ∈ gather_S16_S131072x1_S131072_n_0_n_n_0_1_1.startIndexMap from by decide
    rw [dif_pos hm]
    have hsi : gather_S16_S131072x1_S131072_n_0_n_n_0_1_1.siIdx (ix1 n)
        ⟨List.idxOf (⟨0, ha0⟩ : Fin S16.rank) gather_S16_S131072x1_S131072_n_0_n_n_0_1_1.startIndexMap,
          List.idxOf_lt_length_iff.2 hm⟩ = ix2 n (0 : Fin 1) := by
      funext b; refine Fin.ext ?_
      match b with
      | ⟨0, _⟩ => rfl
      | ⟨1, _⟩ => rfl
    rw [hsi, h0]
    exact clamp_small l.val 15 (by omega) (by omega)

/-- The label word of sample n, with negatives wrapped by the number of classes: a class label is not negative, so
    it is the label word itself. -/
private theorem wrapped_label (x1 : (⟨S131072, .i32⟩ : BufTy).Contents (Elt Ideal)) (L : Fin 131072 → Fin 16)
    (hL : ∀ n : Fin 131072, x1 (ix1 n) = BitVec.ofNat 32 (L n).val) (n : Fin 131072) :
    val_main_v62 (F := Ideal) x1 (ix1 n) = BitVec.ofNat 32 (L n).val := by
  rw [val_main_v62_apply, val_main_v59_apply, val_main_v58_apply, val_main_c_13_apply, hL n]
  exact wrap_nonneg _ (by have := (L n).isLt; omega) _

/-- The same wrapped label word, as the program forms it a second time for the degree gather. -/
private theorem wrapped_label' (x1 : (⟨S131072, .i32⟩ : BufTy).Contents (Elt Ideal)) (L : Fin 131072 → Fin 16)
    (hL : ∀ n : Fin 131072, x1 (ix1 n) = BitVec.ofNat 32 (L n).val) (n : Fin 131072) :
    val_main_v76 (F := Ideal) x1 (ix1 n) = BitVec.ofNat 32 (L n).val := by
  rw [val_main_v76_apply, val_main_v73_apply, val_main_v72_apply, val_main_c_17_apply, hL n]
  exact wrap_nonneg _ (by have := (L n).isLt; omega) _

/-- The position word n, with negatives wrapped by the number of samples: a position is not negative. -/
private theorem wrapped_iota (n : Fin 131072) :
    val_main_v67 (F := Ideal) (ix1 n) = BitVec.ofNat 32 n.val := by
  rw [val_main_v67_apply, val_main_v64_apply, val_main_v63_apply, val_main_c_15_apply, val_main_v57_apply]
  show Scalar.select (IntOp.cmpi .slt (BitVec.ofNat 32 n.val) 0#32) _ (BitVec.ofNat 32 n.val) = BitVec.ofNat 32 n.val
  exact wrap_nonneg _ (by have := n.isLt; omega) _

/-- Column 0 of the start-index pairs is the wrapped label column. -/
private theorem pair_col0 (x1 : (⟨S131072, .i32⟩ : BufTy).Contents (Elt Ideal)) (n : Fin 131072) :
    val_main_v70 (F := Ideal) x1 (ix2 n (0 : Fin 2)) = val_main_v62 (F := Ideal) x1 (ix1 n) := by
  unfold val_main_v70
  refine (concatenate_pair_apply_left (1 : Fin S131072x2.rank) (val_main_v68 (F := Ideal) x1) (val_main_v69 (F := Ideal))
    concatenates_S131072x1_S131072x1_S131072x2_d1 (ix2 n (0 : Fin 2)) rfl (ix2 n (0 : Fin 1))
    (fun b => match b with | ⟨0, _⟩ => rfl | ⟨1, _⟩ => rfl)).trans ?_
  rw [val_main_v68_apply]
  exact congrArg _ (funext fun a => Fin.ext (by match a with | ⟨0, _⟩ => rfl))

/-- Column 1 of the start-index pairs is the wrapped position column. -/
private theorem pair_col1 (x1 : (⟨S131072, .i32⟩ : BufTy).Contents (Elt Ideal)) (n : Fin 131072) :
    val_main_v70 (F := Ideal) x1 (ix2 n (1 : Fin 2)) = val_main_v67 (F := Ideal) (ix1 n) := by
  unfold val_main_v70
  refine (concatenate_pair_apply_right (1 : Fin S131072x2.rank) (val_main_v68 (F := Ideal) x1) (val_main_v69 (F := Ideal))
    concatenates_S131072x1_S131072x1_S131072x2_d1 (ix2 n (1 : Fin 2)) rfl rfl (ix2 n (0 : Fin 1))
    (fun b hb => match b, hb with | ⟨0, _⟩, _ => rfl | ⟨1, _⟩, hb => absurd rfl hb) rfl).trans ?_
  rw [val_main_v69_apply]
  exact congrArg _ (funext fun a => Fin.ext (by match a with | ⟨0, _⟩ => rfl))

/-- The one-column start indices of the degree gather are the wrapped label column. -/
private theorem one_col (x1 : (⟨S131072, .i32⟩ : BufTy).Contents (Elt Ideal)) (n : Fin 131072) :
    val_main_v77 (F := Ideal) x1 (ix2 n (0 : Fin 1)) = val_main_v76 (F := Ideal) x1 (ix1 n) := by
  rw [val_main_v77_apply]
  exact congrArg _ (funext fun a => Fin.ext (by match a with | ⟨0, _⟩ => rfl))

theorem intra_eq (x0 : (⟨S131072x512, .f32⟩ : BufTy).Contents (Elt Ideal)) (x1 : (⟨S131072, .i32⟩ : BufTy).Contents (Elt Ideal))
    (hfin : ∀ i, ∃ r : ℝ, x0 i = (r : EReal)) (L : Fin 131072 → Fin 16) (hL : ∀ n : Fin 131072, x1 (ix1 n) = BitVec.ofNat 32 (L n).val) :
    val_main_v83 (F := Ideal) x0 x1
      = fun _ => Cert.Spec.intra x0 L (transpose S512x16 [1, 0] (val_main_v47 (F := Ideal) x0 x1) transposes_S16x512_S512x16_1_0)
          (fun k => val_main_v42 (F := Ideal) x0 x1 (ix1 k)) := by
  funext i
  -- the sum starts from the zero word, which denotes 0, and runs over the samples
  rw [val_main_v83_apply, val_main_cst_20_apply, Ideal.ofBits_def, Cert.Alg.ofBits_zero, zero_add]
  refine (Equiv.sum_comp (idxEquiv1 (n := 131072)).symm (val_main_v82 (F := Ideal) x0 x1)).symm.trans ?_
  unfold Cert.Spec.intra
  refine Finset.sum_congr rfl fun n _ => ?_
  show val_main_v82 (F := Ideal) x0 x1 (ix1 n) = _
  -- sample n's distance to its own class: the pair gather reads the distance table at (L n, n)
  have h71 : val_main_v71 (F := Ideal) x0 x1 (ix1 n)
      = Cert.Spec.dist x0 (transpose S512x16 [1, 0] (val_main_v47 (F := Ideal) x0 x1) transposes_S16x512_S512x16_1_0) n (L n) := by
    unfold val_main_v71
    rw [gather_pair_at _ _ n (L n) ((pair_col0 x1 n).trans (wrapped_label x1 L hL n)) ((pair_col1 x1 n).trans (wrapped_iota n))]
    exact dist_eq x0 x1 hfin n (L n)
  -- sample n's weight: the degree of its own class
  have h78 : val_main_v78 (F := Ideal) x0 x1 (ix1 n) = val_main_v42 (F := Ideal) x0 x1 (ix1 (L n)) := by
    unfold val_main_v78
    exact gather_one_at _ _ n (L n) ((one_col x1 n).trans (wrapped_label' x1 L hL n))
  rw [val_main_v82_apply, val_main_v81_apply, val_main_v80_apply, val_main_v79_apply, val_main_cst_19_apply,
    val_main_call5_v0_apply, val_main_call5_cst_apply, h71, h78]
  rfl

end Cert.ReferenceIdeal.RefV

end
-- ==== Proof.RefMid.lean ====
/-
  The reference's result is the shared closing arithmetic applied to its class sums, its labels, its intra-class
  term and its inter-class table; its scaled centroids and its degrees are the shared functions of its class sums.
  Both programs spell these host operations alike, so each equation holds by unfolding the stages.
-/
import proofs.«425050_j40157944218131_3_alg».proof.Proof.RefRead
import proofs.«425050_j40157944218131_3_alg».proof.Proof.Mid
import proofs.«425050_j40157944218131_3_alg».proof.Proof.Gen.KernelIdeal

set_option maxRecDepth 16384

noncomputable section

namespace Cert.ReferenceIdeal.RefMid

open Cert.ReferenceIdeal Cert.ReferenceIdeal.Gen Cert.ReferenceIdeal.ReadP
open Idealize.ShloMosaic Idealize.ShloMosaic.TcCoe Idealize.SL.Sem

variable {F : FTy → Type} [FloatOps F]

/-- The reference's scaled centroids (its third spelling of the row scaling) are the shared ones of its class sums:
    both sides are the class sums over max(count, 1), each row over max(its length, ε). -/
theorem v47_eq (x0 : (⟨S131072x512, .f32⟩ : BufTy).Contents (Elt F)) (x1 : (⟨S131072, .i32⟩ : BufTy).Contents (Elt F)) :
    val_main_v47 (F := F) x0 x1 = Cert.KernelIdeal.Mid.cnOf (val_main_v6 (F := F) x0 x1) x1 := by
  rfl

/-- The reference's degrees are the shared ones: the row sums plus the column sums of the same table of close pairs
    (the reference scales the centroids twice over for the inner products, both times by the same operations). -/
theorem v42_eq (x0 : (⟨S131072x512, .f32⟩ : BufTy).Contents (Elt F)) (x1 : (⟨S131072, .i32⟩ : BufTy).Contents (Elt F)) :
    val_main_v42 (F := F) x0 x1 = Cert.KernelIdeal.Mid.degOf (val_main_v6 (F := F) x0 x1) x1 := by
  rfl

/-- The reference's result is the shared closing arithmetic at its own close pairs, degrees and counts. -/
theorem result_eq (x0 : (⟨S131072x512, .f32⟩ : BufTy).Contents (Elt F)) (x1 : (⟨S131072, .i32⟩ : BufTy).Contents (Elt F)) :
    val_main_v104 (F := F) x0 x1
      = Cert.KernelIdeal.Mid.loss (val_main_v6 (F := F) x0 x1) x1 (val_main_v83 (F := F) x0 x1) (val_main_v91 (F := F) x0 x1) := by
  rfl

end Cert.ReferenceIdeal.RefMid

end
-- ==== Proof.PreFacts.lean ====
/-
  What the precondition says of the inputs: every sample entry is a real number, and every label is one of the
  sixteen classes.
-/
import proofs.«425050_j40157944218131_3_alg».proof.Pre_finite_inputs
import proofs.«425050_j40157944218131_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx Cert.Pre_finite_inputs

/-- The rank-0 shape has one index. -/
instance : Subsingleton S_.Idx := ⟨fun a b => funext fun d => d.elim0⟩

/-- The precondition's two `all`s, read back element by element: |x| < +∞ leaves only the reals, and
    0 ≤ label < 16 as signed words makes the label the word of a class number. -/
theorem of_pre (x0 : FVec Ideal S131072x512 .f32) (x1 : IVec S131072 32)
    (h : Cert.Pre_finite_inputs.fn (F := Ideal) x0 x1 = fun _ => 1#1) :
    (∀ i, ∃ r : ℝ, x0 i = (r : EReal))
      ∧ ∃ L : Fin 131072 → Fin 16, ∀ n : Fin 131072, x1 (ix1 n) = BitVec.ofNat 32 (L n).val := by
  have h0 := congrFun h ValueIdx.ix0
  dsimp only [Cert.Pre_finite_inputs.fn] at h0
  obtain ⟨hA, hB⟩ := IntOp.andi_eq_one.1 h0
  have hA' := fun i => Host.reduce_andi_all _ _ _ _ _ hA i
  have hB' := fun i => Host.reduce_andi_all _ _ _ _ _ hB i
  refine ⟨fun i => ?_, ?_⟩
  · have hi := hA' i
    simp [cmpf, Host.absf, broadcastInDim, constant, Ideal.ofBits, Ideal.ieee] at hi
    have hi' : Ideal.cmp CmpFPredicate.olt (max (x0 i) (-(x0 i))) ⊤ = 1#1 := hi
    revert hi'
    generalize x0 i = y
    induction y using EReal.rec with
    | bot => intro hi'; exfalso; simp [Ideal.cmp] at hi'
    | top => intro hi'; exfalso; simp [Ideal.cmp] at hi'
    | coe r => intro _; exact ⟨r, rfl⟩
  · have hn : ∀ n : Fin 131072, (0 : ℤ) ≤ (x1 (ix1 n)).toInt ∧ (x1 (ix1 n)).toInt < 16 := by
      intro n
      have hb := hB' (ix1 n)
      have hb' : IntOp.andi (IntOp.cmpi .sge (x1 (ix1 n)) (0#32)) (IntOp.cmpi .slt (x1 (ix1 n)) (16#32)) = 1#1 := hb
      obtain ⟨h1, h2⟩ := IntOp.andi_eq_one.1 hb'
      have h1' := IntOp.cmpi_sge.1 h1
      have h2' := IntOp.cmpi_slt.1 h2
      have e0 : (0#32 : BitVec 32).toInt = 0 := by decide
      have e16 : (16#32 : BitVec 32).toInt = 16 := by decide
      rw [e0] at h1'; rw [e16] at h2'
      exact ⟨h1', h2'⟩
    have hnat : ∀ n : Fin 131072, (x1 (ix1 n)).toNat < 16 := by
      intro n
      obtain ⟨a, b⟩ := hn n
      have hc := BitVec.toInt_eq_toNat_cond (x1 (ix1 n))
      have hlt := (x1 (ix1 n)).isLt
      split at hc <;> omega
    refine ⟨fun n => ⟨(x1 (ix1 n)).toNat, hnat n⟩, fun n => ?_⟩
    apply BitVec.eq_of_toNat_eq
    rw [BitVec.toNat_ofNat]
    exact (Nat.mod_eq_of_lt (x1 (ix1 n)).isLt).symm
end Cert.PreFacts

end
-- ==== Proof.lean ====
/-
  Both programs compute one loss. From the samples X and the labels L: the class sums and the class counts give
  the centroids, these the scaled centroids, the table of close class pairs and each class's degree; a second pass
  over the samples gives the intra-class term (each sample's own-class distance above α, weighted by its class's
  degree) and the inter-class table (per class pair, how far below β the samples of one class lie from the other's
  centroid); the closing arithmetic divides both by the number of terms.
  The kernel program forms the class sums, the intra-class term and the inter-class table in two passes over tiles
  of 8192 samples, each half of the samples accumulated apart and the halves added afterwards; it scales a sample by
  the reciprocal square root of max(‖x‖², ε²) where the reference divides by max(‖x‖, ε) — the same number, ε² read
  as the exact square of the reference's ε —; and it selects a sample's own class by a one-hot product where the
  reference gathers and scatters. Sums over the extended reals may be regrouped freely, so the three quantities
  agree; everything else is spelled alike in the two programs.
-/
import proofs.«425050_j40157944218131_3_alg».proof.Defs
import proofs.«425050_j40157944218131_3_alg».proof.Proof.Gen.Kernel
import proofs.«425050_j40157944218131_3_alg».proof.Proof.Gen.Kernel.Skeleton
import proofs.«425050_j40157944218131_3_alg».proof.Proof.Gen.Kernel.Launch
import proofs.«425050_j40157944218131_3_alg».proof.Proof.Gen.Kernel.Points
import proofs.«425050_j40157944218131_3_alg».proof.Proof.Gen.Kernel.Frame
import proofs.«425050_j40157944218131_3_alg».proof.Proof.Gen.KernelIdeal
import proofs.«425050_j40157944218131_3_alg».proof.Proof.Gen.KernelIdeal.Skeleton
import proofs.«425050_j40157944218131_3_alg».proof.Proof.Gen.KernelIdeal.Launch
import proofs.«425050_j40157944218131_3_alg».proof.Proof.Gen.KernelIdeal.Points
import proofs.«425050_j40157944218131_3_alg».proof.Proof.Gen.KernelIdeal.Frame
import proofs.«425050_j40157944218131_3_alg».proof.Proof.Gen.ReferenceIdeal
import proofs.«425050_j40157944218131_3_alg».proof.Proof.Gen.Pre_finite_inputs
import proofs.«425050_j40157944218131_3_alg».proof.Proof.KRun
import proofs.«425050_j40157944218131_3_alg».proof.Proof.KHost
import proofs.«425050_j40157944218131_3_alg».proof.Proof.Region0
import proofs.«425050_j40157944218131_3_alg».proof.Proof.Region1
import proofs.«425050_j40157944218131_3_alg».proof.Proof.RefSums
import proofs.«425050_j40157944218131_3_alg».proof.Proof.RefIntra
import proofs.«425050_j40157944218131_3_alg».proof.Proof.RefMid
import proofs.«425050_j40157944218131_3_alg».proof.Proof.PreFacts
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- Under the precondition the kernel program's result is the reference's stage term of the same arguments: both are
    the shared closing arithmetic of the class sums, the labels, the intra-class term and the inter-class table, and
    these three quantities are the same sums over the samples on both sides; the scaled centroids reach the second
    pass as columns (a transpose both programs spell) and the degrees as one row (read back at an index). -/
theorem key (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    Cert.KernelIdeal.Gen.W10 m ρ c (Proc.devRef .tc Cert.KernelIdeal.main_v56)
      = Cert.ReferenceIdeal.ReadP.val_main_v104 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨hfin, L, hL⟩ := Cert.PreFacts.of_pre _ _ hpre
  have hs : Cert.KernelIdeal.KHost.sumsK m ρ c
      = fun i => Cert.Spec.sums (m ((c.tc : Thread Cert.KernelIdeal.nD Cert.KernelIdeal.τ).loc Cert.KernelIdeal.main_arg0)) L (i 0) (i 1) := by
    unfold Cert.KernelIdeal.KHost.sumsK
    rw [Cert.KernelIdeal.KHost.W2_v2]
    exact Cert.KernelIdeal.R0.sums_eq (Cert.KernelIdeal.Gen.V1 m ρ) c _ _ L
      (Cert.KernelIdeal.KHost.V1_arg0 m ρ c) (Cert.KernelIdeal.KHost.V1_v0 m ρ c) hL
  have hs' := Cert.ReferenceIdeal.RefV.sums_eq
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) L hL
  rw [Cert.KernelIdeal.KHost.W10_v56, Cert.ReferenceIdeal.RefMid.result_eq,
    Cert.KernelIdeal.KHost.W8_v41_0, Cert.KernelIdeal.KHost.W8_v41_1,
    Cert.KernelIdeal.R1.intra_eq (Cert.KernelIdeal.Gen.V7 m ρ) c _ _ _ _ L
      (Cert.KernelIdeal.KHost.V7_arg0 m ρ c) (Cert.KernelIdeal.KHost.V7_v1 m ρ c)
      (Cert.KernelIdeal.KHost.V7_v20 m ρ c) (Cert.KernelIdeal.KHost.V7_v40 m ρ c) hL,
    Cert.KernelIdeal.R1.inter_eq (Cert.KernelIdeal.Gen.V7 m ρ) c _ _ _ _ L
      (Cert.KernelIdeal.KHost.V7_arg0 m ρ c) (Cert.KernelIdeal.KHost.V7_v1 m ρ c)
      (Cert.KernelIdeal.KHost.V7_v20 m ρ c) (Cert.KernelIdeal.KHost.V7_v40 m ρ c) hL,
    Cert.ReferenceIdeal.RefV.intra_eq _ _ hfin L hL, Cert.ReferenceIdeal.RefV.inter_eq _ _ hfin L hL,
    Cert.ReferenceIdeal.RefMid.v47_eq, Cert.ReferenceIdeal.RefMid.v42_eq, hs, hs']
  have hdeg : ∀ (D : (⟨Cert.KernelIdeal.S16, .f32⟩ : BufTy).Contents (Elt Ideal)) (k : Fin 16),
      Cert.KernelIdeal.Mid.degRow D (ix2 (0 : Fin 1) k) = D (ix1 k) := fun D k => by
    unfold Cert.KernelIdeal.Mid.degRow
    exact shapeCast_a_1a_apply D _ 0 k
  simp only [hdeg]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The one named constant: the table gives "eps_sq" the square of the real that f32(1e-8) denotes, and the printed
    constant is that value at the ideal instance. -/
theorem preserves : Cert.preserves_Kernel_KernelIdeal :=
  IdealRules.named_const.statement Cert.KernelIdeal.κ "eps_sq" .f32 0x24E69595#32
    ((126765058482001 / 1267650600228229401496703205376 : ℝ) : EReal) rfl

/-- The kernel program's run ends with its result at the last boundary's contents; the reference's run ends with its
    result at its stage term of arguments that agree; under the precondition the two are equal (`key`). -/
theorem algebraic : Cert.algebraic_KernelIdeal_ReferenceIdeal := by
  intro m ρ m' ρ' hpre hagree
  refine ⟨fun c => Cert.KernelIdeal.Gen.W10 m ρ c (Proc.devRef .tc Cert.KernelIdeal.main_v56),
    Cert.KernelIdeal.KRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v104_eq, (hagree c).1, (hagree c).2]
  exact (key m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
